-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x512x512 : Shape := ⟨4, ![4, 3, 512, 512]⟩
abbrev S36x12 : Shape := ⟨2, ![36, 12]⟩
abbrev S36 : Shape := ⟨1, ![36]⟩
abbrev S_ : Shape := ⟨0, ![]⟩

class Facts : Prop where
  bcast_S_S4x3x512x512 : S_.BroadcastsInDim S4x3x512x512 (![] : Fin 0 → Fin S4x3x512x512.rank)
  reducesTo_S4x3x512x512_S_d0_1_2_3 : S4x3x512x512.ReducesTo [0, 1, 2, 3] S_
  h_S_ : 0 < S_.numel
  bcast_S_S36x12 : S_.BroadcastsInDim S36x12 (![] : Fin 0 → Fin S36x12.rank)
  reducesTo_S36x12_S_d0_1 : S36x12.ReducesTo [0, 1] S_
  bcast_S_S36 : S_.BroadcastsInDim S36 (![] : Fin 0 → Fin S36.rank)
  reducesTo_S36_S_d0 : S36.ReducesTo [0] S_

variable [Facts]

def fn {F : FTy → Type} [FloatOps F] (main_arg0 : FVec F S4x3x512x512 .f32) (main_arg1 : FVec F S36x12 .f32) (main_arg2 : FVec F S36 .f32) : IVec S_ 1 :=
  let main_v0 : FVec F S4x3x512x512 .f32 := Host.absf main_arg0
  let main_cst : FVec F S_ .f32 := constant S_ .f32 0x7F800000#32
  let main_v1 : FVec F S4x3x512x512 .f32 := broadcastInDim S4x3x512x512 ![] bcast_S_S4x3x512x512 main_cst
  let main_v2 : IVec S4x3x512x512 1 := cmpf .olt main_v0 main_v1
  let main_c : IVec S_ 1 := constantI S_ 1 1#1
  let main_v3 : IVec S_ 1 := (fun x v => Host.reduce IntOp.andi x v reducesTo_S4x3x512x512_S_d0_1_2_3 h_S_) main_v2 main_c
  let main_v4 : FVec F S36x12 .f32 := Host.absf main_arg1
  let main_cst_0 : FVec F S_ .f32 := constant S_ .f32 0x7F800000#32
  let main_v5 : FVec F S36x12 .f32 := broadcastInDim S36x12 ![] bcast_S_S36x12 main_cst_0
  let main_v6 : IVec S36x12 1 := cmpf .olt main_v4 main_v5
  let main_c_1 : IVec S_ 1 := constantI S_ 1 1#1
  let main_v7 : IVec S_ 1 := (fun x v => Host.reduce IntOp.andi x v reducesTo_S36x12_S_d0_1 h_S_) main_v6 main_c_1
  let main_v8 : IVec S_ 1 := andi main_v3 main_v7
  let main_v9 : FVec F S36 .f32 := Host.absf main_arg2
  let main_cst_2 : FVec F S_ .f32 := constant S_ .f32 0x7F800000#32
  let main_v10 : FVec F S36 .f32 := broadcastInDim S36 ![] bcast_S_S36 main_cst_2
  let main_v11 : IVec S36 1 := cmpf .olt main_v9 main_v10
  let main_c_3 : IVec S_ 1 := constantI S_ 1 1#1
  let main_v12 : IVec S_ 1 := (fun x v => Host.reduce IntOp.andi x v reducesTo_S36_S_d0 h_S_) main_v11 main_c_3
  let main_v13 : IVec S_ 1 := andi main_v8 main_v12
  main_v13
-- ==== Kernel.lean ====
abbrev S4x3x512x512 : Shape := ⟨4, ![4, 3, 512, 512]⟩
abbrev S36x12 : Shape := ⟨2, ![36, 12]⟩
abbrev S36 : Shape := ⟨1, ![36]⟩
abbrev S9x12x1x1 : Shape := ⟨4, ![9, 12, 1, 1]⟩
abbrev S_ : Shape := ⟨0, ![]⟩
abbrev S4x3x516x516 : Shape := ⟨4, ![4, 3, 516, 516]⟩
abbrev S4x3x258x2x258x2 : Shape := ⟨6, ![4, 3, 258, 2, 258, 2]⟩
abbrev S4x3x2x2x258x258 : Shape := ⟨6, ![4, 3, 2, 2, 258, 258]⟩
abbrev S4x12x258x258 : Shape := ⟨4, ![4, 12, 258, 258]⟩
abbrev S12x12 : Shape := ⟨2, ![12, 12]⟩
abbrev S12 : Shape := ⟨1, ![12]⟩
abbrev S12x1x1 : Shape := ⟨3, ![12, 1, 1]⟩
abbrev S4x12x256x256 : Shape := ⟨4, ![4, 12, 256, 256]⟩
abbrev S1x12x258x258 : Shape := ⟨4, ![1, 12, 258, 258]⟩
abbrev S1x12x256x256 : Shape := ⟨4, ![1, 12, 256, 256]⟩
abbrev S12x258x258 : Shape := ⟨3, ![12, 258, 258]⟩
abbrev S12x256x256 : Shape := ⟨3, ![12, 256, 256]⟩
abbrev S12x1 : Shape := ⟨2, ![12, 1]⟩
abbrev S1x256x256 : Shape := ⟨3, ![1, 256, 256]⟩
abbrev S256x256 : Shape := ⟨2, ![256, 256]⟩
abbrev S1x258x258 : Shape := ⟨3, ![1, 258, 258]⟩
abbrev S258x258 : Shape := ⟨2, ![258, 258]⟩
abbrev S1x12x1x1 : Shape := ⟨4, ![1, 12, 1, 1]⟩
abbrev S4x3x2x2x256x256 : Shape := ⟨6, ![4, 3, 2, 2, 256, 256]⟩
abbrev S4x3x256x2x256x2 : Shape := ⟨6, ![4, 3, 256, 2, 256, 2]⟩

abbrev nBuf : Space → Nat
  | .hbm => 24
  | .vmem => 11
  | .smem => 0
  | _ => 0

abbrev bufTy : (tb : Table) → Fin (tcTables nBuf tb) → BufTy
  | .hbm, ⟨0, _⟩ => ⟨S4x3x512x512, .f32⟩
  | .hbm, ⟨1, _⟩ => ⟨S36x12, .f32⟩
  | .hbm, ⟨2, _⟩ => ⟨S36, .f32⟩
  | .hbm, ⟨3, _⟩ => ⟨S9x12x1x1, .f32⟩
  | .hbm, ⟨4, _⟩ => ⟨S_, .i32⟩
  | .hbm, ⟨5, _⟩ => ⟨S_, .f32⟩
  | .hbm, ⟨6, _⟩ => ⟨S4x3x516x516, .f32⟩
  | .hbm, ⟨7, _⟩ => ⟨S4x3x258x2x258x2, .f32⟩
  | .hbm, ⟨8, _⟩ => ⟨S4x3x2x2x258x258, .f32⟩
  | .hbm, ⟨9, _⟩ => ⟨S4x12x258x258, .f32⟩
  | .hbm, ⟨10, _⟩ => ⟨S12x12, .f32⟩
  | .hbm, ⟨11, _⟩ => ⟨S12x12, .f32⟩
  | .hbm, ⟨12, _⟩ => ⟨S12x12, .f32⟩
  | .hbm, ⟨13, _⟩ => ⟨S12, .f32⟩
  | .hbm, ⟨14, _⟩ => ⟨S12x1x1, .f32⟩
  | .hbm, ⟨15, _⟩ => ⟨S12, .f32⟩
  | .hbm, ⟨16, _⟩ => ⟨S12x1x1, .f32⟩
  | .hbm, ⟨17, _⟩ => ⟨S12, .f32⟩
  | .hbm, ⟨18, _⟩ => ⟨S12x1x1, .f32⟩
  | .hbm, ⟨19, _⟩ => ⟨S4x12x256x256, .f32⟩
  | .hbm, ⟨20, _⟩ => ⟨S4x3x2x2x256x256, .f32⟩
  | .hbm, ⟨21, _⟩ => ⟨S4x3x256x2x256x2, .f32⟩
  | .hbm, ⟨22, _⟩ => ⟨S4x3x512x512, .f32⟩
  | .hbm, ⟨23, _⟩ => ⟨S4x3x512x512, .f32⟩
  | .local _ .vmem, ⟨0, _⟩ => ⟨S1x12x258x258, .f32⟩
  | .local _ .vmem, ⟨1, _⟩ => ⟨S1x12x258x258, .f32⟩
  | .local _ .vmem, ⟨2, _⟩ => ⟨S12x12, .f32⟩
  | .local _ .vmem, ⟨3, _⟩ => ⟨S12x1x1, .f32⟩
  | .local _ .vmem, ⟨4, _⟩ => ⟨S12x12, .f32⟩
  | .local _ .vmem, ⟨5, _⟩ => ⟨S12x1x1, .f32⟩
  | .local _ .vmem, ⟨6, _⟩ => ⟨S12x12, .f32⟩
  | .local _ .vmem, ⟨7, _⟩ => ⟨S12x1x1, .f32⟩
  | .local _ .vmem, ⟨8, _⟩ => ⟨S9x12x1x1, .f32⟩
  | .local _ .vmem, ⟨9, _⟩ => ⟨S1x12x256x256, .f32⟩
  | .local _ .vmem, ⟨10, _⟩ => ⟨S1x12x256x256, .f32⟩
  | _, _ => ⟨S4x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x12x258x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S9x12x1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x12x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  shapeCasts_S4x3x516x516_S4x3x258x2x258x2 : S4x3x516x516.ShapeCasts S4x3x258x2x258x2
  transposes_S4x3x258x2x258x2_S4x3x2x2x258x258_0_1_3_5_2_4 : S4x3x258x2x258x2.Transposes [0, 1, 3, 5, 2, 4] S4x3x2x2x258x258
  shapeCasts_S4x3x2x2x258x258_S4x12x258x258 : S4x3x2x2x258x258.ShapeCasts S4x12x258x258
  slices_S36x12_S12x12_0_0 : S36x12.Slices ![0, 0] S12x12
  slices_S36x12_S12x12_12_0 : S36x12.Slices ![12, 0] S12x12
  slices_S36x12_S12x12_24_0 : S36x12.Slices ![24, 0] S12x12
  slices_S36_S12_0 : S36.Slices ![0] S12
  shapeCasts_S12_S12x1x1 : S12.ShapeCasts S12x1x1
  slices_S36_S12_12 : S36.Slices ![12] S12
  slices_S36_S12_24 : S36.Slices ![24] S12
  inb_S1x12x258x258_S1x12x258x258_0_0_0_0 : ∀ a, (![0, 0, 0, 0] : Fin 4 → Nat) a + S1x12x258x258.size a ≤ S1x12x258x258.size a
  h_S1x12x258x258 : 0 < S1x12x258x258.numel
  shapeCasts_S1x12x258x258_S12x258x258 : S1x12x258x258.ShapeCasts S12x258x258
  slices_S12x258x258_o0_1_1_S12x256x256 : S12x258x258.Slices ![0, 1, 1] S12x256x256
  inb_S12x12_S12x12_0_0 : ∀ a, (![0, 0] : Fin 2 → Nat) a + S12x12.size a ≤ S12x12.size a
  h_S12x12 : 0 < S12x12.numel
  shapeCasts_S12x12_S12x12 : S12x12.ShapeCasts S12x12
  inb_S12x1x1_S12x1x1_0_0_0 : ∀ a, (![0, 0, 0] : Fin 3 → Nat) a + S12x1x1.size a ≤ S12x1x1.size a
  h_S12x1x1 : 0 < S12x1x1.numel
  shapeCasts_S12x1x1_S12x1x1 : S12x1x1.ShapeCasts S12x1x1
  broadcasts_S12x1x1_S12x256x256 : S12x1x1.Broadcasts S12x256x256
  slices_S12x12_o0_0_S12x1 : S12x12.Slices ![0, 0] S12x1
  shapeCasts_S12x1_S12 : S12x1.ShapeCasts S12
  slices_S12x256x256_o0_0_0_S1x256x256 : S12x256x256.Slices ![0, 0, 0] S1x256x256
  shapeCasts_S1x256x256_S256x256 : S1x256x256.ShapeCasts S256x256
  shapeCasts_S256x256_S1x256x256 : S256x256.ShapeCasts S1x256x256
  broadcasts_S1x256x256_S12x256x256 : S1x256x256.Broadcasts S12x256x256
  slices_S12x12_o0_1_S12x1 : S12x12.Slices ![0, 1] S12x1
  slices_S12x256x256_o1_0_0_S1x256x256 : S12x256x256.Slices ![1, 0, 0] S1x256x256
  slices_S12x12_o0_2_S12x1 : S12x12.Slices ![0, 2] S12x1
  slices_S12x256x256_o2_0_0_S1x256x256 : S12x256x256.Slices ![2, 0, 0] S1x256x256
  slices_S12x12_o0_3_S12x1 : S12x12.Slices ![0, 3] S12x1
  slices_S12x256x256_o3_0_0_S1x256x256 : S12x256x256.Slices ![3, 0, 0] S1x256x256
  slices_S12x12_o0_4_S12x1 : S12x12.Slices ![0, 4] S12x1
  slices_S12x256x256_o4_0_0_S1x256x256 : S12x256x256.Slices ![4, 0, 0] S1x256x256
  slices_S12x12_o0_5_S12x1 : S12x12.Slices ![0, 5] S12x1
  slices_S12x256x256_o5_0_0_S1x256x256 : S12x256x256.Slices ![5, 0, 0] S1x256x256
  slices_S12x12_o0_6_S12x1 : S12x12.Slices ![0, 6] S12x1
  slices_S12x256x256_o6_0_0_S1x256x256 : S12x256x256.Slices ![6, 0, 0] S1x256x256
  slices_S12x12_o0_7_S12x1 : S12x12.Slices ![0, 7] S12x1
  slices_S12x256x256_o7_0_0_S1x256x256 : S12x256x256.Slices ![7, 0, 0] S1x256x256
  slices_S12x12_o0_8_S12x1 : S12x12.Slices ![0, 8] S12x1
  slices_S12x256x256_o8_0_0_S1x256x256 : S12x256x256.Slices ![8, 0, 0] S1x256x256
  slices_S12x12_o0_9_S12x1 : S12x12.Slices ![0, 9] S12x1
  slices_S12x256x256_o9_0_0_S1x256x256 : S12x256x256.Slices ![9, 0, 0] S1x256x256
  slices_S12x12_o0_10_S12x1 : S12x12.Slices ![0, 10] S12x1
  slices_S12x256x256_o10_0_0_S1x256x256 : S12x256x256.Slices ![10, 0, 0] S1x256x256
  slices_S12x12_o0_11_S12x1 : S12x12.Slices ![0, 11] S12x1
  slices_S12x256x256_o11_0_0_S1x256x256 : S12x256x256.Slices ![11, 0, 0] S1x256x256
  broadcasts_S12x1x1_S12x258x258 : S12x1x1.Broadcasts S12x258x258
  slices_S12x258x258_o0_0_0_S1x258x258 : S12x258x258.Slices ![0, 0, 0] S1x258x258
  shapeCasts_S1x258x258_S258x258 : S1x258x258.ShapeCasts S258x258
  shapeCasts_S258x258_S1x258x258 : S258x258.ShapeCasts S1x258x258
  broadcasts_S1x258x258_S12x258x258 : S1x258x258.Broadcasts S12x258x258
  slices_S12x258x258_o1_0_0_S1x258x258 : S12x258x258.Slices ![1, 0, 0] S1x258x258
  slices_S12x258x258_o2_0_0_S1x258x258 : S12x258x258.Slices ![2, 0, 0] S1x258x258
  slices_S12x258x258_o3_0_0_S1x258x258 : S12x258x258.Slices ![3, 0, 0] S1x258x258
  slices_S12x258x258_o4_0_0_S1x258x258 : S12x258x258.Slices ![4, 0, 0] S1x258x258
  slices_S12x258x258_o5_0_0_S1x258x258 : S12x258x258.Slices ![5, 0, 0] S1x258x258
  slices_S12x258x258_o6_0_0_S1x258x258 : S12x258x258.Slices ![6, 0, 0] S1x258x258
  slices_S12x258x258_o7_0_0_S1x258x258 : S12x258x258.Slices ![7, 0, 0] S1x258x258
  slices_S12x258x258_o8_0_0_S1x258x258 : S12x258x258.Slices ![8, 0, 0] S1x258x258
  slices_S12x258x258_o9_0_0_S1x258x258 : S12x258x258.Slices ![9, 0, 0] S1x258x258
  slices_S12x258x258_o10_0_0_S1x258x258 : S12x258x258.Slices ![10, 0, 0] S1x258x258
  slices_S12x258x258_o11_0_0_S1x258x258 : S12x258x258.Slices ![11, 0, 0] S1x258x258
  slices_S12x258x258_o0_0_0_S12x256x256 : S12x258x258.Slices ![0, 0, 0] S12x256x256
  inb_S9x12x1x1_S1x12x1x1_0_0_0_0 : ∀ a, (![0, 0, 0, 0] : Fin 4 → Nat) a + S1x12x1x1.size a ≤ S9x12x1x1.size a
  h_S1x12x1x1 : 0 < S1x12x1x1.numel
  shapeCasts_S1x12x1x1_S12x1x1 : S1x12x1x1.ShapeCasts S12x1x1
  slices_S12x258x258_o0_0_1_S12x256x256 : S12x258x258.Slices ![0, 0, 1] S12x256x256
  inb_S9x12x1x1_S1x12x1x1_1_0_0_0 : ∀ a, (![1, 0, 0, 0] : Fin 4 → Nat) a + S1x12x1x1.size a ≤ S9x12x1x1.size a
  slices_S12x258x258_o0_0_2_S12x256x256 : S12x258x258.Slices ![0, 0, 2] S12x256x256
  inb_S9x12x1x1_S1x12x1x1_2_0_0_0 : ∀ a, (![2, 0, 0, 0] : Fin 4 → Nat) a + S1x12x1x1.size a ≤ S9x12x1x1.size a
  slices_S12x258x258_o0_1_0_S12x256x256 : S12x258x258.Slices ![0, 1, 0] S12x256x256
  inb_S9x12x1x1_S1x12x1x1_3_0_0_0 : ∀ a, (![3, 0, 0, 0] : Fin 4 → Nat) a + S1x12x1x1.size a ≤ S9x12x1x1.size a
  inb_S9x12x1x1_S1x12x1x1_4_0_0_0 : ∀ a, (![4, 0, 0, 0] : Fin 4 → Nat) a + S1x12x1x1.size a ≤ S9x12x1x1.size a
  slices_S12x258x258_o0_1_2_S12x256x256 : S12x258x258.Slices ![0, 1, 2] S12x256x256
  inb_S9x12x1x1_S1x12x1x1_5_0_0_0 : ∀ a, (![5, 0, 0, 0] : Fin 4 → Nat) a + S1x12x1x1.size a ≤ S9x12x1x1.size a
  slices_S12x258x258_o0_2_0_S12x256x256 : S12x258x258.Slices ![0, 2, 0] S12x256x256
  inb_S9x12x1x1_S1x12x1x1_6_0_0_0 : ∀ a, (![6, 0, 0, 0] : Fin 4 → Nat) a + S1x12x1x1.size a ≤ S9x12x1x1.size a
  slices_S12x258x258_o0_2_1_S12x256x256 : S12x258x258.Slices ![0, 2, 1] S12x256x256
  inb_S9x12x1x1_S1x12x1x1_7_0_0_0 : ∀ a, (![7, 0, 0, 0] : Fin 4 → Nat) a + S1x12x1x1.size a ≤ S9x12x1x1.size a
  slices_S12x258x258_o0_2_2_S12x256x256 : S12x258x258.Slices ![0, 2, 2] S12x256x256
  inb_S9x12x1x1_S1x12x1x1_8_0_0_0 : ∀ a, (![8, 0, 0, 0] : Fin 4 → Nat) a + S1x12x1x1.size a ≤ S9x12x1x1.size a
  inb_S1x12x256x256_S1x12x256x256_0_0_0_0 : ∀ a, (![0, 0, 0, 0] : Fin 4 → Nat) a + S1x12x256x256.size a ≤ S1x12x256x256.size a
  h_S1x12x256x256 : 0 < S1x12x256x256.numel
  shapeCasts_S1x12x256x256_S12x256x256 : S1x12x256x256.ShapeCasts S12x256x256
  shapeCasts_S12x256x256_S1x12x256x256 : S12x256x256.ShapeCasts S1x12x256x256
  shapeCasts_S4x12x256x256_S4x3x2x2x256x256 : S4x12x256x256.ShapeCasts S4x3x2x2x256x256
  transposes_S4x3x2x2x256x256_S4x3x256x2x256x2_0_1_4_2_5_3 : S4x3x2x2x256x256.Transposes [0, 1, 4, 2, 5, 3] S4x3x256x2x256x2
  shapeCasts_S4x3x256x2x256x2_S4x3x512x512 : S4x3x256x2x256x2.ShapeCasts S4x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12x258x258.size a ≤ S4x12x258x258.size a
  hwx0_0 : ∀ i : grid0.Coords, EltTy.bits .f32 = 32 ∨ (Rect.block (s := S4x12x258x258) S1x12x258x258.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12x12.size a ≤ S12x12.size a
  hwx0_1 : ∀ i : grid0.Coords, EltTy.bits .f32 = 32 ∨ (Rect.block (s := S12x12) S12x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x1x1.size a ≤ S12x1x1.size a
  hwx0_2 : ∀ i : grid0.Coords, EltTy.bits .f32 = 32 ∨ (Rect.block (s := S12x1x1) S12x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x12.size a ≤ S12x12.size a
  hwx0_3 : ∀ i : grid0.Coords, EltTy.bits .f32 = 32 ∨ (Rect.block (s := S12x12) S12x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x1x1.size a ≤ S12x1x1.size a
  hwx0_4 : ∀ i : grid0.Coords, EltTy.bits .f32 = 32 ∨ (Rect.block (s := S12x1x1) S12x1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x12.size a ≤ S12x12.size a
  hwx0_5 : ∀ i : grid0.Coords, EltTy.bits .f32 = 32 ∨ (Rect.block (s := S12x12) S12x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12x1x1.size a ≤ S12x1x1.size a
  hwx0_6 : ∀ i : grid0.Coords, EltTy.bits .f32 = 32 ∨ (Rect.block (s := S12x1x1) S12x1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S9x12x1x1.size a ≤ S9x12x1x1.size a
  hwx0_7 : ∀ i : grid0.Coords, EltTy.bits .f32 = 32 ∨ (Rect.block (s := S9x12x1x1) S9x12x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x12x256x256.size a ≤ S4x12x256x256.size a
  hwx0_8 : ∀ i : grid0.Coords, EltTy.bits .f32 = 32 ∨ (Rect.block (s := S4x12x256x256) S1x12x256x256.size (cc0_transform_8 i) (hinb0_8 i)).WholeWords (EltTy.packing .f32)

variable [Facts₀]

abbrev win0_0 : Pipeline.Window sig grid0 :=
  Pipeline.Window.ofSpec (Memref.whole main_v3) S1x12x258x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S12x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S12x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S12x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S12x1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S12x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S12x1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_cst) S9x12x1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x12x256x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x3x512x512 : Shape := ⟨4, ![4, 3, 512, 512]⟩
abbrev S36x12 : Shape := ⟨2, ![36, 12]⟩
abbrev S36 : Shape := ⟨1, ![36]⟩
abbrev S9x2x2 : Shape := ⟨3, ![9, 2, 2]⟩
abbrev S_ : Shape := ⟨0, ![]⟩
abbrev S4x3x516x516 : Shape := ⟨4, ![4, 3, 516, 516]⟩
abbrev S4x3x258x2x258x2 : Shape := ⟨6, ![4, 3, 258, 2, 258, 2]⟩
abbrev S4x258x258x3x2x2 : Shape := ⟨6, ![4, 258, 258, 3, 2, 2]⟩
abbrev S4x256x256x3x2x2 : Shape := ⟨6, ![4, 256, 256, 3, 2, 2]⟩
abbrev S4x256x256x1x3x2x2 : Shape := ⟨7, ![4, 256, 256, 1, 3, 2, 2]⟩
abbrev S4x256x256x9x3x2x2 : Shape := ⟨7, ![4, 256, 256, 9, 3, 2, 2]⟩
abbrev S4x256x256x9x12 : Shape := ⟨5, ![4, 256, 256, 9, 12]⟩
abbrev S4x256x256x9x36 : Shape := ⟨5, ![4, 256, 256, 9, 36]⟩
abbrev S1x1x1x1x36 : Shape := ⟨5, ![1, 1, 1, 1, 36]⟩
abbrev S4x256x256x9x3x3x2x2 : Shape := ⟨8, ![4, 256, 256, 9, 3, 3, 2, 2]⟩
abbrev S4x256x256x9x1x3x2x2 : Shape := ⟨8, ![4, 256, 256, 9, 1, 3, 2, 2]⟩
abbrev S9x1x2x2 : Shape := ⟨4, ![9, 1, 2, 2]⟩
abbrev S1x1x1x9x1x2x2 : Shape := ⟨7, ![1, 1, 1, 9, 1, 2, 2]⟩
abbrev S4x3x256x2x256x2 : Shape := ⟨6, ![4, 3, 256, 2, 256, 2]⟩

abbrev nBuf : Space → Nat
  | .hbm => 58
  | .vmem => 0
  | .smem => 0
  | _ => 0

abbrev bufTy : (tb : Table) → Fin (tcTables nBuf tb) → BufTy
  | .hbm, ⟨0, _⟩ => ⟨S4x3x512x512, .f32⟩
  | .hbm, ⟨1, _⟩ => ⟨S36x12, .f32⟩
  | .hbm, ⟨2, _⟩ => ⟨S36, .f32⟩
  | .hbm, ⟨3, _⟩ => ⟨S9x2x2, .f32⟩
  | .hbm, ⟨4, _⟩ => ⟨S_, .i32⟩
  | .hbm, ⟨5, _⟩ => ⟨S_, .f32⟩
  | .hbm, ⟨6, _⟩ => ⟨S4x3x516x516, .f32⟩
  | .hbm, ⟨7, _⟩ => ⟨S4x3x258x2x258x2, .f32⟩
  | .hbm, ⟨8, _⟩ => ⟨S4x258x258x3x2x2, .f32⟩
  | .hbm, ⟨9, _⟩ => ⟨S4x256x256x3x2x2, .f32⟩
  | .hbm, ⟨10, _⟩ => ⟨S4x256x256x3x2x2, .f32⟩
  | .hbm, ⟨11, _⟩ => ⟨S4x256x256x3x2x2, .f32⟩
  | .hbm, ⟨12, _⟩ => ⟨S4x256x256x3x2x2, .f32⟩
  | .hbm, ⟨13, _⟩ => ⟨S4x256x256x3x2x2, .f32⟩
  | .hbm, ⟨14, _⟩ => ⟨S4x256x256x3x2x2, .f32⟩
  | .hbm, ⟨15, _⟩ => ⟨S4x256x256x3x2x2, .f32⟩
  | .hbm, ⟨16, _⟩ => ⟨S4x256x256x3x2x2, .f32⟩
  | .hbm, ⟨17, _⟩ => ⟨S4x256x256x3x2x2, .f32⟩
  | .hbm, ⟨18, _⟩ => ⟨S4x256x256x1x3x2x2, .f32⟩
  | .hbm, ⟨19, _⟩ => ⟨S4x256x256x1x3x2x2, .f32⟩
  | .hbm, ⟨20, _⟩ => ⟨S4x256x256x1x3x2x2, .f32⟩
  | .hbm, ⟨21, _⟩ => ⟨S4x256x256x1x3x2x2, .f32⟩
  | .hbm, ⟨22, _⟩ => ⟨S4x256x256x1x3x2x2, .f32⟩
  | .hbm, ⟨23, _⟩ => ⟨S4x256x256x1x3x2x2, .f32⟩
  | .hbm, ⟨24, _⟩ => ⟨S4x256x256x1x3x2x2, .f32⟩
  | .hbm, ⟨25, _⟩ => ⟨S4x256x256x1x3x2x2, .f32⟩
  | .hbm, ⟨26, _⟩ => ⟨S4x256x256x1x3x2x2, .f32⟩
  | .hbm, ⟨27, _⟩ => ⟨S4x256x256x9x3x2x2, .f32⟩
  | .hbm, ⟨28, _⟩ => ⟨S4x256x256x9x12, .f32⟩
  | .hbm, ⟨29, _⟩ => ⟨S4x256x256x9x36, .f32⟩
  | .hbm, ⟨30, _⟩ => ⟨S1x1x1x1x36, .f32⟩
  | .hbm, ⟨31, _⟩ => ⟨S4x256x256x9x36, .f32⟩
  | .hbm, ⟨32, _⟩ => ⟨S4x256x256x9x36, .f32⟩
  | .hbm, ⟨33, _⟩ => ⟨S4x256x256x9x3x3x2x2, .f32⟩
  | .hbm, ⟨34, _⟩ => ⟨S4x256x256x9x1x3x2x2, .f32⟩
  | .hbm, ⟨35, _⟩ => ⟨S4x256x256x9x3x2x2, .f32⟩
  | .hbm, ⟨36, _⟩ => ⟨S4x256x256x9x1x3x2x2, .f32⟩
  | .hbm, ⟨37, _⟩ => ⟨S4x256x256x9x3x2x2, .f32⟩
  | .hbm, ⟨38, _⟩ => ⟨S4x256x256x9x1x3x2x2, .f32⟩
  | .hbm, ⟨39, _⟩ => ⟨S4x256x256x9x3x2x2, .f32⟩
  | .hbm, ⟨40, _⟩ => ⟨S4x256x256x1x3x2x2, .f32⟩
  | .hbm, ⟨41, _⟩ => ⟨S4x256x256x3x2x2, .f32⟩
  | .hbm, ⟨42, _⟩ => ⟨S_, .f32⟩
  | .hbm, ⟨43, _⟩ => ⟨S4x256x256x3x2x2, .f32⟩
  | .hbm, ⟨44, _⟩ => ⟨S4x256x256x3x2x2, .f32⟩
  | .hbm, ⟨45, _⟩ => ⟨S4x256x256x1x3x2x2, .f32⟩
  | .hbm, ⟨46, _⟩ => ⟨S4x256x256x9x3x2x2, .f32⟩
  | .hbm, ⟨47, _⟩ => ⟨S4x256x256x9x3x2x2, .f32⟩
  | .hbm, ⟨48, _⟩ => ⟨S9x1x2x2, .f32⟩
  | .hbm, ⟨49, _⟩ => ⟨S1x1x1x9x1x2x2, .f32⟩
  | .hbm, ⟨50, _⟩ => ⟨S4x256x256x9x3x2x2, .f32⟩
  | .hbm, ⟨51, _⟩ => ⟨S4x256x256x9x3x2x2, .f32⟩
  | .hbm, ⟨52, _⟩ => ⟨S4x256x256x9x3x2x2, .f32⟩
  | .hbm, ⟨53, _⟩ => ⟨S_, .f32⟩
  | .hbm, ⟨54, _⟩ => ⟨S4x256x256x3x2x2, .f32⟩
  | .hbm, ⟨55, _⟩ => ⟨S4x3x256x2x256x2, .f32⟩
  | .hbm, ⟨56, _⟩ => ⟨S4x3x512x512, .f32⟩
  | .hbm, ⟨57, _⟩ => ⟨S4x3x512x512, .f32⟩
  | _, _ => ⟨S4x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]

class Facts₀ : Prop where
  pads_S4x3x512x512_S4x3x516x516_000_000_220_220 : S4x3x512x512.Pads (![0, 0, 2, 2] : Fin 4 → Nat) ![0, 0, 2, 2] ![0, 0, 0, 0] S4x3x516x516
  h_S_ : 0 < S_.numel
  shapeCasts_S4x3x516x516_S4x3x258x2x258x2 : S4x3x516x516.ShapeCasts S4x3x258x2x258x2
  transposes_S4x3x258x2x258x2_S4x258x258x3x2x2_0_2_4_1_3_5 : S4x3x258x2x258x2.Transposes [0, 2, 4, 1, 3, 5] S4x258x258x3x2x2
  slices_S4x258x258x3x2x2_S4x256x256x3x2x2_0_0_0_0_0_0 : S4x258x258x3x2x2.Slices ![0, 0, 0, 0, 0, 0] S4x256x256x3x2x2
  slices_S4x258x258x3x2x2_S4x256x256x3x2x2_0_0_1_0_0_0 : S4x258x258x3x2x2.Slices ![0, 0, 1, 0, 0, 0] S4x256x256x3x2x2
  slices_S4x258x258x3x2x2_S4x256x256x3x2x2_0_0_2_0_0_0 : S4x258x258x3x2x2.Slices ![0, 0, 2, 0, 0, 0] S4x256x256x3x2x2
  slices_S4x258x258x3x2x2_S4x256x256x3x2x2_0_1_0_0_0_0 : S4x258x258x3x2x2.Slices ![0, 1, 0, 0, 0, 0] S4x256x256x3x2x2
  slices_S4x258x258x3x2x2_S4x256x256x3x2x2_0_1_1_0_0_0 : S4x258x258x3x2x2.Slices ![0, 1, 1, 0, 0, 0] S4x256x256x3x2x2
  slices_S4x258x258x3x2x2_S4x256x256x3x2x2_0_1_2_0_0_0 : S4x258x258x3x2x2.Slices ![0, 1, 2, 0, 0, 0] S4x256x256x3x2x2
  slices_S4x258x258x3x2x2_S4x256x256x3x2x2_0_2_0_0_0_0 : S4x258x258x3x2x2.Slices ![0, 2, 0, 0, 0, 0] S4x256x256x3x2x2
  slices_S4x258x258x3x2x2_S4x256x256x3x2x2_0_2_1_0_0_0 : S4x258x258x3x2x2.Slices ![0, 2, 1, 0, 0, 0] S4x256x256x3x2x2
  slices_S4x258x258x3x2x2_S4x256x256x3x2x2_0_2_2_0_0_0 : S4x258x258x3x2x2.Slices ![0, 2, 2, 0, 0, 0] S4x256x256x3x2x2
  bcast_S4x256x256x3x2x2_S4x256x256x1x3x2x2_0_1_2_4_5_6 : S4x256x256x3x2x2.BroadcastsInDim S4x256x256x1x3x2x2 (![0, 1, 2, 4, 5, 6] : Fin 6 → Fin S4x256x256x1x3x2x2.rank)
  concatenates_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x9x3x2x2_d3 : Shape.Concatenates [S4x256x256x1x3x2x2, S4x256x256x1x3x2x2, S4x256x256x1x3x2x2, S4x256x256x1x3x2x2, S4x256x256x1x3x2x2, S4x256x256x1x3x2x2, S4x256x256x1x3x2x2, S4x256x256x1x3x2x2, S4x256x256x1x3x2x2] S4x256x256x9x3x2x2 3
  shapeCasts_S4x256x256x9x3x2x2_S4x256x256x9x12 : S4x256x256x9x3x2x2.ShapeCasts S4x256x256x9x12
  bcast_S36_S1x1x1x1x36_4 : S36.BroadcastsInDim S1x1x1x1x36 (![4] : Fin 1 → Fin S1x1x1x1x36.rank)
  bcast_S1x1x1x1x36_S4x256x256x9x36_0_1_2_3_4 : S1x1x1x1x36.BroadcastsInDim S4x256x256x9x36 (![0, 1, 2, 3, 4] : Fin 5 → Fin S4x256x256x9x36.rank)
  shapeCasts_S4x256x256x9x36_S4x256x256x9x3x3x2x2 : S4x256x256x9x36.ShapeCasts S4x256x256x9x3x3x2x2
  slices_S4x256x256x9x3x3x2x2_S4x256x256x9x1x3x2x2_0_0_0_0_0_0_0_0 : S4x256x256x9x3x3x2x2.Slices ![0, 0, 0, 0, 0, 0, 0, 0] S4x256x256x9x1x3x2x2
  shapeCasts_S4x256x256x9x1x3x2x2_S4x256x256x9x3x2x2 : S4x256x256x9x1x3x2x2.ShapeCasts S4x256x256x9x3x2x2
  slices_S4x256x256x9x3x3x2x2_S4x256x256x9x1x3x2x2_0_0_0_0_1_0_0_0 : S4x256x256x9x3x3x2x2.Slices ![0, 0, 0, 0, 1, 0, 0, 0] S4x256x256x9x1x3x2x2
  slices_S4x256x256x9x3x3x2x2_S4x256x256x9x1x3x2x2_0_0_0_0_2_0_0_0 : S4x256x256x9x3x3x2x2.Slices ![0, 0, 0, 0, 2, 0, 0, 0] S4x256x256x9x1x3x2x2
  slices_S4x256x256x9x3x2x2_S4x256x256x1x3x2x2_0_0_0_4_0_0_0 : S4x256x256x9x3x2x2.Slices ![0, 0, 0, 4, 0, 0, 0] S4x256x256x1x3x2x2
  shapeCasts_S4x256x256x1x3x2x2_S4x256x256x3x2x2 : S4x256x256x1x3x2x2.ShapeCasts S4x256x256x3x2x2
  bcast_S_S4x256x256x3x2x2 : S_.BroadcastsInDim S4x256x256x3x2x2 (![] : Fin 0 → Fin S4x256x256x3x2x2.rank)
  bcast_S4x256x256x1x3x2x2_S4x256x256x9x3x2x2_0_1_2_3_4_5_6 : S4x256x256x1x3x2x2.BroadcastsInDim S4x256x256x9x3x2x2 (![0, 1, 2, 3, 4, 5, 6] : Fin 7 → Fin S4x256x256x9x3x2x2.rank)
  bcast_S9x2x2_S9x1x2x2_0_2_3 : S9x2x2.BroadcastsInDim S9x1x2x2 (![0, 2, 3] : Fin 3 → Fin S9x1x2x2.rank)
  bcast_S9x1x2x2_S1x1x1x9x1x2x2_3_4_5_6 : S9x1x2x2.BroadcastsInDim S1x1x1x9x1x2x2 (![3, 4, 5, 6] : Fin 4 → Fin S1x1x1x9x1x2x2.rank)
  bcast_S1x1x1x9x1x2x2_S4x256x256x9x3x2x2_0_1_2_3_4_5_6 : S1x1x1x9x1x2x2.BroadcastsInDim S4x256x256x9x3x2x2 (![0, 1, 2, 3, 4, 5, 6] : Fin 7 → Fin S4x256x256x9x3x2x2.rank)
  reducesTo_S4x256x256x9x3x2x2_S4x256x256x3x2x2_d3 : S4x256x256x9x3x2x2.ReducesTo [3] S4x256x256x3x2x2
  transposes_S4x256x256x3x2x2_S4x3x256x2x256x2_0_3_1_4_2_5 : S4x256x256x3x2x2.Transposes [0, 3, 1, 4, 2, 5] S4x3x256x2x256x2
  shapeCasts_S4x3x256x2x256x2_S4x3x512x512 : S4x3x256x2x256x2.ShapeCasts S4x3x512x512
  dot_S4x256x256x9x12_S36x12_S4x256x256x9x36_4_1_0123_0_n_n_wf : DotDims.WF S4x256x256x9x12 S36x12 S4x256x256x9x36 [4] [1] [0, 1, 2, 3] [0] [] []

variable [Facts₀]

def dot_S4x256x256x9x12_S36x12_S4x256x256x9x36_4_1_0123_0_n_n : DotDims S4x256x256x9x12 S36x12 S4x256x256x9x36 where
  lhsContracting := [4]
  rhsContracting := [1]
  lhsNonContracting := [0, 1, 2, 3]
  rhsNonContracting := [0]
  lhsBatch := []
  rhsBatch := []
  wf := dot_S4x256x256x9x12_S36x12_S4x256x256x9x36_4_1_0123_0_n_n_wf

class Facts : Prop extends Facts₀ where

variable [Facts]
-- ==== Proof.Spec.lean ====
/-
  The mathematics of the windowed attention both programs compute, stated once over plain coordinates.

  The padded image, cut into 2×2 patches, is an array R[b, c, gh, pi, gw, pj] (gh, gw over the 258×258 patch grid).
  Folding (c, pi, pj) into one channel dd = 4c + 2pi + pj gives X[b, dd, gh, gw]. Three affine maps of the
  channel axis, rows o = e, 12 + e, 24 + e of the weight matrix, give q, k, v at every patch:
      lin o = B[o] + Σ_dd W[o, dd] · X[dd].
  At an interior patch (h, w) and output channel e the result is
      Σ_{p = 3·di + dj} ((q(h+1, w+1) · 1) · k(h+di, w+dj)) · β[p, e mod 4] · v(h+di, w+dj)
  with β the fixed 9×2×2 table of relative-position weights. No softmax: the sum is a polynomial in the inputs,
  and the two programs differ only in the order of the additions and of the factors, which the extended reals'
  commutative monoids (+ and ·, taken separately) do not see.
-/
import Idealize.ShloMosaic.PureOps.Ideal
import Idealize.ShloMosaic.Lib.ValueIdx
import Idealize.ShloMosaic.Lib.ValueIdxRank6

noncomputable section

namespace Cert.Attn

open Idealize.ShloMosaic Idealize.ShloMosaic.ValueIdx

/-- The padded image split into patches: [batch, colour, patch row, row in patch, patch column, column in patch]. -/
abbrev SR : Shape := ⟨6, ![4, 3, 258, 2, 258, 2]⟩
/-- The result split the same way over the 256×256 interior patches. -/
abbrev ST : Shape := ⟨6, ![4, 3, 256, 2, 256, 2]⟩
abbrev SW : Shape := ⟨2, ![36, 12]⟩
abbrev SB : Shape := ⟨1, ![36]⟩

/-- The literal one and the literal zero both programs use, kept as words: the same word on both sides is never evaluated. -/
def one : EReal := Ideal.ofBits .f32 0x3F800000#32
def zero : EReal := Ideal.ofBits .f32 0x00000000#32

/-- The relative-position weights, 9 positions × (row in patch, column in patch), as f32 words: e⁻², e⁻¹ and 1. -/
def betaBits : Fin 36 → BitVec 32 := fun
  | 0 => 0x3E0A9555#32 | 1 => 0x3EBC5AB2#32 | 2 => 0x3EBC5AB2#32 | 3 => 0x3F800000#32 | 4 => 0x3EBC5AB2#32 | 5 => 0x3EBC5AB2#32 | 6 => 0x3F800000#32 | 7 => 0x3F800000#32
  | 8 => 0x3EBC5AB2#32 | 9 => 0x3E0A9555#32 | 10 => 0x3F800000#32 | 11 => 0x3EBC5AB2#32 | 12 => 0x3EBC5AB2#32 | 13 => 0x3F800000#32 | 14 => 0x3EBC5AB2#32 | 15 => 0x3F800000#32
  | 16 => 0x3F800000#32 | 17 => 0x3F800000#32 | 18 => 0x3F800000#32 | 19 => 0x3F800000#32 | 20 => 0x3F800000#32 | 21 => 0x3EBC5AB2#32 | 22 => 0x3F800000#32 | 23 => 0x3EBC5AB2#32
  | 24 => 0x3EBC5AB2#32 | 25 => 0x3F800000#32 | 26 => 0x3E0A9555#32 | 27 => 0x3EBC5AB2#32 | 28 => 0x3F800000#32 | 29 => 0x3F800000#32 | 30 => 0x3EBC5AB2#32 | 31 => 0x3EBC5AB2#32
  | 32 => 0x3F800000#32 | 33 => 0x3EBC5AB2#32 | 34 => 0x3EBC5AB2#32 | 35 => 0x3E0A9555#32
  | _ => 0#32

/-- β[p, q]: position p of the 3×3 window, q = 2·(row in patch) + (column in patch). -/
def beta (p : Fin 9) (q : Fin 4) : EReal := Ideal.ofBits .f32 (betaBits ⟨4 * p.val + q.val, by omega⟩)

/-! ## The linear map and the windowed sum, in the order each program writes them -/

/-- The kernel's affine map at one output channel and one patch: the bias first, then the twelve products added one by one. -/
def linK (X : Fin 12 → EReal) (Wr : Fin 12 → EReal) (bv : EReal) : EReal :=
  bv + Wr 0 * X 0 + Wr 1 * X 1 + Wr 2 * X 2 + Wr 3 * X 3 + Wr 4 * X 4 + Wr 5 * X 5 + Wr 6 * X 6 + Wr 7 * X 7
    + Wr 8 * X 8 + Wr 9 * X 9 + Wr 10 * X 10 + Wr 11 * X 11

/-- The reference's: the contraction (input first, weight second), then the bias. -/
def linR (X : Fin 12 → EReal) (Wr : Fin 12 → EReal) (bv : EReal) : EReal := (∑ dd : Fin 12, X dd * Wr dd) + bv

/-- The common form. -/
def linS (X : Fin 12 → EReal) (Wr : Fin 12 → EReal) (bv : EReal) : EReal := bv + ∑ dd : Fin 12, Wr dd * X dd

theorem linK_eq (X Wr : Fin 12 → EReal) (bv : EReal) : linK X Wr bv = linS X Wr bv := by
  unfold linK linS
  simp only [Fin.sum_univ_succ, Fin.sum_univ_zero, Fin.isValue]
  simp only [add_assoc, add_zero]
  rfl

theorem linR_eq (X Wr : Fin 12 → EReal) (bv : EReal) : linR X Wr bv = linS X Wr bv := by
  unfold linR linS
  rw [add_comm]
  exact congrArg (bv + ·) (Finset.sum_congr rfl fun dd _ => mul_comm _ _)

/-- The kernel's nine window terms added one by one onto the zero accumulator. -/
def attK (q : EReal) (k v bt : Fin 9 → EReal) : EReal :=
  zero + q * k 0 * bt 0 * v 0 + q * k 1 * bt 1 * v 1 + q * k 2 * bt 2 * v 2 + q * k 3 * bt 3 * v 3 + q * k 4 * bt 4 * v 4
    + q * k 5 * bt 5 * v 5 + q * k 6 * bt 6 * v 6 + q * k 7 * bt 7 * v 7 + q * k 8 * bt 8 * v 8

/-- The reference's: the initial value plus the sum over the nine positions. -/
def attS (q : EReal) (k v bt : Fin 9 → EReal) : EReal := zero + ∑ p : Fin 9, q * k p * bt p * v p

theorem attK_eq (q : EReal) (k v bt : Fin 9 → EReal) : attK q k v bt = attS q k v bt := by
  unfold attK attS
  simp only [Fin.sum_univ_succ, Fin.sum_univ_zero, Fin.isValue]
  simp only [add_assoc, add_zero]
  rfl

/-- What the kernel's body leaves at channel e, interior patch (h, w) of its output block, from its input blocks read by
    coordinates: the folded padded image X[dd, gh, gw], the three 12×12 weight blocks, the three bias columns and the
    9×12 table of position weights. -/
def bodyVal (X : Fin 12 → Fin 258 → Fin 258 → EReal) (Wq Wk Wv : Fin 12 → Fin 12 → EReal) (bq bk bv : Fin 12 → EReal)
    (bt : Fin 9 → Fin 12 → EReal) (e : Fin 12) (h w : Fin 256) : EReal :=
  attK (linK (fun dd => X dd ⟨h.val + 1, by omega⟩ ⟨w.val + 1, by omega⟩) (Wq e) (bq e) * one)
    (fun p => linK (fun dd => X dd ⟨h.val + p.val / 3, by omega⟩ ⟨w.val + p.val % 3, by omega⟩) (Wk e) (bk e))
    (fun p => linK (fun dd => X dd ⟨h.val + p.val / 3, by omega⟩ ⟨w.val + p.val % 3, by omega⟩) (Wv e) (bv e))
    (fun p => bt p e)

/-! ## The result as one function of the padded patches, the weights and the biases -/

/-- Channel dd = 4c + 2·pi + pj of the padded image at patch (gh, gw). -/
def xf (R : SR.Idx → EReal) (b : Fin 4) (dd : Fin 12) (gh gw : Fin 258) : EReal :=
  R (ix6 b ⟨dd.val / 4, by omega⟩ gh ⟨dd.val / 2 % 2, by omega⟩ gw ⟨dd.val % 2, by omega⟩)

/-- Row o of the weight matrix applied at patch (gh, gw) of image b. -/
def lin (R : SR.Idx → EReal) (W : SW.Idx → EReal) (B : SB.Idx → EReal) (o : Fin 36) (b : Fin 4) (gh gw : Fin 258) : EReal :=
  linS (fun dd => xf R b dd gh gw) (fun dd => W (ix2 o dd)) (B (ix1 o))

/-- The attention output at image b, folded channel e, interior patch (h, w). -/
def att (R : SR.Idx → EReal) (W : SW.Idx → EReal) (B : SB.Idx → EReal) (b : Fin 4) (e : Fin 12) (h w : Fin 256) : EReal :=
  attS (lin R W B ⟨e.val, by omega⟩ b ⟨h.val + 1, by omega⟩ ⟨w.val + 1, by omega⟩ * one)
    (fun p => lin R W B ⟨12 + e.val, by omega⟩ b ⟨h.val + p.val / 3, by omega⟩ ⟨w.val + p.val % 3, by omega⟩)
    (fun p => lin R W B ⟨24 + e.val, by omega⟩ b ⟨h.val + p.val / 3, by omega⟩ ⟨w.val + p.val % 3, by omega⟩)
    (fun p => beta p ⟨e.val % 4, by omega⟩)

/-- The folded channel of colour c at row pi, column pj of a patch. -/
def chanOf (c : Fin 3) (pi pj : Fin 2) : Fin 12 := ⟨4 * c.val + 2 * pi.val + pj.val, by omega⟩

/-- The attention output by the split coordinates: image b, colour c, patch row h, row in patch pi, patch column w,
    column in patch pj. -/
def TsplitC (R : SR.Idx → EReal) (W : SW.Idx → EReal) (B : SB.Idx → EReal) (b : Fin 4) (c : Fin 3) (h : Fin 256) (pi : Fin 2)
    (w : Fin 256) (pj : Fin 2) : EReal :=
  att R W B b (chanOf c pi pj) h w

/-- The same as an array laid out [batch, colour, patch row, row in patch, patch column, column in patch]: what both
    programs hold just before the last reshape to the image and the residual addition. -/
def Tsplit (R : SR.Idx → EReal) (W : SW.Idx → EReal) (B : SB.Idx → EReal) : ST.Idx → EReal := fun j =>
  TsplitC R W B (j 0) (j 1) (j 2) (j 3) (j 4) (j 5)

theorem Tsplit_ix6 (R : SR.Idx → EReal) (W : SW.Idx → EReal) (B : SB.Idx → EReal) (b : Fin 4) (c : Fin 3) (h : Fin 256) (pi : Fin 2)
    (w : Fin 256) (pj : Fin 2) : Tsplit R W B (ix6 b c h pi w pj) = TsplitC R W B b c h pi w pj := rfl

end Cert.Attn

end
-- ==== Proof.KStages.lean ====
/-
  The kernel program's host stages as functions of the three argument arrays: what each window of the region is
  staged from, and what the host lines after the region make of the region's output array.
-/
import proofs.«181481_j52390011076755_1_alg».proof.Proof.Gen.KernelIdeal
import proofs.«181481_j52390011076755_1_alg».proof.Proof.Spec
import Idealize.ShloMosaic.Lib.ValueIdx

noncomputable section

namespace Cert.Ker

open Idealize.ShloMosaic Idealize.ShloMosaic.ValueIdx Cert.KernelIdeal Cert.KernelIdeal.Gen Cert.Attn

variable {F : FTy → Type} [FloatOps F]

/-- The image padded by two on each side of its two spatial axes and split into 2×2 patches. -/
def Rk (x : FVec F S4x3x512x512 .f32) : FVec F S4x3x258x2x258x2 .f32 :=
  shapeCast S4x3x258x2x258x2
    (pad S4x3x516x516 ![0, 0, 2, 2] ![0, 0, 2, 2] ![0, 0, 0, 0] x (sitofp .f32 (constantI S_ 32 0#32))
      pads_S4x3x512x512_S4x3x516x516_000_000_220_220 h_S_)
    shapeCasts_S4x3x516x516_S4x3x258x2x258x2

/-- The patches' (colour, row, column) folded into one channel axis of twelve: window 0's array. -/
def Xfold (x : FVec F S4x3x512x512 .f32) : FVec F S4x12x258x258 .f32 :=
  shapeCast S4x12x258x258
    (transpose S4x3x2x2x258x258 [0, 1, 3, 5, 2, 4] (Rk x) transposes_S4x3x258x2x258x2_S4x3x2x2x258x258_0_1_3_5_2_4)
    shapeCasts_S4x3x2x2x258x258_S4x12x258x258

/-- Rows 0–11, 12–23, 24–35 of the weight matrix: windows 1, 3, 5. -/
def Wq (W : FVec F S36x12 .f32) : FVec F S12x12 .f32 := extractStridedSlice S12x12 ![0, 0] W slices_S36x12_S12x12_0_0
def Wk (W : FVec F S36x12 .f32) : FVec F S12x12 .f32 := extractStridedSlice S12x12 ![12, 0] W slices_S36x12_S12x12_12_0
def Wv (W : FVec F S36x12 .f32) : FVec F S12x12 .f32 := extractStridedSlice S12x12 ![24, 0] W slices_S36x12_S12x12_24_0

/-- The three thirds of the bias vector as columns: windows 2, 4, 6. -/
def bq (B : FVec F S36 .f32) : FVec F S12x1x1 .f32 := shapeCast S12x1x1 (extractStridedSlice S12 ![0] B slices_S36_S12_0) shapeCasts_S12_S12x1x1
def bk (B : FVec F S36 .f32) : FVec F S12x1x1 .f32 := shapeCast S12x1x1 (extractStridedSlice S12 ![12] B slices_S36_S12_12) shapeCasts_S12_S12x1x1
def bv (B : FVec F S36 .f32) : FVec F S12x1x1 .f32 := shapeCast S12x1x1 (extractStridedSlice S12 ![24] B slices_S36_S12_24) shapeCasts_S12_S12x1x1

/-- The table of position weights, one row of twelve per window position: window 7's array. -/
def btab : FVec F S9x12x1x1 .f32 := fun i => FloatOps.ofBits .f32 (lit0 (S9x12x1x1.rowMajor i))

/-- The host lines after the region, up to the last reshape: the folded channel split back into (colour, row, column)
    and moved beside the patch coordinates. -/
def Ttail (y : FVec F S4x12x256x256 .f32) : FVec F S4x3x256x2x256x2 .f32 :=
  transpose S4x3x256x2x256x2 [0, 1, 4, 2, 5, 3] (shapeCast S4x3x2x2x256x256 y shapeCasts_S4x12x256x256_S4x3x2x2x256x256)
    transposes_S4x3x2x2x256x256_S4x3x256x2x256x2_0_1_4_2_5_3

/-- The region's output at image b, channel e, interior patch (h, w): the body's value from image b's block of the folded
    input and the whole weight, bias and table arrays. -/
def outVal (x : FVec Ideal S4x3x512x512 .f32) (W : FVec Ideal S36x12 .f32) (B : FVec Ideal S36 .f32) (b : Fin 4) (e : Fin 12) (h w : Fin 256) : EReal :=
  bodyVal (fun dd gh gw => Xfold x (ix4 b dd gh gw)) (fun e dd => Wq W (ix2 e dd)) (fun e dd => Wk W (ix2 e dd)) (fun e dd => Wv W (ix2 e dd))
    (fun e => bq B (ix3 e (0 : Fin 1) (0 : Fin 1))) (fun e => bk B (ix3 e (0 : Fin 1) (0 : Fin 1))) (fun e => bv B (ix3 e (0 : Fin 1) (0 : Fin 1)))
    (fun p e => btab (F := Ideal) (ix4 p e (0 : Fin 1) (0 : Fin 1))) e h w

/-- The region's output array after the run, as one function of the argument arrays. -/
def OutFold (x : FVec Ideal S4x3x512x512 .f32) (W : FVec Ideal S36x12 .f32) (B : FVec Ideal S36 .f32) : FVec Ideal S4x12x256x256 .f32 := fun i =>
  outVal x W B (i 0) (i 1) (i 2) (i 3)

theorem OutFold_ix4 (x : FVec Ideal S4x3x512x512 .f32) (W : FVec Ideal S36x12 .f32) (B : FVec Ideal S36 .f32) (b : Fin 4) (e : Fin 12) (h w : Fin 256) :
    OutFold x W B (ix4 b e h w) = outVal x W B b e h w := rfl

end Cert.Ker

end
-- ==== Proof.KLin.lean ====
/-
  The three affine maps of the kernel body read at an index: each is built by the body in three stretches of
  four to six products; composed, each is the bias plus the twelve products added in order.
-/
import proofs.«181481_j52390011076755_1_alg».proof.Proof.Gen.KernelIdeal.Skeleton
import proofs.«181481_j52390011076755_1_alg».proof.Proof.Spec
import Idealize.ShloMosaic.Lib.ValueIdx
import Idealize.ShloMosaic.Lib.Pipeline.Value
import Idealize.ShloMosaic.Lib.ValueLayout

noncomputable section

namespace Cert.Ker

open Idealize.ShloMosaic Idealize.ShloMosaic.ValueIdx Idealize.ShloMosaic.TcCoe Idealize.SL.Sem Cert.KernelIdeal Cert.KernelIdeal.Gen Cert.Attn

variable {F : FTy → Type} [FloatOps F]

/-- q over the 256×256 interior patches of the block, from the loaded input block x0, weight block x1 and bias column x2. -/
abbrev Qp (x0 : Vec F S1x12x258x258 .f32) (x1 : Vec F S12x12 .f32) (x2 : Vec F S12x1x1 .f32) : FVec F S12x256x256 .f32 :=
  k0_pay9 (k0_pay3 x0) (k0_pay4 x1) (k0_pay7 (k0_pay3 x0) (k0_pay4 x1) (k0_pay5 x0 x1 x2) (k0_pay6 x1)) (k0_pay8 (k0_pay4 x1))

/-- k over all 258×258 patches of the block. -/
abbrev Kp (x0 : Vec F S1x12x258x258 .f32) (x3 : Vec F S12x12 .f32) (x4 : Vec F S12x1x1 .f32) : FVec F S12x258x258 .f32 :=
  k0_pay17 (k0_pay2 x0) (k0_pay10 x3) (k0_pay14 (k0_pay2 x0) (k0_pay10 x3) (k0_pay11 (k0_pay2 x0) x3 x4) (k0_pay12 (k0_pay2 x0)) (k0_pay13 x3)) (k0_pay15 (k0_pay2 x0)) (k0_pay16 (k0_pay10 x3))

/-- v over all 258×258 patches of the block. -/
abbrev Vp (x0 : Vec F S1x12x258x258 .f32) (x5 : Vec F S12x12 .f32) (x6 : Vec F S12x1x1 .f32) : FVec F S12x258x258 .f32 :=
  k0_pay25 (k0_pay2 x0) (k0_pay18 x5) (k0_pay22 (k0_pay2 x0) (k0_pay18 x5) (k0_pay19 (k0_pay2 x0) x5 x6) (k0_pay20 x5) (k0_pay21 (k0_pay2 x0))) (k0_pay23 (k0_pay18 x5)) (k0_pay24 (k0_pay2 x0))

/-! ## One product of the chain, read at an index -/

/-- Column dd of a weight block, as a vector, as a 12×1×1 column, spread over the 256×256 patches: at (e, h, w) it is W[e, dd]. -/
private theorem wcol256 (Wm : FVec Ideal S12x12 .f32) (off2 : Fin 2 → Nat) (dd : Fin 12)
    (hs2 : S12x12.Slices off2 S12x1) (hc1 : S12x1.ShapeCasts S12) (hc2 : S12.ShapeCasts S12x1x1) (hb1 : S12x1x1.Broadcasts S12x256x256)
    (h20 : off2 0 = 0) (h21 : off2 1 = dd.val) (e : Fin 12) (h w : Fin 256) :
    broadcastTo S12x256x256 (shapeCast S12x1x1 (shapeCast S12 (extractStridedSlice S12x1 off2 Wm hs2) hc1) hc2) hb1 (ix3 e h w)
      = Wm (ix2 e dd) := by
  -- the spread reads the column at (e, 0, 0)
  refine (broadcastTo_apply _ hb1 (ix3 e h w) (ix3 e (0 : Fin 1) (0 : Fin 1)) fun a => ?_).trans ?_
  · match a with
    | ⟨0, _⟩ => rfl
    | ⟨1, _⟩ => rfl
    | ⟨2, _⟩ => rfl
  -- (e, 0, 0) of the 12×1×1 column and e of the vector have the same row-major position
  refine (shapeCast_apply _ hc2 (ix3 e (0 : Fin 1) (0 : Fin 1)) (ix1 e) ?_).trans ?_
  · rw [Shape.rowMajor_val_one, Shape.rowMajor_val_three]
    show e.val = (e.val * 1 + 0) * 1 + 0
    omega
  -- e of the vector and (e, 0) of the 12×1 slice have the same row-major position
  refine (shapeCast_apply _ hc1 (ix1 e) (ix2 e (0 : Fin 1)) ?_).trans ?_
  · rw [Shape.rowMajor_val_two, Shape.rowMajor_val_one]
    show e.val * 1 + 0 = e.val
    omega
  -- the slice at (e, 0) is the block at (0 + e, dd + 0)
  refine extractStridedSlice_apply off2 Wm hs2 (ix2 e (0 : Fin 1)) (ix2 e dd) fun a => ?_
  match a with
  | ⟨0, _⟩ => show e.val = off2 0 + e.val; omega
  | ⟨1, _⟩ => show dd.val = off2 1 + 0; omega

/-- A one-channel 256×256 plane, flattened to a matrix and back, spread over the 12 output channels: at (e, h, w) it is the plane at (0, h, w). -/
private theorem plane256 (Y : FVec Ideal S1x256x256 .f32)
    (hc3 : S1x256x256.ShapeCasts S256x256) (hc4 : S256x256.ShapeCasts S1x256x256) (hb2 : S1x256x256.Broadcasts S12x256x256)
    (e : Fin 12) (h w : Fin 256) :
    broadcastTo S12x256x256 (shapeCast S1x256x256 (shapeCast S256x256 Y hc3) hc4) hb2 (ix3 e h w) = Y (ix3 (0 : Fin 1) h w) := by
  -- a cast there and back is the identity
  rw [shapeCast_shapeCast]
  refine broadcastTo_apply _ hb2 (ix3 e h w) (ix3 (0 : Fin 1) h w) fun a => ?_
  match a with
  | ⟨0, _⟩ => rfl
  | ⟨1, _⟩ => rfl
  | ⟨2, _⟩ => rfl

/-- Channel dd of the input cut out as a one-channel plane: at (0, h, w) it is X[dd, h, w]. -/
private theorem chan256 (X : FVec Ideal S12x256x256 .f32) (off3 : Fin 3 → Nat) (dd : Fin 12)
    (hs3 : S12x256x256.Slices off3 S1x256x256) (h30 : off3 0 = dd.val) (h31 : off3 1 = 0) (h32 : off3 2 = 0) (h w : Fin 256) :
    extractStridedSlice S1x256x256 off3 X hs3 (ix3 (0 : Fin 1) h w) = X (ix3 dd h w) := by
  refine extractStridedSlice_apply off3 X hs3 (ix3 (0 : Fin 1) h w) (ix3 dd h w) fun a => ?_
  match a with
  | ⟨0, _⟩ => show dd.val = off3 0 + 0; omega
  | ⟨1, _⟩ => show h.val = off3 1 + h.val; omega
  | ⟨2, _⟩ => show w.val = off3 2 + w.val; omega

/-- One product W[·, dd] · X[dd, ·, ·] added onto the accumulator, read at (e, h, w). -/
private theorem step256 (acc : FVec Ideal S12x256x256 .f32) (Wm : FVec Ideal S12x12 .f32) (X : FVec Ideal S12x256x256 .f32)
    (off2 : Fin 2 → Nat) (off3 : Fin 3 → Nat) (dd : Fin 12)
    (hs2 : S12x12.Slices off2 S12x1) (hc1 : S12x1.ShapeCasts S12) (hc2 : S12.ShapeCasts S12x1x1) (hb1 : S12x1x1.Broadcasts S12x256x256)
    (hs3 : S12x256x256.Slices off3 S1x256x256) (hc3 : S1x256x256.ShapeCasts S256x256) (hc4 : S256x256.ShapeCasts S1x256x256) (hb2 : S1x256x256.Broadcasts S12x256x256)
    (h20 : off2 0 = 0) (h21 : off2 1 = dd.val) (h30 : off3 0 = dd.val) (h31 : off3 1 = 0) (h32 : off3 2 = 0)
    (e : Fin 12) (h w : Fin 256) :
    addf acc (mulf (broadcastTo S12x256x256 (shapeCast S12x1x1 (shapeCast S12 (extractStridedSlice S12x1 off2 Wm hs2) hc1) hc2) hb1)
        (broadcastTo S12x256x256 (shapeCast S1x256x256 (shapeCast S256x256 (extractStridedSlice S1x256x256 off3 X hs3) hc3) hc4) hb2)) (ix3 e h w)
      = acc (ix3 e h w) + Wm (ix2 e dd) * X (ix3 dd h w) := by
  -- the sum and the product are pointwise
  refine (addf_apply _ _ _).trans ?_
  refine congrArg (acc (ix3 e h w) + ·) ?_
  refine (mulf_apply _ _ _).trans ?_
  rw [wcol256 Wm off2 dd hs2 hc1 hc2 hb1 h20 h21 e h w, plane256 _ hc3 hc4 hb2 e h w, chan256 X off3 dd hs3 h30 h31 h32 h w]

/-- The bias column through two identity casts, spread over the patches: at (e, h, w) it is b[e]. -/
private theorem bias256 (b : FVec Ideal S12x1x1 .f32) (hc hc' : S12x1x1.ShapeCasts S12x1x1) (hb : S12x1x1.Broadcasts S12x256x256)
    (e : Fin 12) (h w : Fin 256) :
    broadcastTo S12x256x256 (shapeCast S12x1x1 (shapeCast S12x1x1 b hc) hc') hb (ix3 e h w) = b (ix3 e (0 : Fin 1) (0 : Fin 1)) := by
  rw [shapeCast_self, shapeCast_self]
  refine broadcastTo_apply _ hb (ix3 e h w) (ix3 e (0 : Fin 1) (0 : Fin 1)) fun a => ?_
  match a with
  | ⟨0, _⟩ => rfl
  | ⟨1, _⟩ => rfl
  | ⟨2, _⟩ => rfl

/-- Column dd of a weight block, as a vector, as a 12×1×1 column, spread over the 258×258 patches: at (e, h, w) it is W[e, dd]. -/
private theorem wcol258 (Wm : FVec Ideal S12x12 .f32) (off2 : Fin 2 → Nat) (dd : Fin 12)
    (hs2 : S12x12.Slices off2 S12x1) (hc1 : S12x1.ShapeCasts S12) (hc2 : S12.ShapeCasts S12x1x1) (hb1 : S12x1x1.Broadcasts S12x258x258)
    (h20 : off2 0 = 0) (h21 : off2 1 = dd.val) (e : Fin 12) (h w : Fin 258) :
    broadcastTo S12x258x258 (shapeCast S12x1x1 (shapeCast S12 (extractStridedSlice S12x1 off2 Wm hs2) hc1) hc2) hb1 (ix3 e h w)
      = Wm (ix2 e dd) := by
  -- the spread reads the column at (e, 0, 0)
  refine (broadcastTo_apply _ hb1 (ix3 e h w) (ix3 e (0 : Fin 1) (0 : Fin 1)) fun a => ?_).trans ?_
  · match a with
    | ⟨0, _⟩ => rfl
    | ⟨1, _⟩ => rfl
    | ⟨2, _⟩ => rfl
  -- (e, 0, 0) of the 12×1×1 column and e of the vector have the same row-major position
  refine (shapeCast_apply _ hc2 (ix3 e (0 : Fin 1) (0 : Fin 1)) (ix1 e) ?_).trans ?_
  · rw [Shape.rowMajor_val_one, Shape.rowMajor_val_three]
    show e.val = (e.val * 1 + 0) * 1 + 0
    omega
  -- e of the vector and (e, 0) of the 12×1 slice have the same row-major position
  refine (shapeCast_apply _ hc1 (ix1 e) (ix2 e (0 : Fin 1)) ?_).trans ?_
  · rw [Shape.rowMajor_val_two, Shape.rowMajor_val_one]
    show e.val * 1 + 0 = e.val
    omega
  -- the slice at (e, 0) is the block at (0 + e, dd + 0)
  refine extractStridedSlice_apply off2 Wm hs2 (ix2 e (0 : Fin 1)) (ix2 e dd) fun a => ?_
  match a with
  | ⟨0, _⟩ => show e.val = off2 0 + e.val; omega
  | ⟨1, _⟩ => show dd.val = off2 1 + 0; omega

/-- A one-channel 258×258 plane, flattened to a matrix and back, spread over the 12 output channels: at (e, h, w) it is the plane at (0, h, w). -/
private theorem plane258 (Y : FVec Ideal S1x258x258 .f32)
    (hc3 : S1x258x258.ShapeCasts S258x258) (hc4 : S258x258.ShapeCasts S1x258x258) (hb2 : S1x258x258.Broadcasts S12x258x258)
    (e : Fin 12) (h w : Fin 258) :
    broadcastTo S12x258x258 (shapeCast S1x258x258 (shapeCast S258x258 Y hc3) hc4) hb2 (ix3 e h w) = Y (ix3 (0 : Fin 1) h w) := by
  -- a cast there and back is the identity
  rw [shapeCast_shapeCast]
  refine broadcastTo_apply _ hb2 (ix3 e h w) (ix3 (0 : Fin 1) h w) fun a => ?_
  match a with
  | ⟨0, _⟩ => rfl
  | ⟨1, _⟩ => rfl
  | ⟨2, _⟩ => rfl

/-- Channel dd of the input cut out as a one-channel plane: at (0, h, w) it is X[dd, h, w]. -/
private theorem chan258 (X : FVec Ideal S12x258x258 .f32) (off3 : Fin 3 → Nat) (dd : Fin 12)
    (hs3 : S12x258x258.Slices off3 S1x258x258) (h30 : off3 0 = dd.val) (h31 : off3 1 = 0) (h32 : off3 2 = 0) (h w : Fin 258) :
    extractStridedSlice S1x258x258 off3 X hs3 (ix3 (0 : Fin 1) h w) = X (ix3 dd h w) := by
  refine extractStridedSlice_apply off3 X hs3 (ix3 (0 : Fin 1) h w) (ix3 dd h w) fun a => ?_
  match a with
  | ⟨0, _⟩ => show dd.val = off3 0 + 0; omega
  | ⟨1, _⟩ => show h.val = off3 1 + h.val; omega
  | ⟨2, _⟩ => show w.val = off3 2 + w.val; omega

/-- One product W[·, dd] · X[dd, ·, ·] added onto the accumulator, read at (e, h, w). -/
private theorem step258 (acc : FVec Ideal S12x258x258 .f32) (Wm : FVec Ideal S12x12 .f32) (X : FVec Ideal S12x258x258 .f32)
    (off2 : Fin 2 → Nat) (off3 : Fin 3 → Nat) (dd : Fin 12)
    (hs2 : S12x12.Slices off2 S12x1) (hc1 : S12x1.ShapeCasts S12) (hc2 : S12.ShapeCasts S12x1x1) (hb1 : S12x1x1.Broadcasts S12x258x258)
    (hs3 : S12x258x258.Slices off3 S1x258x258) (hc3 : S1x258x258.ShapeCasts S258x258) (hc4 : S258x258.ShapeCasts S1x258x258) (hb2 : S1x258x258.Broadcasts S12x258x258)
    (h20 : off2 0 = 0) (h21 : off2 1 = dd.val) (h30 : off3 0 = dd.val) (h31 : off3 1 = 0) (h32 : off3 2 = 0)
    (e : Fin 12) (h w : Fin 258) :
    addf acc (mulf (broadcastTo S12x258x258 (shapeCast S12x1x1 (shapeCast S12 (extractStridedSlice S12x1 off2 Wm hs2) hc1) hc2) hb1)
        (broadcastTo S12x258x258 (shapeCast S1x258x258 (shapeCast S258x258 (extractStridedSlice S1x258x258 off3 X hs3) hc3) hc4) hb2)) (ix3 e h w)
      = acc (ix3 e h w) + Wm (ix2 e dd) * X (ix3 dd h w) := by
  -- the sum and the product are pointwise
  refine (addf_apply _ _ _).trans ?_
  refine congrArg (acc (ix3 e h w) + ·) ?_
  refine (mulf_apply _ _ _).trans ?_
  rw [wcol258 Wm off2 dd hs2 hc1 hc2 hb1 h20 h21 e h w, plane258 _ hc3 hc4 hb2 e h w, chan258 X off3 dd hs3 h30 h31 h32 h w]

/-- The bias column through two identity casts, spread over the patches: at (e, h, w) it is b[e]. -/
private theorem bias258 (b : FVec Ideal S12x1x1 .f32) (hc hc' : S12x1x1.ShapeCasts S12x1x1) (hb : S12x1x1.Broadcasts S12x258x258)
    (e : Fin 12) (h w : Fin 258) :
    broadcastTo S12x258x258 (shapeCast S12x1x1 (shapeCast S12x1x1 b hc) hc') hb (ix3 e h w) = b (ix3 e (0 : Fin 1) (0 : Fin 1)) := by
  rw [shapeCast_self, shapeCast_self]
  refine broadcastTo_apply _ hb (ix3 e h w) (ix3 e (0 : Fin 1) (0 : Fin 1)) fun a => ?_
  match a with
  | ⟨0, _⟩ => rfl
  | ⟨1, _⟩ => rfl
  | ⟨2, _⟩ => rfl

/-! ## The payload stretches: each is its incoming accumulator plus its products, in order -/

/-- The first stretch of q: the bias and products 0 to 3. -/
private theorem q1 (x0 : Vec Ideal S1x12x258x258 .f32) (x1 : Vec Ideal S12x12 .f32) (x2 : Vec Ideal S12x1x1 .f32) (e : Fin 12) (h w : Fin 256) :
    k0_pay5 x0 x1 x2 (ix3 e h w)
      = x2 (ix3 e (0 : Fin 1) (0 : Fin 1)) + k0_pay4 x1 (ix2 e (0 : Fin 12)) * k0_pay3 x0 (ix3 (0 : Fin 12) h w) + k0_pay4 x1 (ix2 e (1 : Fin 12)) * k0_pay3 x0 (ix3 (1 : Fin 12) h w) + k0_pay4 x1 (ix2 e (2 : Fin 12)) * k0_pay3 x0 (ix3 (2 : Fin 12) h w) + k0_pay4 x1 (ix2 e (3 : Fin 12)) * k0_pay3 x0 (ix3 (3 : Fin 12) h w) := by
  unfold k0_pay5
  refine (step256 _ (k0_pay4 x1) (k0_pay3 x0) _ _ (3 : Fin 12) _ _ _ _ _ _ _ _ (by rfl) (by rfl) (by rfl) (by rfl) (by rfl) e h w).trans ?_
  refine congrArg (· + _) ?_
  refine (step256 _ (k0_pay4 x1) (k0_pay3 x0) _ _ (2 : Fin 12) _ _ _ _ _ _ _ _ (by rfl) (by rfl) (by rfl) (by rfl) (by rfl) e h w).trans ?_
  refine congrArg (· + _) ?_
  refine (step256 _ (k0_pay4 x1) (k0_pay3 x0) _ _ (1 : Fin 12) _ _ _ _ _ _ _ _ (by rfl) (by rfl) (by rfl) (by rfl) (by rfl) e h w).trans ?_
  refine congrArg (· + _) ?_
  refine (step256 _ (k0_pay4 x1) (k0_pay3 x0) _ _ (0 : Fin 12) _ _ _ _ _ _ _ _ (by rfl) (by rfl) (by rfl) (by rfl) (by rfl) e h w).trans ?_
  refine congrArg (· + _) ?_
  exact bias256 x2 _ _ _ e h w

/-- The second stretch of q: products 4 to 9 (the weight column of product 4 is cut before the stretch). -/
private theorem q2 (x1 : Vec Ideal S12x12 .f32) (X acc : FVec Ideal S12x256x256 .f32) (e : Fin 12) (h w : Fin 256) :
    k0_pay7 X (k0_pay4 x1) acc (k0_pay6 x1) (ix3 e h w)
      = acc (ix3 e h w) + k0_pay4 x1 (ix2 e (4 : Fin 12)) * X (ix3 (4 : Fin 12) h w) + k0_pay4 x1 (ix2 e (5 : Fin 12)) * X (ix3 (5 : Fin 12) h w) + k0_pay4 x1 (ix2 e (6 : Fin 12)) * X (ix3 (6 : Fin 12) h w) + k0_pay4 x1 (ix2 e (7 : Fin 12)) * X (ix3 (7 : Fin 12) h w) + k0_pay4 x1 (ix2 e (8 : Fin 12)) * X (ix3 (8 : Fin 12) h w) + k0_pay4 x1 (ix2 e (9 : Fin 12)) * X (ix3 (9 : Fin 12) h w) := by
  unfold k0_pay7 k0_pay6
  refine (step256 _ (k0_pay4 x1) X _ _ (9 : Fin 12) _ _ _ _ _ _ _ _ (by rfl) (by rfl) (by rfl) (by rfl) (by rfl) e h w).trans ?_
  refine congrArg (· + _) ?_
  refine (step256 _ (k0_pay4 x1) X _ _ (8 : Fin 12) _ _ _ _ _ _ _ _ (by rfl) (by rfl) (by rfl) (by rfl) (by rfl) e h w).trans ?_
  refine congrArg (· + _) ?_
  refine (step256 _ (k0_pay4 x1) X _ _ (7 : Fin 12) _ _ _ _ _ _ _ _ (by rfl) (by rfl) (by rfl) (by rfl) (by rfl) e h w).trans ?_
  refine congrArg (· + _) ?_
  refine (step256 _ (k0_pay4 x1) X _ _ (6 : Fin 12) _ _ _ _ _ _ _ _ (by rfl) (by rfl) (by rfl) (by rfl) (by rfl) e h w).trans ?_
  refine congrArg (· + _) ?_
  refine (step256 _ (k0_pay4 x1) X _ _ (5 : Fin 12) _ _ _ _ _ _ _ _ (by rfl) (by rfl) (by rfl) (by rfl) (by rfl) e h w).trans ?_
  refine congrArg (· + _) ?_
  refine (step256 _ (k0_pay4 x1) X _ _ (4 : Fin 12) _ _ _ _ _ _ _ _ (by rfl) (by rfl) (by rfl) (by rfl) (by rfl) e h w).trans ?_
  refine congrArg (· + _) ?_
  rfl

/-- The third stretch of q: products 10 and 11, then the multiplication by the literal one. -/
private theorem q3 (Wm : FVec Ideal S12x12 .f32) (X acc : FVec Ideal S12x256x256 .f32) (e : Fin 12) (h w : Fin 256) :
    k0_pay9 X Wm acc (k0_pay8 Wm) (ix3 e h w)
      = (acc (ix3 e h w) + Wm (ix2 e (10 : Fin 12)) * X (ix3 (10 : Fin 12) h w) + Wm (ix2 e (11 : Fin 12)) * X (ix3 (11 : Fin 12) h w)) * one := by
  unfold k0_pay9 k0_pay8
  -- the product with the spread literal is pointwise, and the literal read at the ideal instance is the specification's word
  refine (mulf_apply _ _ _).trans ?_
  refine congrArg (· * one) ?_
  refine (step256 _ Wm X _ _ (11 : Fin 12) _ _ _ _ _ _ _ _ (by rfl) (by rfl) (by rfl) (by rfl) (by rfl) e h w).trans ?_
  refine congrArg (· + _) ?_
  refine (step256 _ Wm X _ _ (10 : Fin 12) _ _ _ _ _ _ _ _ (by rfl) (by rfl) (by rfl) (by rfl) (by rfl) e h w).trans ?_
  refine congrArg (· + _) ?_
  rfl

/-- The first stretch of k: the bias and products 0 and 1. -/
private theorem k1 (X : FVec Ideal S12x258x258 .f32) (x3 : Vec Ideal S12x12 .f32) (x4 : Vec Ideal S12x1x1 .f32) (e : Fin 12) (gh gw : Fin 258) :
    k0_pay11 X x3 x4 (ix3 e gh gw)
      = x4 (ix3 e (0 : Fin 1) (0 : Fin 1)) + k0_pay10 x3 (ix2 e (0 : Fin 12)) * X (ix3 (0 : Fin 12) gh gw) + k0_pay10 x3 (ix2 e (1 : Fin 12)) * X (ix3 (1 : Fin 12) gh gw) := by
  unfold k0_pay11
  refine (step258 _ (k0_pay10 x3) X _ _ (1 : Fin 12) _ _ _ _ _ _ _ _ (by rfl) (by rfl) (by rfl) (by rfl) (by rfl) e gh gw).trans ?_
  refine congrArg (· + _) ?_
  refine (step258 _ (k0_pay10 x3) X _ _ (0 : Fin 12) _ _ _ _ _ _ _ _ (by rfl) (by rfl) (by rfl) (by rfl) (by rfl) e gh gw).trans ?_
  refine congrArg (· + _) ?_
  exact bias258 x4 _ _ _ e gh gw

/-- The second stretch of k: products 2 to 7 (both factors of product 2 are prepared before the stretch). -/
private theorem k2 (x3 : Vec Ideal S12x12 .f32) (X acc : FVec Ideal S12x258x258 .f32) (e : Fin 12) (gh gw : Fin 258) :
    k0_pay14 X (k0_pay10 x3) acc (k0_pay12 X) (k0_pay13 x3) (ix3 e gh gw)
      = acc (ix3 e gh gw) + k0_pay10 x3 (ix2 e (2 : Fin 12)) * X (ix3 (2 : Fin 12) gh gw) + k0_pay10 x3 (ix2 e (3 : Fin 12)) * X (ix3 (3 : Fin 12) gh gw) + k0_pay10 x3 (ix2 e (4 : Fin 12)) * X (ix3 (4 : Fin 12) gh gw) + k0_pay10 x3 (ix2 e (5 : Fin 12)) * X (ix3 (5 : Fin 12) gh gw) + k0_pay10 x3 (ix2 e (6 : Fin 12)) * X (ix3 (6 : Fin 12) gh gw) + k0_pay10 x3 (ix2 e (7 : Fin 12)) * X (ix3 (7 : Fin 12) gh gw) := by
  unfold k0_pay14 k0_pay12 k0_pay13
  refine (step258 _ (k0_pay10 x3) X _ _ (7 : Fin 12) _ _ _ _ _ _ _ _ (by rfl) (by rfl) (by rfl) (by rfl) (by rfl) e gh gw).trans ?_
  refine congrArg (· + _) ?_
  refine (step258 _ (k0_pay10 x3) X _ _ (6 : Fin 12) _ _ _ _ _ _ _ _ (by rfl) (by rfl) (by rfl) (by rfl) (by rfl) e gh gw).trans ?_
  refine congrArg (· + _) ?_
  refine (step258 _ (k0_pay10 x3) X _ _ (5 : Fin 12) _ _ _ _ _ _ _ _ (by rfl) (by rfl) (by rfl) (by rfl) (by rfl) e gh gw).trans ?_
  refine congrArg (· + _) ?_
  refine (step258 _ (k0_pay10 x3) X _ _ (4 : Fin 12) _ _ _ _ _ _ _ _ (by rfl) (by rfl) (by rfl) (by rfl) (by rfl) e gh gw).trans ?_
  refine congrArg (· + _) ?_
  refine (step258 _ (k0_pay10 x3) X _ _ (3 : Fin 12) _ _ _ _ _ _ _ _ (by rfl) (by rfl) (by rfl) (by rfl) (by rfl) e gh gw).trans ?_
  refine congrArg (· + _) ?_
  refine (step258 _ (k0_pay10 x3) X _ _ (2 : Fin 12) _ _ _ _ _ _ _ _ (by rfl) (by rfl) (by rfl) (by rfl) (by rfl) e gh gw).trans ?_
  refine congrArg (· + _) ?_
  rfl

/-- The third stretch of k: products 8 to 11. -/
private theorem k3 (Wm : FVec Ideal S12x12 .f32) (X acc : FVec Ideal S12x258x258 .f32) (e : Fin 12) (gh gw : Fin 258) :
    k0_pay17 X Wm acc (k0_pay15 X) (k0_pay16 Wm) (ix3 e gh gw)
      = acc (ix3 e gh gw) + Wm (ix2 e (8 : Fin 12)) * X (ix3 (8 : Fin 12) gh gw) + Wm (ix2 e (9 : Fin 12)) * X (ix3 (9 : Fin 12) gh gw) + Wm (ix2 e (10 : Fin 12)) * X (ix3 (10 : Fin 12) gh gw) + Wm (ix2 e (11 : Fin 12)) * X (ix3 (11 : Fin 12) gh gw) := by
  unfold k0_pay17 k0_pay15 k0_pay16
  refine (step258 _ Wm X _ _ (11 : Fin 12) _ _ _ _ _ _ _ _ (by rfl) (by rfl) (by rfl) (by rfl) (by rfl) e gh gw).trans ?_
  refine congrArg (· + _) ?_
  refine (step258 _ Wm X _ _ (10 : Fin 12) _ _ _ _ _ _ _ _ (by rfl) (by rfl) (by rfl) (by rfl) (by rfl) e gh gw).trans ?_
  refine congrArg (· + _) ?_
  refine (step258 _ Wm X _ _ (9 : Fin 12) _ _ _ _ _ _ _ _ (by rfl) (by rfl) (by rfl) (by rfl) (by rfl) e gh gw).trans ?_
  refine congrArg (· + _) ?_
  refine (step258 _ Wm X _ _ (8 : Fin 12) _ _ _ _ _ _ _ _ (by rfl) (by rfl) (by rfl) (by rfl) (by rfl) e gh gw).trans ?_
  refine congrArg (· + _) ?_
  rfl

/-- The first stretch of v: the bias and product 0. -/
private theorem v1 (X : FVec Ideal S12x258x258 .f32) (x5 : Vec Ideal S12x12 .f32) (x6 : Vec Ideal S12x1x1 .f32) (e : Fin 12) (gh gw : Fin 258) :
    k0_pay19 X x5 x6 (ix3 e gh gw)
      = x6 (ix3 e (0 : Fin 1) (0 : Fin 1)) + k0_pay18 x5 (ix2 e (0 : Fin 12)) * X (ix3 (0 : Fin 12) gh gw) := by
  unfold k0_pay19
  refine (step258 _ (k0_pay18 x5) X _ _ (0 : Fin 12) _ _ _ _ _ _ _ _ (by rfl) (by rfl) (by rfl) (by rfl) (by rfl) e gh gw).trans ?_
  refine congrArg (· + _) ?_
  exact bias258 x6 _ _ _ e gh gw

/-- The second stretch of v: products 1 to 6. -/
private theorem v2 (x5 : Vec Ideal S12x12 .f32) (X acc : FVec Ideal S12x258x258 .f32) (e : Fin 12) (gh gw : Fin 258) :
    k0_pay22 X (k0_pay18 x5) acc (k0_pay20 x5) (k0_pay21 X) (ix3 e gh gw)
      = acc (ix3 e gh gw) + k0_pay18 x5 (ix2 e (1 : Fin 12)) * X (ix3 (1 : Fin 12) gh gw) + k0_pay18 x5 (ix2 e (2 : Fin 12)) * X (ix3 (2 : Fin 12) gh gw) + k0_pay18 x5 (ix2 e (3 : Fin 12)) * X (ix3 (3 : Fin 12) gh gw) + k0_pay18 x5 (ix2 e (4 : Fin 12)) * X (ix3 (4 : Fin 12) gh gw) + k0_pay18 x5 (ix2 e (5 : Fin 12)) * X (ix3 (5 : Fin 12) gh gw) + k0_pay18 x5 (ix2 e (6 : Fin 12)) * X (ix3 (6 : Fin 12) gh gw) := by
  unfold k0_pay22 k0_pay20 k0_pay21
  refine (step258 _ (k0_pay18 x5) X _ _ (6 : Fin 12) _ _ _ _ _ _ _ _ (by rfl) (by rfl) (by rfl) (by rfl) (by rfl) e gh gw).trans ?_
  refine congrArg (· + _) ?_
  refine (step258 _ (k0_pay18 x5) X _ _ (5 : Fin 12) _ _ _ _ _ _ _ _ (by rfl) (by rfl) (by rfl) (by rfl) (by rfl) e gh gw).trans ?_
  refine congrArg (· + _) ?_
  refine (step258 _ (k0_pay18 x5) X _ _ (4 : Fin 12) _ _ _ _ _ _ _ _ (by rfl) (by rfl) (by rfl) (by rfl) (by rfl) e gh gw).trans ?_
  refine congrArg (· + _) ?_
  refine (step258 _ (k0_pay18 x5) X _ _ (3 : Fin 12) _ _ _ _ _ _ _ _ (by rfl) (by rfl) (by rfl) (by rfl) (by rfl) e gh gw).trans ?_
  refine congrArg (· + _) ?_
  refine (step258 _ (k0_pay18 x5) X _ _ (2 : Fin 12) _ _ _ _ _ _ _ _ (by rfl) (by rfl) (by rfl) (by rfl) (by rfl) e gh gw).trans ?_
  refine congrArg (· + _) ?_
  refine (step258 _ (k0_pay18 x5) X _ _ (1 : Fin 12) _ _ _ _ _ _ _ _ (by rfl) (by rfl) (by rfl) (by rfl) (by rfl) e gh gw).trans ?_
  refine congrArg (· + _) ?_
  rfl

/-- The third stretch of v: products 7 to 11. -/
private theorem v3 (Wm : FVec Ideal S12x12 .f32) (X acc : FVec Ideal S12x258x258 .f32) (e : Fin 12) (gh gw : Fin 258) :
    k0_pay25 X Wm acc (k0_pay23 Wm) (k0_pay24 X) (ix3 e gh gw)
      = acc (ix3 e gh gw) + Wm (ix2 e (7 : Fin 12)) * X (ix3 (7 : Fin 12) gh gw) + Wm (ix2 e (8 : Fin 12)) * X (ix3 (8 : Fin 12) gh gw) + Wm (ix2 e (9 : Fin 12)) * X (ix3 (9 : Fin 12) gh gw) + Wm (ix2 e (10 : Fin 12)) * X (ix3 (10 : Fin 12) gh gw) + Wm (ix2 e (11 : Fin 12)) * X (ix3 (11 : Fin 12) gh gw) := by
  unfold k0_pay25 k0_pay23 k0_pay24
  refine (step258 _ Wm X _ _ (11 : Fin 12) _ _ _ _ _ _ _ _ (by rfl) (by rfl) (by rfl) (by rfl) (by rfl) e gh gw).trans ?_
  refine congrArg (· + _) ?_
  refine (step258 _ Wm X _ _ (10 : Fin 12) _ _ _ _ _ _ _ _ (by rfl) (by rfl) (by rfl) (by rfl) (by rfl) e gh gw).trans ?_
  refine congrArg (· + _) ?_
  refine (step258 _ Wm X _ _ (9 : Fin 12) _ _ _ _ _ _ _ _ (by rfl) (by rfl) (by rfl) (by rfl) (by rfl) e gh gw).trans ?_
  refine congrArg (· + _) ?_
  refine (step258 _ Wm X _ _ (8 : Fin 12) _ _ _ _ _ _ _ _ (by rfl) (by rfl) (by rfl) (by rfl) (by rfl) e gh gw).trans ?_
  refine congrArg (· + _) ?_
  refine (step258 _ Wm X _ _ (7 : Fin 12) _ _ _ _ _ _ _ _ (by rfl) (by rfl) (by rfl) (by rfl) (by rfl) e gh gw).trans ?_
  refine congrArg (· + _) ?_
  rfl

/-! ## The operands the stretches read, back at the loaded blocks -/

/-- A weight block through its identity cast is itself. -/
private theorem w4_apply (x1 : Vec Ideal S12x12 .f32) (i : S12x12.Idx) : k0_pay4 x1 i = x1 i :=
  congrFun (shapeCast_self x1 _) i

private theorem w10_apply (x3 : Vec Ideal S12x12 .f32) (i : S12x12.Idx) : k0_pay10 x3 i = x3 i :=
  congrFun (shapeCast_self x3 _) i

private theorem w18_apply (x5 : Vec Ideal S12x12 .f32) (i : S12x12.Idx) : k0_pay18 x5 i = x5 i :=
  congrFun (shapeCast_self x5 _) i

/-- The input block with its unit batch axis dropped: at (dd, gh, gw) it is the block at (0, dd, gh, gw). -/
private theorem x2_apply (x0 : Vec Ideal S1x12x258x258 .f32) (dd : Fin 12) (gh gw : Fin 258) :
    k0_pay2 x0 (ix3 dd gh gw) = x0 (ix4 (0 : Fin 1) dd gh gw) :=
  shapeCast_1abc_abc_apply x0 _ dd gh gw

/-- The interior of the input block: at (dd, h, w) it is the block at (0, dd, h + 1, w + 1). -/
private theorem x3_apply (x0 : Vec Ideal S1x12x258x258 .f32) (dd : Fin 12) (h w : Fin 256) :
    k0_pay3 x0 (ix3 dd h w) = x0 (ix4 (0 : Fin 1) dd ⟨h.val + 1, by omega⟩ ⟨w.val + 1, by omega⟩) := by
  unfold k0_pay3
  refine (extractStridedSlice_apply _ (k0_pay2 x0) _ (ix3 dd h w) (ix3 dd (⟨h.val + 1, by omega⟩ : Fin 258) (⟨w.val + 1, by omega⟩ : Fin 258)) fun a => ?_).trans ?_
  · match a with
    | ⟨0, _⟩ => show dd.val = 0 + dd.val; omega
    | ⟨1, _⟩ => show h.val + 1 = 1 + h.val; omega
    | ⟨2, _⟩ => show w.val + 1 = 1 + w.val; omega
  exact x2_apply x0 dd _ _

theorem Qp_apply (x0 : Vec Ideal S1x12x258x258 .f32) (x1 : Vec Ideal S12x12 .f32) (x2 : Vec Ideal S12x1x1 .f32) (e : Fin 12) (h w : Fin 256) :
    Qp x0 x1 x2 (ix3 e h w)
      = linK (fun dd => x0 (ix4 (0 : Fin 1) dd ⟨h.val + 1, by omega⟩ ⟨w.val + 1, by omega⟩)) (fun dd => x1 (ix2 e dd)) (x2 (ix3 e (0 : Fin 1) (0 : Fin 1))) * one := by
  -- the three stretches in turn, then every operand back at the loaded blocks
  refine (q3 (k0_pay4 x1) (k0_pay3 x0) _ e h w).trans ?_
  rw [q2 x1 (k0_pay3 x0) _ e h w, q1 x0 x1 x2 e h w]
  simp only [w4_apply, x3_apply]
  rfl

theorem Kp_apply (x0 : Vec Ideal S1x12x258x258 .f32) (x3 : Vec Ideal S12x12 .f32) (x4 : Vec Ideal S12x1x1 .f32) (e : Fin 12) (gh gw : Fin 258) :
    Kp x0 x3 x4 (ix3 e gh gw) = linK (fun dd => x0 (ix4 (0 : Fin 1) dd gh gw)) (fun dd => x3 (ix2 e dd)) (x4 (ix3 e (0 : Fin 1) (0 : Fin 1))) := by
  refine (k3 (k0_pay10 x3) (k0_pay2 x0) _ e gh gw).trans ?_
  rw [k2 x3 (k0_pay2 x0) _ e gh gw, k1 (k0_pay2 x0) x3 x4 e gh gw]
  simp only [w10_apply, x2_apply]
  rfl

theorem Vp_apply (x0 : Vec Ideal S1x12x258x258 .f32) (x5 : Vec Ideal S12x12 .f32) (x6 : Vec Ideal S12x1x1 .f32) (e : Fin 12) (gh gw : Fin 258) :
    Vp x0 x5 x6 (ix3 e gh gw) = linK (fun dd => x0 (ix4 (0 : Fin 1) dd gh gw)) (fun dd => x5 (ix2 e dd)) (x6 (ix3 e (0 : Fin 1) (0 : Fin 1))) := by
  refine (v3 (k0_pay18 x5) (k0_pay2 x0) _ e gh gw).trans ?_
  rw [v2 x5 (k0_pay2 x0) _ e gh gw, v1 (k0_pay2 x0) x5 x6 e gh gw]
  simp only [w18_apply, x2_apply]
  rfl

end Cert.Ker

end
-- ==== Proof.KAtt.lean ====
/-
  What the kernel body stores in its output block, read at an index: the nine window terms q·k·β·v added in order onto
  the zero accumulator, q, k and v the three affine maps of the input block.
-/
import proofs.«181481_j52390011076755_1_alg».proof.Proof.KLin
import proofs.«181481_j52390011076755_1_alg».proof.Proof.Gen.KernelIdeal.Frame

noncomputable section

namespace Cert.Ker

open Idealize.ShloMosaic Idealize.ShloMosaic.ValueIdx Idealize.ShloMosaic.TcCoe Idealize.SL.Sem Cert.KernelIdeal Cert.KernelIdeal.Gen Cert.Attn

namespace Att

/-- A unit-stride window of the 258×258 patch grid at offset (di, dj), read at interior patch (h, w), is the grid at
    (h + di, w + dj), the channel unchanged. -/
theorem slice_apply (di dj : Nat) (hdi : di ≤ 2) (hdj : dj ≤ 2) (x : FVec Ideal S12x258x258 .f32)
    (hs : S12x258x258.Slices ![0, di, dj] S12x256x256) (e : Fin 12) (h w : Fin 256) :
    extractStridedSlice S12x256x256 ![0, di, dj] x hs (ix3 e h w)
      = x (ix3 e ⟨h.val + di, by omega⟩ ⟨w.val + dj, by omega⟩) :=
  extractStridedSlice_apply _ x hs _ _ fun a => match a with
    | ⟨0, _⟩ => by show e.val = 0 + e.val; omega
    | ⟨1, _⟩ => by show h.val + di = di + h.val; omega
    | ⟨2, _⟩ => by show w.val + dj = dj + w.val; omega

/-- A row of the position table with its leading unit axis dropped reads its entry at the channel: both indices sit at
    row-major position e. -/
theorem rowCast_apply (row : Vec Ideal S1x12x1x1 .f32) (hsc : S1x12x1x1.ShapeCasts S12x1x1) (e : Fin 12) :
    shapeCast S12x1x1 row hsc (ix3 e (0 : Fin 1) (0 : Fin 1)) = row (ix4 (0 : Fin 1) e (0 : Fin 1) (0 : Fin 1)) := by
  refine shapeCast_apply row hsc _ _ ?_
  rw [Shape.rowMajor_val_four, Shape.rowMajor_val_three]
  show ((0 * 12 + e.val) * 1 + 0) * 1 + 0 = (e.val * 1 + 0) * 1 + 0
  omega

/-- A column over the channels spread over the patches reads the channel's entry at every patch. -/
theorem spread_apply (col : FVec Ideal S12x1x1 .f32) (hbc : S12x1x1.Broadcasts S12x256x256) (e : Fin 12) (h w : Fin 256) :
    broadcastTo S12x256x256 col hbc (ix3 e h w) = col (ix3 e (0 : Fin 1) (0 : Fin 1)) :=
  broadcastTo_apply _ hbc (ix3 e h w) (ix3 e (0 : Fin 1) (0 : Fin 1)) fun a => match a with
    | ⟨0, _⟩ => rfl
    | ⟨1, _⟩ => rfl
    | ⟨2, _⟩ => rfl

/-- The two together: a table row spread over the patches. -/
theorem row_apply (row : Vec Ideal S1x12x1x1 .f32) (hsc : S1x12x1x1.ShapeCasts S12x1x1) (hbc : S12x1x1.Broadcasts S12x256x256)
    (e : Fin 12) (h w : Fin 256) :
    broadcastTo S12x256x256 (shapeCast S12x1x1 row hsc) hbc (ix3 e h w) = row (ix4 (0 : Fin 1) e (0 : Fin 1) (0 : Fin 1)) :=
  (spread_apply _ hbc e h w).trans (rowCast_apply row hsc e)

/-- One window term at offset (di, dj): q · k(h + di, w + dj) · β · v(h + di, w + dj), the factors in this order. -/
theorem term_apply (di dj : Nat) (hdi : di ≤ 2) (hdj : dj ≤ 2) (q : FVec Ideal S12x256x256 .f32) (k v : FVec Ideal S12x258x258 .f32)
    (row : Vec Ideal S1x12x1x1 .f32) (hs : S12x258x258.Slices ![0, di, dj] S12x256x256) (hsc : S1x12x1x1.ShapeCasts S12x1x1)
    (hbc : S12x1x1.Broadcasts S12x256x256) (e : Fin 12) (h w : Fin 256) :
    mulf (mulf (mulf q (extractStridedSlice S12x256x256 ![0, di, dj] k hs)) (broadcastTo S12x256x256 (shapeCast S12x1x1 row hsc) hbc))
        (extractStridedSlice S12x256x256 ![0, di, dj] v hs) (ix3 e h w)
      = q (ix3 e h w) * k (ix3 e ⟨h.val + di, by omega⟩ ⟨w.val + dj, by omega⟩) * row (ix4 (0 : Fin 1) e (0 : Fin 1) (0 : Fin 1))
          * v (ix3 e ⟨h.val + di, by omega⟩ ⟨w.val + dj, by omega⟩) := by
  rw [mulf_apply, mulf_apply, mulf_apply, slice_apply di dj hdi hdj k, slice_apply di dj hdi hdj v, row_apply]

/-- The first window term, position (0, 0), onto the zero accumulator; v enters through its last accumulation step. -/
theorem pay26_apply (v1 : FVec Ideal S12x258x258 .f32) (q : FVec Ideal S12x256x256 .f32) (k : FVec Ideal S12x258x258 .f32)
    (v258 : FVec Ideal S12x12 .f32) (v332 : FVec Ideal S12x258x258 .f32) (v335 : FVec Ideal S12x1x1 .f32)
    (v338 : FVec Ideal S1x258x258 .f32) (r0 : Vec Ideal S1x12x1x1 .f32) (e : Fin 12) (h w : Fin 256) :
    k0_pay26 v1 q k v258 v332 v335 v338 r0 (ix3 e h w)
      = zero + q (ix3 e h w) * k (ix3 e ⟨h.val + 0, by omega⟩ ⟨w.val + 0, by omega⟩) * r0 (ix4 (0 : Fin 1) e (0 : Fin 1) (0 : Fin 1))
          * k0_pay25 v1 v258 v332 v335 v338 (ix3 e ⟨h.val + 0, by omega⟩ ⟨w.val + 0, by omega⟩) := by
  unfold k0_pay26
  exact congrArg (zero + ·) (term_apply 0 0 (by omega) (by omega) q k (k0_pay25 v1 v258 v332 v335 v338) r0 _ _ _ e h w)

/-- k at window position (0, 1). -/
theorem pay27_apply (k : FVec Ideal S12x258x258 .f32) (e : Fin 12) (h w : Fin 256) :
    k0_pay27 k (ix3 e h w) = k (ix3 e ⟨h.val + 0, by omega⟩ ⟨w.val + 1, by omega⟩) := by
  unfold k0_pay27
  exact slice_apply 0 1 (by omega) (by omega) k _ e h w

/-- v at window position (1, 2). -/
theorem pay29_apply (v : FVec Ideal S12x258x258 .f32) (e : Fin 12) (h w : Fin 256) :
    k0_pay29 v (ix3 e h w) = v (ix3 e ⟨h.val + 1, by omega⟩ ⟨w.val + 2, by omega⟩) := by
  unfold k0_pay29
  exact slice_apply 1 2 (by omega) (by omega) v _ e h w

/-- The table row of position (1, 2) as a column over the channels. -/
theorem pay30_apply (row : Vec Ideal S1x12x1x1 .f32) (e : Fin 12) :
    k0_pay30 row (ix3 e (0 : Fin 1) (0 : Fin 1)) = row (ix4 (0 : Fin 1) e (0 : Fin 1) (0 : Fin 1)) := by
  unfold k0_pay30
  exact rowCast_apply row _ e

/-- q · k at window position (1, 2). -/
theorem pay31_apply (q : FVec Ideal S12x256x256 .f32) (k : FVec Ideal S12x258x258 .f32) (e : Fin 12) (h w : Fin 256) :
    k0_pay31 q k (ix3 e h w) = q (ix3 e h w) * k (ix3 e ⟨h.val + 1, by omega⟩ ⟨w.val + 2, by omega⟩) := by
  unfold k0_pay31
  exact congrArg (q (ix3 e h w) * ·) (slice_apply 1 2 (by omega) (by omega) k _ e h w)

/-- Window positions (0, 1), (0, 2), (1, 0), (1, 1) added in this order onto the incoming accumulator; the k window of
    the first comes in already cut. -/
theorem pay28_apply (q : FVec Ideal S12x256x256 .f32) (k v : FVec Ideal S12x258x258 .f32) (acc k01 : FVec Ideal S12x256x256 .f32)
    (r1 r2 r3 r4 : Vec Ideal S1x12x1x1 .f32) (e : Fin 12) (h w : Fin 256) :
    k0_pay28 q k v acc k01 r1 r2 r3 r4 (ix3 e h w)
      = acc (ix3 e h w)
        + q (ix3 e h w) * k01 (ix3 e h w) * r1 (ix4 (0 : Fin 1) e (0 : Fin 1) (0 : Fin 1))
            * v (ix3 e ⟨h.val + 0, by omega⟩ ⟨w.val + 1, by omega⟩)
        + q (ix3 e h w) * k (ix3 e ⟨h.val + 0, by omega⟩ ⟨w.val + 2, by omega⟩) * r2 (ix4 (0 : Fin 1) e (0 : Fin 1) (0 : Fin 1))
            * v (ix3 e ⟨h.val + 0, by omega⟩ ⟨w.val + 2, by omega⟩)
        + q (ix3 e h w) * k (ix3 e ⟨h.val + 1, by omega⟩ ⟨w.val + 0, by omega⟩) * r3 (ix4 (0 : Fin 1) e (0 : Fin 1) (0 : Fin 1))
            * v (ix3 e ⟨h.val + 1, by omega⟩ ⟨w.val + 0, by omega⟩)
        + q (ix3 e h w) * k (ix3 e ⟨h.val + 1, by omega⟩ ⟨w.val + 1, by omega⟩) * r4 (ix4 (0 : Fin 1) e (0 : Fin 1) (0 : Fin 1))
            * v (ix3 e ⟨h.val + 1, by omega⟩ ⟨w.val + 1, by omega⟩) := by
  unfold k0_pay28
  refine congrArg₂ (· + ·) (congrArg₂ (· + ·) (congrArg₂ (· + ·) (congrArg (acc (ix3 e h w) + ·) ?_) ?_) ?_) ?_
  · show mulf (mulf (mulf q k01) (broadcastTo S12x256x256 (shapeCast S12x1x1 r1 _) _)) (extractStridedSlice S12x256x256 ![0, 0, 1] v _) (ix3 e h w) = _
    rw [mulf_apply, mulf_apply, mulf_apply, row_apply, slice_apply 0 1 (by omega) (by omega) v]
  · exact term_apply 0 2 (by omega) (by omega) q k v r2 _ _ _ e h w
  · exact term_apply 1 0 (by omega) (by omega) q k v r3 _ _ _ e h w
  · exact term_apply 1 1 (by omega) (by omega) q k v r4 _ _ _ e h w

/-- The reading of the stored block: index (0, e, h, w) of the block is (e, h, w) of the sum, same row-major position. -/
theorem pay1_apply (q : FVec Ideal S12x256x256 .f32) (k v : FVec Ideal S12x258x258 .f32) (acc v430 : FVec Ideal S12x256x256 .f32)
    (v432 : FVec Ideal S12x1x1 .f32) (v433 : FVec Ideal S12x256x256 .f32) (r6 r7 r8 : Vec Ideal S1x12x1x1 .f32)
    (e : Fin 12) (h w : Fin 256) :
    k0_pay1 q k v acc v430 v432 v433 r6 r7 r8 (ix4 (0 : Fin 1) e h w)
      = acc (ix3 e h w)
        + v433 (ix3 e h w) * v432 (ix3 e (0 : Fin 1) (0 : Fin 1)) * v430 (ix3 e h w)
        + q (ix3 e h w) * k (ix3 e ⟨h.val + 2, by omega⟩ ⟨w.val + 0, by omega⟩) * r6 (ix4 (0 : Fin 1) e (0 : Fin 1) (0 : Fin 1))
            * v (ix3 e ⟨h.val + 2, by omega⟩ ⟨w.val + 0, by omega⟩)
        + q (ix3 e h w) * k (ix3 e ⟨h.val + 2, by omega⟩ ⟨w.val + 1, by omega⟩) * r7 (ix4 (0 : Fin 1) e (0 : Fin 1) (0 : Fin 1))
            * v (ix3 e ⟨h.val + 2, by omega⟩ ⟨w.val + 1, by omega⟩)
        + q (ix3 e h w) * k (ix3 e ⟨h.val + 2, by omega⟩ ⟨w.val + 2, by omega⟩) * r8 (ix4 (0 : Fin 1) e (0 : Fin 1) (0 : Fin 1))
            * v (ix3 e ⟨h.val + 2, by omega⟩ ⟨w.val + 2, by omega⟩) := by
  unfold k0_pay1
  refine (shapeCast_apply _ shapeCasts_S12x256x256_S1x12x256x256 (ix4 (0 : Fin 1) e h w) (ix3 e h w) ?_).trans ?_
  · rw [Shape.rowMajor_val_three, Shape.rowMajor_val_four]
    show (e.val * 256 + h.val) * 256 + w.val = ((0 * 12 + e.val) * 256 + h.val) * 256 + w.val
    omega
  refine congrArg₂ (· + ·) (congrArg₂ (· + ·) (congrArg₂ (· + ·) (congrArg (acc (ix3 e h w) + ·) ?_) ?_) ?_) ?_
  · show mulf (mulf v433 (broadcastTo S12x256x256 v432 _)) v430 (ix3 e h w) = _
    rw [mulf_apply, mulf_apply, spread_apply]
  · exact term_apply 2 0 (by omega) (by omega) q k v r6 _ _ _ e h w
  · exact term_apply 2 1 (by omega) (by omega) q k v r7 _ _ _ e h w
  · exact term_apply 2 2 (by omega) (by omega) q k v r8 _ _ _ e h w

/-- The body over variables: the nine window terms, positions (0, 0) … (2, 2) row by row, added in this order onto the
    zero accumulator. v is the last accumulation step of its affine map, which the first term re-enters. -/
theorem body_apply (v1 : FVec Ideal S12x258x258 .f32) (q : FVec Ideal S12x256x256 .f32) (k : FVec Ideal S12x258x258 .f32)
    (v258 : FVec Ideal S12x12 .f32) (v332 : FVec Ideal S12x258x258 .f32) (v335 : FVec Ideal S12x1x1 .f32)
    (v338 : FVec Ideal S1x258x258 .f32) (v : FVec Ideal S12x258x258 .f32) (hv : v = k0_pay25 v1 v258 v332 v335 v338)
    (r0 r1 r2 r3 r4 r5 r6 r7 r8 : Vec Ideal S1x12x1x1 .f32) (e : Fin 12) (h w : Fin 256) :
    k0_pay1 q k v (k0_pay28 q k v (k0_pay26 v1 q k v258 v332 v335 v338 r0) (k0_pay27 k) r1 r2 r3 r4) (k0_pay29 v) (k0_pay30 r5)
        (k0_pay31 q k) r6 r7 r8 (ix4 (0 : Fin 1) e h w)
      = zero
        + q (ix3 e h w) * k (ix3 e ⟨h.val + 0, by omega⟩ ⟨w.val + 0, by omega⟩) * r0 (ix4 (0 : Fin 1) e (0 : Fin 1) (0 : Fin 1))
            * v (ix3 e ⟨h.val + 0, by omega⟩ ⟨w.val + 0, by omega⟩)
        + q (ix3 e h w) * k (ix3 e ⟨h.val + 0, by omega⟩ ⟨w.val + 1, by omega⟩) * r1 (ix4 (0 : Fin 1) e (0 : Fin 1) (0 : Fin 1))
            * v (ix3 e ⟨h.val + 0, by omega⟩ ⟨w.val + 1, by omega⟩)
        + q (ix3 e h w) * k (ix3 e ⟨h.val + 0, by omega⟩ ⟨w.val + 2, by omega⟩) * r2 (ix4 (0 : Fin 1) e (0 : Fin 1) (0 : Fin 1))
            * v (ix3 e ⟨h.val + 0, by omega⟩ ⟨w.val + 2, by omega⟩)
        + q (ix3 e h w) * k (ix3 e ⟨h.val + 1, by omega⟩ ⟨w.val + 0, by omega⟩) * r3 (ix4 (0 : Fin 1) e (0 : Fin 1) (0 : Fin 1))
            * v (ix3 e ⟨h.val + 1, by omega⟩ ⟨w.val + 0, by omega⟩)
        + q (ix3 e h w) * k (ix3 e ⟨h.val + 1, by omega⟩ ⟨w.val + 1, by omega⟩) * r4 (ix4 (0 : Fin 1) e (0 : Fin 1) (0 : Fin 1))
            * v (ix3 e ⟨h.val + 1, by omega⟩ ⟨w.val + 1, by omega⟩)
        + q (ix3 e h w) * k (ix3 e ⟨h.val + 1, by omega⟩ ⟨w.val + 2, by omega⟩) * r5 (ix4 (0 : Fin 1) e (0 : Fin 1) (0 : Fin 1))
            * v (ix3 e ⟨h.val + 1, by omega⟩ ⟨w.val + 2, by omega⟩)
        + q (ix3 e h w) * k (ix3 e ⟨h.val + 2, by omega⟩ ⟨w.val + 0, by omega⟩) * r6 (ix4 (0 : Fin 1) e (0 : Fin 1) (0 : Fin 1))
            * v (ix3 e ⟨h.val + 2, by omega⟩ ⟨w.val + 0, by omega⟩)
        + q (ix3 e h w) * k (ix3 e ⟨h.val + 2, by omega⟩ ⟨w.val + 1, by omega⟩) * r7 (ix4 (0 : Fin 1) e (0 : Fin 1) (0 : Fin 1))
            * v (ix3 e ⟨h.val + 2, by omega⟩ ⟨w.val + 1, by omega⟩)
        + q (ix3 e h w) * k (ix3 e ⟨h.val + 2, by omega⟩ ⟨w.val + 2, by omega⟩) * r8 (ix4 (0 : Fin 1) e (0 : Fin 1) (0 : Fin 1))
            * v (ix3 e ⟨h.val + 2, by omega⟩ ⟨w.val + 2, by omega⟩) := by
  subst hv
  rw [pay1_apply, pay28_apply, pay26_apply, pay27_apply, pay29_apply, pay30_apply, pay31_apply]

/-- Row p of the position table through its 1×12×1×1 window: the window's offset on the leading axis is p, its strides one. -/
theorem ld_row (x7 : Vec Ideal S9x12x1x1 .f32) (p : Fin 9) (off0 : Nat) (hp : off0 = p.val)
    (inb : ∀ a, (![off0, 0, 0, 0] : Fin 4 → Nat) a + S1x12x1x1.size a ≤ S9x12x1x1.size a) (e : Fin 12) :
    View.ld x7 (Rect.unit (s := S9x12x1x1) ![off0, 0, 0, 0] S1x12x1x1.size inb) (ix4 (0 : Fin 1) e (0 : Fin 1) (0 : Fin 1))
      = x7 (ix4 p e (0 : Fin 1) (0 : Fin 1)) := by
  subst hp
  show x7 _ = x7 _
  refine congrArg x7 (funext fun a => Fin.ext ?_)
  match a with
  | ⟨0, _⟩ => show p.val + 1 * 0 = p.val; omega
  | ⟨1, _⟩ => show 0 + 1 * e.val = e.val; omega
  | ⟨2, _⟩ => rfl
  | ⟨3, _⟩ => rfl

/-- The zero offsets of the whole-block windows, spelt as the constant function. -/
theorem hz4 : (![0, 0, 0, 0] : Fin 4 → Nat) = fun _ => 0 :=
  funext fun a => match a with | ⟨0, _⟩ => rfl | ⟨1, _⟩ => rfl | ⟨2, _⟩ => rfl | ⟨3, _⟩ => rfl
theorem hz3 : (![0, 0, 0] : Fin 3 → Nat) = fun _ => 0 :=
  funext fun a => match a with | ⟨0, _⟩ => rfl | ⟨1, _⟩ => rfl | ⟨2, _⟩ => rfl
theorem hz2 : (![0, 0] : Fin 2 → Nat) = fun _ => 0 :=
  funext fun a => match a with | ⟨0, _⟩ => rfl | ⟨1, _⟩ => rfl

end Att

open Att

theorem out0_8_apply (x0 : Vec Ideal S1x12x258x258 .f32) (x1 : Vec Ideal S12x12 .f32) (x2 : Vec Ideal S12x1x1 .f32) (x3 : Vec Ideal S12x12 .f32)
    (x4 : Vec Ideal S12x1x1 .f32) (x5 : Vec Ideal S12x12 .f32) (x6 : Vec Ideal S12x1x1 .f32) (x7 : Vec Ideal S9x12x1x1 .f32) (e : Fin 12) (h w : Fin 256) :
    out0_8 (F := Ideal) x0 x1 x2 x3 x4 x5 x6 x7 (ix4 (0 : Fin 1) e h w)
      = bodyVal (fun dd gh gw => x0 (ix4 (0 : Fin 1) dd gh gw)) (fun e dd => x1 (ix2 e dd)) (fun e dd => x3 (ix2 e dd)) (fun e dd => x5 (ix2 e dd))
          (fun e => x2 (ix3 e (0 : Fin 1) (0 : Fin 1))) (fun e => x4 (ix3 e (0 : Fin 1) (0 : Fin 1))) (fun e => x6 (ix3 e (0 : Fin 1) (0 : Fin 1)))
          (fun p e => x7 (ix4 p e (0 : Fin 1) (0 : Fin 1))) e h w := by
  -- the whole-block windows read the blocks themselves, and the one whole-block store leaves its payload
  have e0 : View.ld x0 r0_0 = x0 := View.ld_unit_zero hz4 _ x0
  have e1 : View.ld x1 r0_1 = x1 := View.ld_unit_zero hz2 _ x1
  have e2 : View.ld x2 r0_2 = x2 := View.ld_unit_zero hz3 _ x2
  have e3 : View.ld x3 r0_1 = x3 := View.ld_unit_zero hz2 _ x3
  have e4 : View.ld x4 r0_2 = x4 := View.ld_unit_zero hz3 _ x4
  have e5 : View.ld x5 r0_1 = x5 := View.ld_unit_zero hz2 _ x5
  have e6 : View.ld x6 r0_2 = x6 := View.ld_unit_zero hz3 _ x6
  unfold out0_8
  rw [e0, e1, e2, e3, e4, e5, e6, View.canon_unit_zero hz4]
  -- the payload is the body over q, k, v, the three affine maps of the input block, and the nine table rows
  refine (body_apply (k0_pay2 x0) (Qp x0 x1 x2) (Kp x0 x3 x4) (k0_pay18 x5) _ _ _ (Vp x0 x5 x6) rfl
    (View.ld x7 r0_3) (View.ld x7 r0_4) (View.ld x7 r0_5) (View.ld x7 r0_6) (View.ld x7 r0_7) (View.ld x7 r0_8)
    (View.ld x7 r0_9) (View.ld x7 r0_10) (View.ld x7 r0_11) e h w).trans ?_
  -- window p of the table is its row p; q, k, v read by coordinates are the affine maps of the specification
  rw [ld_row x7 0 0 rfl _ e, ld_row x7 1 1 rfl _ e, ld_row x7 2 2 rfl _ e, ld_row x7 3 3 rfl _ e, ld_row x7 4 4 rfl _ e,
    ld_row x7 5 5 rfl _ e, ld_row x7 6 6 rfl _ e, ld_row x7 7 7 rfl _ e, ld_row x7 8 8 rfl _ e]
  simp only [Qp_apply, Kp_apply, Vp_apply]
  -- position p = 3·di + dj of the window has di = p / 3, dj = p % 3: the specification's nine terms in its order
  rfl

end Cert.Ker

end
-- ==== Proof.KHost.lean ====
/-
  What the region finds in each window's array: the host lines before it, as functions of the argument arrays.
-/
import proofs.«181481_j52390011076755_1_alg».proof.Proof.Gen.KernelIdeal.Frame
import proofs.«181481_j52390011076755_1_alg».proof.Proof.KStages
import Idealize.ShloMosaic.Lib.StableHlo.Run

noncomputable section

namespace Cert.Ker

open Idealize.ShloMosaic Idealize.ShloMosaic.ValueIdx Idealize.ShloMosaic.TcCoe Idealize.SL.Sem Cert.KernelIdeal Cert.KernelIdeal.Gen Cert.Attn

variable {F : FTy → Type} [FloatOps F]
variable (m : (ℓ : Loc nD τ sig) → Buf (Elt F) ℓ)

namespace Host

/-- The padding line of the module-local call, read back: its operands' and its result's contents are carried between the
    value's type and the buffer's type along equations whose two sides are the same type, so each carrying is the identity. -/
theorem padStage (c : Dev nD) (h1 h2 h3 h4 h5 h6 h7 h8 h9 h10 h11 h12) :
    ((StableHlo.TRef.of main_v0 h10 h11 h12 : StableHlo.TRef sig ⟨S4x3x516x516, .f32⟩).toBuf (Val := Elt F)
        ((fun x v => pad S4x3x516x516 ![0, 0, 2, 2] ![0, 0, 2, 2] ![0, 0, 0, 0] x v pads_S4x3x512x512_S4x3x516x516_000_000_220_220 h_S_)
          ((StableHlo.TRef.of main_arg0 h7 h8 h9 : StableHlo.TRef sig ⟨S4x3x512x512, .f32⟩).ofBuf (Val := Elt F)
            (m (c, Proc.tc.devRef (StableHlo.TRef.of main_arg0 h7 h8 h9 : StableHlo.TRef sig ⟨S4x3x512x512, .f32⟩).ref)))
          ((StableHlo.TRef.of main_call0_v0 h4 h5 h6 : StableHlo.TRef sig ⟨S_, .f32⟩).ofBuf (Val := Elt F)
            ((StableHlo.TRef.of main_call0_v0 h4 h5 h6 : StableHlo.TRef sig ⟨S_, .f32⟩).toBuf
              (sitofp FTy.f32 (((StableHlo.TRef.of main_c h1 h2 h3 : StableHlo.TRef sig ⟨S_, .i32⟩).ofBuf (Val := Elt F) (constantI S_ 32 0#32)) : IVec S_ 32))))))
      = pad S4x3x516x516 ![0, 0, 2, 2] ![0, 0, 2, 2] ![0, 0, 0, 0] (m ((c.tc : Thread nD τ).loc main_arg0)) (sitofp .f32 (constantI S_ 32 0#32))
          pads_S4x3x512x512_S4x3x516x516_000_000_220_220 h_S_ := rfl

/-- The first reshape read back: the element type on both sides of its equation is f32, so the transport is the identity
    and the array is the reshape of the padded image to 2×2 patches. -/
theorem reshapeV1 (he : main_v0.ty.elt = main_v1.ty.elt) (X : FVec F S4x3x516x516 .f32) :
    ((fun i => he ▸ shapeCast main_v1.ty.shape (X : main_v0.ty.Contents (Elt F)) shapeCasts_S4x3x516x516_S4x3x258x2x258x2 i) : main_v1.ty.Contents (Elt F))
      = shapeCast S4x3x258x2x258x2 X shapeCasts_S4x3x516x516_S4x3x258x2x258x2 := rfl

/-- The last reshape read back likewise: (colour, row, column) folded into one channel axis of twelve. -/
theorem reshapeV3 (he : main_v2.ty.elt = main_v3.ty.elt) (X : FVec F S4x3x2x2x258x258 .f32) :
    ((fun i => he ▸ shapeCast main_v3.ty.shape (X : main_v2.ty.Contents (Elt F)) shapeCasts_S4x3x2x2x258x258_S4x12x258x258 i) : main_v3.ty.Contents (Elt F))
      = shapeCast S4x12x258x258 X shapeCasts_S4x3x2x2x258x258_S4x12x258x258 := rfl

end Host

open Host

theorem V_v3 (c : Dev nD) : (V m c main_v3 : FVec F S4x12x258x258 .f32) = Xfold (m ((c.tc : Thread nD τ).loc main_arg0)) := by
  dsimp only [Gen.V, Gen.V0]
  simp only [hostOps0, hostOps0_1, hostOps0_2, List.flatten_cons, List.flatten_nil, List.append_nil, List.cons_append, List.nil_append]
  after_results
  rw [padStage m c, reshapeV1 rfl, reshapeV3 rfl]
  rfl
theorem V_v4 (c : Dev nD) : (V m c main_v4 : FVec F S12x12 .f32) = Wq (m ((c.tc : Thread nD τ).loc main_arg1)) := by
  dsimp only [Gen.V, Gen.V0]
  simp only [hostOps0, hostOps0_1, hostOps0_2, List.flatten_cons, List.flatten_nil, List.append_nil, List.cons_append, List.nil_append]
  after_results
  rfl
theorem V_v5 (c : Dev nD) : (V m c main_v5 : FVec F S12x12 .f32) = Wk (m ((c.tc : Thread nD τ).loc main_arg1)) := by
  dsimp only [Gen.V, Gen.V0]
  simp only [hostOps0, hostOps0_1, hostOps0_2, List.flatten_cons, List.flatten_nil, List.append_nil, List.cons_append, List.nil_append]
  after_results
  rfl
theorem V_v6 (c : Dev nD) : (V m c main_v6 : FVec F S12x12 .f32) = Wv (m ((c.tc : Thread nD τ).loc main_arg1)) := by
  dsimp only [Gen.V, Gen.V0]
  simp only [hostOps0, hostOps0_1, hostOps0_2, List.flatten_cons, List.flatten_nil, List.append_nil, List.cons_append, List.nil_append]
  after_results
  rfl
theorem V_v8 (c : Dev nD) : (V m c main_v8 : FVec F S12x1x1 .f32) = bq (m ((c.tc : Thread nD τ).loc main_arg2)) := by
  dsimp only [Gen.V, Gen.V0]
  simp only [hostOps0, hostOps0_1, hostOps0_2, List.flatten_cons, List.flatten_nil, List.append_nil, List.cons_append, List.nil_append]
  after_results
  rfl
theorem V_v10 (c : Dev nD) : (V m c main_v10 : FVec F S12x1x1 .f32) = bk (m ((c.tc : Thread nD τ).loc main_arg2)) := by
  dsimp only [Gen.V, Gen.V0]
  simp only [hostOps0, hostOps0_1, hostOps0_2, List.flatten_cons, List.flatten_nil, List.append_nil, List.cons_append, List.nil_append]
  after_results
  rfl
theorem V_v12 (c : Dev nD) : (V m c main_v12 : FVec F S12x1x1 .f32) = bv (m ((c.tc : Thread nD τ).loc main_arg2)) := by
  dsimp only [Gen.V, Gen.V0]
  simp only [hostOps0, hostOps0_1, hostOps0_2, List.flatten_cons, List.flatten_nil, List.append_nil, List.cons_append, List.nil_append]
  after_results
  rfl
theorem V_cst (c : Dev nD) : (V m c main_cst : FVec F S9x12x1x1 .f32) = btab := by
  dsimp only [Gen.V, Gen.V0]
  simp only [hostOps0, hostOps0_1, hostOps0_2, List.flatten_cons, List.flatten_nil, List.append_nil, List.cons_append, List.nil_append]
  after_results
  rfl

end Cert.Ker

end
-- ==== Proof.KValue.lean ====
/-
  The kernel program's run with its result named: the region's output array ends as one function of the argument
  arrays (each image's block is the body's value from that image's input block), and the host lines after the region
  unfold it and add the image.
-/
import proofs.«181481_j52390011076755_1_alg».proof.Proof.Gen.KernelIdeal.Frame
import proofs.«181481_j52390011076755_1_alg».proof.Proof.KStages
import proofs.«181481_j52390011076755_1_alg».proof.Proof.KAtt
import proofs.«181481_j52390011076755_1_alg».proof.Proof.KHost
import Idealize.ShloMosaic.Lib.Pipeline.Value
import Idealize.ShloMosaic.Lib.StableHlo.Run

noncomputable section

namespace Cert.Ker

open Idealize.ShloMosaic Idealize.ShloMosaic.ValueIdx Idealize.ShloMosaic.TcCoe Idealize.SL.Sem Cert.KernelIdeal Cert.KernelIdeal.Gen Cert.Attn

variable (m : (ℓ : Loc nD τ sig) → Buf (Elt Ideal) ℓ) (ρ : Dev nD → PrngReg)

namespace Value

/-- The region's output array as one function of the eight window arrays: at image b, channel e, interior patch (h, w) the
    body's value from image b's block of the first array and the whole of the seven others. -/
def outArr (X : FVec Ideal S4x12x258x258 .f32) (w1 : FVec Ideal S12x12 .f32) (b1 : FVec Ideal S12x1x1 .f32) (w2 : FVec Ideal S12x12 .f32)
    (b2 : FVec Ideal S12x1x1 .f32) (w3 : FVec Ideal S12x12 .f32) (b3 : FVec Ideal S12x1x1 .f32) (tab : FVec Ideal S9x12x1x1 .f32) :
    FVec Ideal S4x12x256x256 .f32 := fun i =>
  bodyVal (fun dd gh gw => X (ix4 (i 0) dd gh gw)) (fun e dd => w1 (ix2 e dd)) (fun e dd => w2 (ix2 e dd)) (fun e dd => w3 (ix2 e dd))
    (fun e => b1 (ix3 e (0 : Fin 1) (0 : Fin 1))) (fun e => b2 (ix3 e (0 : Fin 1) (0 : Fin 1))) (fun e => b3 (ix3 e (0 : Fin 1) (0 : Fin 1)))
    (fun p e => tab (ix4 p e (0 : Fin 1) (0 : Fin 1))) (i 1) (i 2) (i 3)

/-- The body's output block at an index of the block is the output array at the index of the array with the same channel and
    patch and image b, when the first input block is the array's block of image b and the seven others are whole arrays. -/
theorem body_at (x0 : Vec Ideal S1x12x258x258 .f32) (x1 : Vec Ideal S12x12 .f32) (x2 : Vec Ideal S12x1x1 .f32) (x3 : Vec Ideal S12x12 .f32)
    (x4 : Vec Ideal S12x1x1 .f32) (x5 : Vec Ideal S12x12 .f32) (x6 : Vec Ideal S12x1x1 .f32) (x7 : Vec Ideal S9x12x1x1 .f32)
    (X : FVec Ideal S4x12x258x258 .f32) (w1 : FVec Ideal S12x12 .f32) (b1 : FVec Ideal S12x1x1 .f32) (w2 : FVec Ideal S12x12 .f32)
    (b2 : FVec Ideal S12x1x1 .f32) (w3 : FVec Ideal S12x12 .f32) (b3 : FVec Ideal S12x1x1 .f32) (tab : FVec Ideal S9x12x1x1 .f32)
    (j : S1x12x256x256.Idx) (i : S4x12x256x256.Idx) (b : Fin 4)
    (h0 : ∀ (dd : Fin 12) (gh gw : Fin 258), x0 (ix4 (0 : Fin 1) dd gh gw) = X (ix4 b dd gh gw))
    (h1 : x1 = w1) (h2 : x2 = b1) (h3 : x3 = w2) (h4 : x4 = b2) (h5 : x5 = w3) (h6 : x6 = b3) (h7 : x7 = tab)
    (hi0 : (i 0).val = b.val) (hi1 : (i 1).val = (j 1).val) (hi2 : (i 2).val = (j 2).val) (hi3 : (i 3).val = (j 3).val) :
    out0_8 (F := Ideal) x0 x1 x2 x3 x4 x5 x6 x7 j = outArr X w1 b1 w2 b2 w3 b3 tab i := by
  subst h1 h2 h3 h4 h5 h6 h7
  obtain ⟨z, e, h, w, rfl⟩ : ∃ (z : Fin 1) (e : Fin 12) (h w : Fin 256), j = ix4 z e h w := ⟨j 0, j 1, j 2, j 3, eq_ix4 j⟩
  obtain rfl : z = 0 := Subsingleton.elim _ _
  have e0 : i 0 = b := Fin.ext hi0
  have e1 : i 1 = e := Fin.ext hi1
  have e2 : i 2 = h := Fin.ext hi2
  have e3 : i 3 = w := Fin.ext hi3
  rw [out0_8_apply]
  unfold outArr
  rw [e0, e1, e2, e3]
  exact congrArg (fun Xb => bodyVal Xb _ _ _ _ _ _ _ e h w) (funext fun dd => funext fun gh => funext fun gw => h0 dd gh gw)

/-! ### The printed index maps, decided over the four grid points -/

/-- The image window's block index is (t, 0, 0, 0) at point t. -/
theorem idx_img : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- The output window's block index is (t, 0, 0, 0) at point t. -/
theorem idx_out : ∀ t : Fin cfg0.N, win0_8.index t (0 : Fin 4) = t.val ∧ win0_8.index t (1 : Fin 4) = 0
    ∧ win0_8.index t (2 : Fin 4) = 0 ∧ win0_8.index t (3 : Fin 4) = 0 :=
  (by decide +kernel : ∀ t : Fin grid0.N, _)

/-- The seven whole-array windows sit at block index zero at every point. -/
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 3) = 0 ∧ win0_2.index t (1 : Fin 3) = 0 ∧ win0_2.index t (2 : Fin 3) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 3) = 0 ∧ win0_4.index t (1 : Fin 3) = 0 ∧ win0_4.index t (2 : Fin 3) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx_w7 : ∀ t : Fin cfg0.N, win0_7.index t (0 : Fin 4) = 0 ∧ win0_7.index t (1 : Fin 4) = 0
    ∧ win0_7.index t (2 : Fin 4) = 0 ∧ win0_7.index t (3 : Fin 4) = 0 :=
  (by decide +kernel : ∀ t : Fin grid0.N, _)

/-! ### The input blocks at a point, read off their arrays: a block's coordinate on an axis is the block index times the
    block's size plus the coordinate inside the block -/

/-- The image block at point t is image t of the folded image. -/
theorem blk_img (c : Dev nD) (t : Fin cfg0.N) (x : S1x12x258x258.Idx) (k : S4x12x258x258.Idx)
    (hk0 : (k 0).val = t.val) (hk1 : (k 1).val = (x 1).val) (hk2 : (k 2).val = (x 2).val) (hk3 : (k 3).val = (x 3).val) :
    (iblk (F := Ideal) m c 0 t : Vec Ideal S1x12x258x258 .f32) x = (V m c main_v3 : FVec Ideal S4x12x258x258 .f32) k := by
  obtain ⟨e0, e1, e2, e3⟩ := idx_img t
  have hx : (x 0).val < 1 := (x 0).isLt
  have h : ((cfg0.win 0).blk t).view.emb x = k := by
    funext a; apply Fin.ext
    match a with
    | ⟨0, _⟩ => show win0_0.index t (0 : Fin 4) * 1 + 1 * (x 0).val = (k 0).val; omega
    | ⟨1, _⟩ => show win0_0.index t (1 : Fin 4) * 12 + 1 * (x 1).val = (k 1).val; omega
    | ⟨2, _⟩ => show win0_0.index t (2 : Fin 4) * 258 + 1 * (x 2).val = (k 2).val; omega
    | ⟨3, _⟩ => show win0_0.index t (3 : Fin 4) * 258 + 1 * (x 3).val = (k 3).val; omega
  unfold iblk
  rw [View.read_apply, cast_eq, h]

/-- Each of the seven other windows holds its whole array at every point: its block index is zero on every axis. -/
theorem blk_w1 (c : Dev nD) (t : Fin cfg0.N) : (iblk (F := Ideal) m c 1 t : Vec Ideal S12x12 .f32) = (V m c main_v4 : FVec Ideal S12x12 .f32) := by
  obtain ⟨e0, e1⟩ := idx_w1 t
  funext x
  have h : ((cfg0.win 1).blk t).view.emb x = x := by
    funext a; apply Fin.ext
    match a with
    | ⟨0, _⟩ => show win0_1.index t (0 : Fin 2) * 12 + 1 * (x 0).val = (x 0).val; omega
    | ⟨1, _⟩ => show win0_1.index t (1 : Fin 2) * 12 + 1 * (x 1).val = (x 1).val; omega
  unfold iblk
  rw [View.read_apply, cast_eq, h]
theorem blk_w2 (c : Dev nD) (t : Fin cfg0.N) : (iblk (F := Ideal) m c 2 t : Vec Ideal S12x1x1 .f32) = (V m c main_v8 : FVec Ideal S12x1x1 .f32) := by
  obtain ⟨e0, e1, e2⟩ := idx_w2 t
  funext x
  have h : ((cfg0.win 2).blk t).view.emb x = x := by
    funext a; apply Fin.ext
    match a with
    | ⟨0, _⟩ => show win0_2.index t (0 : Fin 3) * 12 + 1 * (x 0).val = (x 0).val; omega
    | ⟨1, _⟩ => show win0_2.index t (1 : Fin 3) * 1 + 1 * (x 1).val = (x 1).val; omega
    | ⟨2, _⟩ => show win0_2.index t (2 : Fin 3) * 1 + 1 * (x 2).val = (x 2).val; omega
  unfold iblk
  rw [View.read_apply, cast_eq, h]
theorem blk_w3 (c : Dev nD) (t : Fin cfg0.N) : (iblk (F := Ideal) m c 3 t : Vec Ideal S12x12 .f32) = (V m c main_v5 : FVec Ideal S12x12 .f32) := by
  obtain ⟨e0, e1⟩ := idx_w3 t
  funext x
  have h : ((cfg0.win 3).blk t).view.emb x = x := by
    funext a; apply Fin.ext
    match a with
    | ⟨0, _⟩ => show win0_3.index t (0 : Fin 2) * 12 + 1 * (x 0).val = (x 0).val; omega
    | ⟨1, _⟩ => show win0_3.index t (1 : Fin 2) * 12 + 1 * (x 1).val = (x 1).val; omega
  unfold iblk
  rw [View.read_apply, cast_eq, h]
theorem blk_w4 (c : Dev nD) (t : Fin cfg0.N) : (iblk (F := Ideal) m c 4 t : Vec Ideal S12x1x1 .f32) = (V m c main_v10 : FVec Ideal S12x1x1 .f32) := by
  obtain ⟨e0, e1, e2⟩ := idx_w4 t
  funext x
  have h : ((cfg0.win 4).blk t).view.emb x = x := by
    funext a; apply Fin.ext
    match a with
    | ⟨0, _⟩ => show win0_4.index t (0 : Fin 3) * 12 + 1 * (x 0).val = (x 0).val; omega
    | ⟨1, _⟩ => show win0_4.index t (1 : Fin 3) * 1 + 1 * (x 1).val = (x 1).val; omega
    | ⟨2, _⟩ => show win0_4.index t (2 : Fin 3) * 1 + 1 * (x 2).val = (x 2).val; omega
  unfold iblk
  rw [View.read_apply, cast_eq, h]
theorem blk_w5 (c : Dev nD) (t : Fin cfg0.N) : (iblk (F := Ideal) m c 5 t : Vec Ideal S12x12 .f32) = (V m c main_v6 : FVec Ideal S12x12 .f32) := by
  obtain ⟨e0, e1⟩ := idx_w5 t
  funext x
  have h : ((cfg0.win 5).blk t).view.emb x = x := by
    funext a; apply Fin.ext
    match a with
    | ⟨0, _⟩ => show win0_5.index t (0 : Fin 2) * 12 + 1 * (x 0).val = (x 0).val; omega
    | ⟨1, _⟩ => show win0_5.index t (1 : Fin 2) * 12 + 1 * (x 1).val = (x 1).val; omega
  unfold iblk
  rw [View.read_apply, cast_eq, h]
theorem blk_w6 (c : Dev nD) (t : Fin cfg0.N) : (iblk (F := Ideal) m c 6 t : Vec Ideal S12x1x1 .f32) = (V m c main_v12 : FVec Ideal S12x1x1 .f32) := by
  obtain ⟨e0, e1, e2⟩ := idx_w6 t
  funext x
  have h : ((cfg0.win 6).blk t).view.emb x = x := by
    funext a; apply Fin.ext
    match a with
    | ⟨0, _⟩ => show win0_6.index t (0 : Fin 3) * 12 + 1 * (x 0).val = (x 0).val; omega
    | ⟨1, _⟩ => show win0_6.index t (1 : Fin 3) * 1 + 1 * (x 1).val = (x 1).val; omega
    | ⟨2, _⟩ => show win0_6.index t (2 : Fin 3) * 1 + 1 * (x 2).val = (x 2).val; omega
  unfold iblk
  rw [View.read_apply, cast_eq, h]
theorem blk_w7 (c : Dev nD) (t : Fin cfg0.N) : (iblk (F := Ideal) m c 7 t : Vec Ideal S9x12x1x1 .f32) = (V m c main_cst : FVec Ideal S9x12x1x1 .f32) := by
  obtain ⟨e0, e1, e2, e3⟩ := idx_w7 t
  funext x
  have h : ((cfg0.win 7).blk t).view.emb x = x := by
    funext a; apply Fin.ext
    match a with
    | ⟨0, _⟩ => show win0_7.index t (0 : Fin 4) * 9 + 1 * (x 0).val = (x 0).val; omega
    | ⟨1, _⟩ => show win0_7.index t (1 : Fin 4) * 12 + 1 * (x 1).val = (x 1).val; omega
    | ⟨2, _⟩ => show win0_7.index t (2 : Fin 4) * 1 + 1 * (x 2).val = (x 2).val; omega
    | ⟨3, _⟩ => show win0_7.index t (3 : Fin 4) * 1 + 1 * (x 3).val = (x 3).val; omega
  unfold iblk
  rw [View.read_apply, cast_eq, h]

/-! ### What a point writes back, and the array after the last write-back -/

/-- The eight window arrays as the region finds them, in the output function. -/
abbrev outV (c : Dev nD) : FVec Ideal S4x12x256x256 .f32 :=
  outArr (V m c main_v3) (V m c main_v4) (V m c main_v8) (V m c main_v5) (V m c main_v10) (V m c main_v6) (V m c main_v12) (V m c main_cst)

/-- What point t writes back is block t of the output function of the window arrays. -/
theorem flushed_out (c : Dev nD) (t : Fin cfg0.N) :
    (dats (F := Ideal) m 0 c).flushed 8 t = ((cfg0.win 8).blk t).view.read (Elt Ideal) (outV m c) := by
  show (cfg0.win 8).cut (grid0.coords t) ((dats m 0 c).after 8 t) = _
  rw [after0_8]
  funext j
  rw [View.read_apply, cast_eq]
  obtain ⟨f0, f1, f2, f3⟩ := idx_out t
  have hj0 : (j 0).val < 1 := (j 0).isLt
  have h4 : cfg0.N = 4 := N_0
  refine body_at (iblk m c 0 t) (iblk m c 1 t) (iblk m c 2 t) (iblk m c 3 t) (iblk m c 4 t) (iblk m c 5 t) (iblk m c 6 t) (iblk m c 7 t)
    (V m c main_v3) (V m c main_v4) (V m c main_v8) (V m c main_v5) (V m c main_v10) (V m c main_v6) (V m c main_v12) (V m c main_cst)
    ((cfg0.win 8).xinj (grid0.coords t) j) (((cfg0.win 8).blk t).view.emb j) ⟨t.val, h4 ▸ t.isLt⟩
    (fun dd gh gw => blk_img m c t (ix4 (0 : Fin 1) dd gh gw) (ix4 ⟨t.val, h4 ▸ t.isLt⟩ dd gh gw) rfl rfl rfl rfl)
    (blk_w1 m c t) (blk_w2 m c t) (blk_w3 m c t) (blk_w4 m c t) (blk_w5 m c t) (blk_w6 m c t) (blk_w7 m c t) ?_ ?_ ?_ ?_
  · show win0_8.index t (0 : Fin 4) * 1 + 1 * (j 0).val = t.val; omega
  · show win0_8.index t (1 : Fin 4) * 12 + 1 * (j 1).val = (j 1).val; omega
  · show win0_8.index t (2 : Fin 4) * 256 + 1 * (j 2).val = (j 2).val; omega
  · show win0_8.index t (3 : Fin 4) * 256 + 1 * (j 3).val = (j 3).val; omega

/-- An index of the output array is in point t's block iff each coordinate is in the block's range on its axis. -/
theorem mem_blk_out (t : Fin cfg0.N) (i : S4x12x256x256.Idx) :
    i ∈ ((cfg0.win 8).blk t).view.set ↔ ∀ a : Fin 4, win0_8.index t a * S1x12x256x256.size a ≤ (i a).val
      ∧ (i a).val < win0_8.index t a * S1x12x256x256.size a + S1x12x256x256.size a := by
  show i ∈ ((View.whole main_v13).slice (win0_8.rect t)).set ↔ _
  rw [View.set_slice_whole, Rect.mem_set_unit]
  exact Iff.rfl

/-- The four blocks tile the output array: the point covering image b is b. -/
theorem cover_out (i : S4x12x256x256.Idx) : ∃ t : Fin cfg0.N, (cfg0.win 8).flush t = true ∧ i ∈ ((cfg0.win 8).blk t).view.set := by
  have h4 : cfg0.N = 4 := N_0
  have hi0 : (i 0).val < 4 := (i 0).isLt
  have hi1 : (i 1).val < 12 := (i 1).isLt
  have hi2 : (i 2).val < 256 := (i 2).isLt
  have hi3 : (i 3).val < 256 := (i 3).isLt
  obtain ⟨t, ht⟩ : ∃ t : Fin cfg0.N, t.val = (i 0).val := ⟨⟨(i 0).val, by omega⟩, rfl⟩
  obtain ⟨f0, f1, f2, f3⟩ := idx_out t
  refine ⟨t, flush0_8 t, ?_⟩
  rw [mem_blk_out]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 12 ≤ (i 1).val ∧ (i 1).val < win0_8.index t (1 : Fin 4) * 12 + 12; omega
  | ⟨2, _⟩ => show win0_8.index t (2 : Fin 4) * 256 ≤ (i 2).val ∧ (i 2).val < win0_8.index t (2 : Fin 4) * 256 + 256; omega
  | ⟨3, _⟩ => show win0_8.index t (3 : Fin 4) * 256 ≤ (i 3).val ∧ (i 3).val < win0_8.index t (3 : Fin 4) * 256 + 256; omega

/-- The output function of the staged arrays is the output function of the arguments. -/
theorem outArr_stages (x : FVec Ideal S4x3x512x512 .f32) (W : FVec Ideal S36x12 .f32) (B : FVec Ideal S36 .f32) :
    outArr (Xfold x) (Wq W) (bq B) (Wk W) (bk B) (Wv W) (bv B) (btab (F := Ideal)) = OutFold x W B := rfl

end Value

open Value

/-- The output window's array after the last write-back. -/
theorem final8 (c : Dev nD) :
    (dats (F := Ideal) m 0 c).arrAt 8 cfg0.N = OutFold (m ((c.tc : Thread nD τ).loc main_arg0)) (m ((c.tc : Thread nD τ).loc main_arg1)) (m ((c.tc : Thread nD τ).loc main_arg2)) := by
  refine ((dats m 0 c).arrAt_eq_of_cover 8 (outV m c) (fun t _ => flushed_out m c t) cover_out).trans ?_
  show outArr (V m c main_v3) (V m c main_v4) (V m c main_v8) (V m c main_v5) (V m c main_v10) (V m c main_v6) (V m c main_v12) (V m c main_cst) = _
  rw [V_v3, V_v4, V_v5, V_v6, V_v8, V_v10, V_v12, V_cst]
  exact outArr_stages _ _ _

namespace Value

/-- The result buffer after the host lines that follow the region: the region's output array unfolded (the folded channel
    split back and moved beside the patch coordinates, then the last reshape) and added to the image. The image is no
    window's array, so those lines find it as launched; the output window's array they find as the last write-back left it. -/
theorem tail_result (c : Dev nD) : Pipeline.afterTail₀ cfgs (dats (F := Ideal) m) 0 (V0 m) [hostOps1] c main_v17
    = addf (m ((c.tc : Thread nD τ).loc main_arg0)) (shapeCast S4x3x512x512 (Ttail (OutFold (m ((c.tc : Thread nD τ).loc main_arg0)) (m ((c.tc : Thread nD τ).loc main_arg1)) (m ((c.tc : Thread nD τ).loc main_arg2)))) shapeCasts_S4x3x256x2x256x2_S4x3x512x512) := by
  unfold Pipeline.afterTail₀
  show StableHlo.after hostOps1 _ (Proc.devRef .tc main_v17) = _
  simp only [hostOps1]
  after_results
  have hx : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans (V_main_arg0 m c)
  have hy : Pipeline.withArrays (cfgs 0).spec c (V0 m c) (fun w => (dats m 0 c).arrAt w (cfgs 0).N) (Proc.devRef .tc main_v13)
      = OutFold (m ((c.tc : Thread nD τ).loc main_arg0)) (m ((c.tc : Thread nD τ).loc main_arg1)) (m ((c.tc : Thread nD τ).loc main_arg2)) :=
    (Pipeline.withArrays_arr spec0 launch0.win.arr_inj c _ _ 8).trans (final8 m c)
  rw [hx, hy]
  rfl

end Value

/-- Every weakly fair execution of the idealized kernel program ends with its result at the unfolded output plus the image, the arguments unchanged. -/
theorem run : θ_run (defs (F := Ideal)) (onTc (τ := τ) (main (F := Ideal))) ⟨m, fun _ => 0, ρ⟩ fun r => ∀ c : Dev nD,
      r.2.mem ((c.tc : Thread nD τ).loc main_v17)
        = addf (m ((c.tc : Thread nD τ).loc main_arg0)) (shapeCast S4x3x512x512 (Ttail (OutFold (m ((c.tc : Thread nD τ).loc main_arg0)) (m ((c.tc : Thread nD τ).loc main_arg1)) (m ((c.tc : Thread nD τ).loc main_arg2)))) shapeCasts_S4x3x256x2x256x2_S4x3x512x512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v17 (Pipeline.mem_restRefs_of main_v17 (by decide) (by decide))).trans (tail_result m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.Ker

end
-- ==== Proof.RefStages.lean ====
/-
  The reference program's host stages as functions of the three argument arrays, cut where the mathematics cuts them:
  the nine shifted views of the patch grid stacked and flattened, the one contraction with the whole weight matrix plus
  the bias (q, k and v of all nine positions at once), and everything after it up to the last reshape.
-/
import proofs.«181481_j52390011076755_1_alg».proof.Proof.Gen.ReferenceIdeal
import proofs.«181481_j52390011076755_1_alg».proof.Proof.Spec
import Idealize.ShloMosaic.Lib.ValueIdx

noncomputable section

namespace Cert.Ref

open Idealize.ShloMosaic Idealize.ShloMosaic.ValueIdx Cert.ReferenceIdeal Cert.ReferenceIdeal.Gen Cert.Attn

variable {F : FTy → Type} [FloatOps F]

/-- The image padded by two on each side of its two spatial axes and split into 2×2 patches. -/
def Rr (x : FVec F S4x3x512x512 .f32) : FVec F S4x3x258x2x258x2 .f32 :=
  shapeCast S4x3x258x2x258x2
    (pad S4x3x516x516 ![0, 0, 2, 2] ![0, 0, 2, 2] ![0, 0, 0, 0] x (sitofp .f32 (constantI S_ 32 0#32))
      pads_S4x3x512x512_S4x3x516x516_000_000_220_220 h_S_)
    shapeCasts_S4x3x516x516_S4x3x258x2x258x2

/-- The patch grid first: [batch, patch row, patch column, colour, row in patch, column in patch]. -/
def P (x : FVec F S4x3x512x512 .f32) : FVec F S4x258x258x3x2x2 .f32 :=
  transpose S4x258x258x3x2x2 [0, 2, 4, 1, 3, 5] (Rr x) transposes_S4x3x258x2x258x2_S4x258x258x3x2x2_0_2_4_1_3_5

/-- One shifted 256×256 view of the patch grid, with a unit axis for the stack. -/
def nbr (x : FVec F S4x3x512x512 .f32) (o : Fin 6 → Nat) (h : S4x258x258x3x2x2.Slices o S4x256x256x3x2x2) : FVec F S4x256x256x1x3x2x2 .f32 :=
  broadcastInDim S4x256x256x1x3x2x2 ![0, 1, 2, 4, 5, 6] bcast_S4x256x256x3x2x2_S4x256x256x1x3x2x2_0_1_2_4_5_6
    (extractStridedSlice S4x256x256x3x2x2 o (P x) h)

/-- The nine views stacked along a new axis, position p = 3·di + dj. -/
def nbrs (x : FVec F S4x3x512x512 .f32) : FVec F S4x256x256x9x3x2x2 .f32 :=
  concatenate S4x256x256x9x3x2x2 3
    [ ⟨S4x256x256x1x3x2x2, nbr x ![0, 0, 0, 0, 0, 0] slices_S4x258x258x3x2x2_S4x256x256x3x2x2_0_0_0_0_0_0⟩,
      ⟨S4x256x256x1x3x2x2, nbr x ![0, 0, 1, 0, 0, 0] slices_S4x258x258x3x2x2_S4x256x256x3x2x2_0_0_1_0_0_0⟩,
      ⟨S4x256x256x1x3x2x2, nbr x ![0, 0, 2, 0, 0, 0] slices_S4x258x258x3x2x2_S4x256x256x3x2x2_0_0_2_0_0_0⟩,
      ⟨S4x256x256x1x3x2x2, nbr x ![0, 1, 0, 0, 0, 0] slices_S4x258x258x3x2x2_S4x256x256x3x2x2_0_1_0_0_0_0⟩,
      ⟨S4x256x256x1x3x2x2, nbr x ![0, 1, 1, 0, 0, 0] slices_S4x258x258x3x2x2_S4x256x256x3x2x2_0_1_1_0_0_0⟩,
      ⟨S4x256x256x1x3x2x2, nbr x ![0, 1, 2, 0, 0, 0] slices_S4x258x258x3x2x2_S4x256x256x3x2x2_0_1_2_0_0_0⟩,
      ⟨S4x256x256x1x3x2x2, nbr x ![0, 2, 0, 0, 0, 0] slices_S4x258x258x3x2x2_S4x256x256x3x2x2_0_2_0_0_0_0⟩,
      ⟨S4x256x256x1x3x2x2, nbr x ![0, 2, 1, 0, 0, 0] slices_S4x258x258x3x2x2_S4x256x256x3x2x2_0_2_1_0_0_0⟩,
      ⟨S4x256x256x1x3x2x2, nbr x ![0, 2, 2, 0, 0, 0] slices_S4x258x258x3x2x2_S4x256x256x3x2x2_0_2_2_0_0_0⟩ ]
    concatenates_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x9x3x2x2_d3

/-- Each patch flattened to twelve numbers. -/
def x1 (x : FVec F S4x3x512x512 .f32) : FVec F S4x256x256x9x12 .f32 :=
  shapeCast S4x256x256x9x12 (nbrs x) shapeCasts_S4x256x256x9x3x2x2_S4x256x256x9x12

/-- q, k and v of every window position at once: the contraction with all 36 rows of the weight matrix, plus the bias. -/
def qkv (x : FVec F S4x3x512x512 .f32) (W : FVec F S36x12 .f32) (B : FVec F S36 .f32) : FVec F S4x256x256x9x36 .f32 :=
  addf (Host.dotGeneral dot_S4x256x256x9x12_S36x12_S4x256x256x9x36_4_1_0123_0_n_n none (x1 x) W)
    (broadcastInDim S4x256x256x9x36 ![0, 1, 2, 3, 4] bcast_S1x1x1x1x36_S4x256x256x9x36_0_1_2_3_4
      (broadcastInDim S1x1x1x1x36 ![4] bcast_S36_S1x1x1x1x36_4 B))

/-- One of the three thirds of the 36 outputs, as […, position, colour, row in patch, column in patch]. -/
def part (y : FVec F S4x256x256x9x36 .f32) (o : Fin 8 → Nat) (h : S4x256x256x9x3x3x2x2.Slices o S4x256x256x9x1x3x2x2) : FVec F S4x256x256x9x3x2x2 .f32 :=
  shapeCast S4x256x256x9x3x2x2
    (extractStridedSlice S4x256x256x9x1x3x2x2 o (shapeCast S4x256x256x9x3x3x2x2 y shapeCasts_S4x256x256x9x36_S4x256x256x9x3x3x2x2) h)
    shapeCasts_S4x256x256x9x1x3x2x2_S4x256x256x9x3x2x2

/-- The centre position's q, times the literal one. -/
def coreQ (y : FVec F S4x256x256x9x36 .f32) : FVec F S4x256x256x3x2x2 .f32 :=
  mulf
    (shapeCast S4x256x256x3x2x2
      (extractStridedSlice S4x256x256x1x3x2x2 ![0, 0, 0, 4, 0, 0, 0]
        (part y ![0, 0, 0, 0, 0, 0, 0, 0] slices_S4x256x256x9x3x3x2x2_S4x256x256x9x1x3x2x2_0_0_0_0_0_0_0_0)
        slices_S4x256x256x9x3x2x2_S4x256x256x1x3x2x2_0_0_0_4_0_0_0)
      shapeCasts_S4x256x256x1x3x2x2_S4x256x256x3x2x2)
    (broadcastInDim S4x256x256x3x2x2 ![] bcast_S_S4x256x256x3x2x2 (constant S_ .f32 0x3F800000#32))

/-- The position weights broadcast over images, patches and colours. -/
def biasR : FVec F S4x256x256x9x3x2x2 .f32 :=
  broadcastInDim S4x256x256x9x3x2x2 ![0, 1, 2, 3, 4, 5, 6] bcast_S1x1x1x9x1x2x2_S4x256x256x9x3x2x2_0_1_2_3_4_5_6
    (broadcastInDim S1x1x1x9x1x2x2 ![3, 4, 5, 6] bcast_S9x1x2x2_S1x1x1x9x1x2x2_3_4_5_6
      (broadcastInDim S9x1x2x2 ![0, 2, 3] bcast_S9x2x2_S9x1x2x2_0_2_3
        (fun i => FloatOps.ofBits .f32 (lit0 (S9x2x2.rowMajor i)))))

/-- Everything after the contraction, up to the last reshape: q·k·β·v summed over the nine positions, laid out
    [batch, colour, patch row, row in patch, patch column, column in patch]. -/
def Tof (y : FVec F S4x256x256x9x36 .f32) : FVec F S4x3x256x2x256x2 .f32 :=
  transpose S4x3x256x2x256x2 [0, 3, 1, 4, 2, 5]
    (Host.reduceAdd
      (mulf
        (mulf
          (mulf
            (broadcastInDim S4x256x256x9x3x2x2 ![0, 1, 2, 3, 4, 5, 6] bcast_S4x256x256x1x3x2x2_S4x256x256x9x3x2x2_0_1_2_3_4_5_6
              (broadcastInDim S4x256x256x1x3x2x2 ![0, 1, 2, 4, 5, 6] bcast_S4x256x256x3x2x2_S4x256x256x1x3x2x2_0_1_2_4_5_6 (coreQ y)))
            (part y ![0, 0, 0, 0, 1, 0, 0, 0] slices_S4x256x256x9x3x3x2x2_S4x256x256x9x1x3x2x2_0_0_0_0_1_0_0_0))
          biasR)
        (part y ![0, 0, 0, 0, 2, 0, 0, 0] slices_S4x256x256x9x3x3x2x2_S4x256x256x9x1x3x2x2_0_0_0_0_2_0_0_0))
      (constant S_ .f32 0x00000000#32) reducesTo_S4x256x256x9x3x2x2_S4x256x256x3x2x2_d3 h_S_)
    transposes_S4x256x256x3x2x2_S4x3x256x2x256x2_0_3_1_4_2_5

/-- The reference's result just before the last reshape and the residual addition. -/
def T (x : FVec F S4x3x512x512 .f32) (W : FVec F S36x12 .f32) (B : FVec F S36 .f32) : FVec F S4x3x256x2x256x2 .f32 :=
  Tof (qkv x W B)

end Cert.Ref

end
-- ==== Proof.RefRun.lean ====
/-
  The reference program's run read back: its @main is a straight line of host operations (the padding function's two
  listed at its call), so every weakly fair execution ends with the result at the operations' composed term.
-/
import proofs.«181481_j52390011076755_1_alg».proof.Proof.Gen.ReferenceIdeal
import proofs.«181481_j52390011076755_1_alg».proof.Proof.RefStages
import Idealize.ShloMosaic.Lib.StableHlo.Run

set_option Elab.async false

noncomputable section

namespace Cert.Ref

open Idealize.ShloMosaic Idealize.ShloMosaic.ValueIdx Idealize.ShloMosaic.TcCoe Idealize.SL.Sem Cert.ReferenceIdeal Cert.ReferenceIdeal.Gen Idealize.ShloMosaic.StableHlo Cert.Attn

variable {F : FTy → Type} [FloatOps F]

namespace Run

/-! ### The operations -/

/-- The reference's operations in order, the padding function's two listed where it is called. -/
abbrev ops : List (HloOp τ sig (Elt F)) :=
  [ StableHlo.nullary main_cst (fun i => FloatOps.ofBits .f32 (lit0 (S9x2x2.rowMajor i))),
    StableHlo.nullary main_c (constantI S_ 32 0#32),
    TRef.unary (.of main_c : TRef sig ⟨S_, .i32⟩) main_call0.v0 (sitofp .f32),
    TRef.binary (.of main_arg0 : TRef sig ⟨S4x3x512x512, .f32⟩) main_call0.v0 main_call0.v1 (fun x v => pad S4x3x516x516 ![0, 0, 2, 2] ![0, 0, 2, 2] ![0, 0, 0, 0] x v pads_S4x3x512x512_S4x3x516x516_000_000_220_220 h_S_),
    StableHlo.reshape main_v0 main_v1 rfl shapeCasts_S4x3x516x516_S4x3x258x2x258x2,
    StableHlo.unary main_v1 main_v2 ((transpose S4x258x258x3x2x2 [0, 2, 4, 1, 3, 5] · transposes_S4x3x258x2x258x2_S4x258x258x3x2x2_0_2_4_1_3_5) : (⟨S4x3x258x2x258x2, .f32⟩ : BufTy).Contents (Elt F) → (⟨S4x258x258x3x2x2, .f32⟩ : BufTy).Contents (Elt F)),
    StableHlo.unary main_v2 main_v3 ((extractStridedSlice S4x256x256x3x2x2 ![0, 0, 0, 0, 0, 0] · slices_S4x258x258x3x2x2_S4x256x256x3x2x2_0_0_0_0_0_0) : (⟨S4x258x258x3x2x2, .f32⟩ : BufTy).Contents (Elt F) → (⟨S4x256x256x3x2x2, .f32⟩ : BufTy).Contents (Elt F)),
    StableHlo.unary main_v2 main_v4 ((extractStridedSlice S4x256x256x3x2x2 ![0, 0, 1, 0, 0, 0] · slices_S4x258x258x3x2x2_S4x256x256x3x2x2_0_0_1_0_0_0) : (⟨S4x258x258x3x2x2, .f32⟩ : BufTy).Contents (Elt F) → (⟨S4x256x256x3x2x2, .f32⟩ : BufTy).Contents (Elt F)),
    StableHlo.unary main_v2 main_v5 ((extractStridedSlice S4x256x256x3x2x2 ![0, 0, 2, 0, 0, 0] · slices_S4x258x258x3x2x2_S4x256x256x3x2x2_0_0_2_0_0_0) : (⟨S4x258x258x3x2x2, .f32⟩ : BufTy).Contents (Elt F) → (⟨S4x256x256x3x2x2, .f32⟩ : BufTy).Contents (Elt F)),
    StableHlo.unary main_v2 main_v6 ((extractStridedSlice S4x256x256x3x2x2 ![0, 1, 0, 0, 0, 0] · slices_S4x258x258x3x2x2_S4x256x256x3x2x2_0_1_0_0_0_0) : (⟨S4x258x258x3x2x2, .f32⟩ : BufTy).Contents (Elt F) → (⟨S4x256x256x3x2x2, .f32⟩ : BufTy).Contents (Elt F)),
    StableHlo.unary main_v2 main_v7 ((extractStridedSlice S4x256x256x3x2x2 ![0, 1, 1, 0, 0, 0] · slices_S4x258x258x3x2x2_S4x256x256x3x2x2_0_1_1_0_0_0) : (⟨S4x258x258x3x2x2, .f32⟩ : BufTy).Contents (Elt F) → (⟨S4x256x256x3x2x2, .f32⟩ : BufTy).Contents (Elt F)),
    StableHlo.unary main_v2 main_v8 ((extractStridedSlice S4x256x256x3x2x2 ![0, 1, 2, 0, 0, 0] · slices_S4x258x258x3x2x2_S4x256x256x3x2x2_0_1_2_0_0_0) : (⟨S4x258x258x3x2x2, .f32⟩ : BufTy).Contents (Elt F) → (⟨S4x256x256x3x2x2, .f32⟩ : BufTy).Contents (Elt F)),
    StableHlo.unary main_v2 main_v9 ((extractStridedSlice S4x256x256x3x2x2 ![0, 2, 0, 0, 0, 0] · slices_S4x258x258x3x2x2_S4x256x256x3x2x2_0_2_0_0_0_0) : (⟨S4x258x258x3x2x2, .f32⟩ : BufTy).Contents (Elt F) → (⟨S4x256x256x3x2x2, .f32⟩ : BufTy).Contents (Elt F)),
    StableHlo.unary main_v2 main_v10 ((extractStridedSlice S4x256x256x3x2x2 ![0, 2, 1, 0, 0, 0] · slices_S4x258x258x3x2x2_S4x256x256x3x2x2_0_2_1_0_0_0) : (⟨S4x258x258x3x2x2, .f32⟩ : BufTy).Contents (Elt F) → (⟨S4x256x256x3x2x2, .f32⟩ : BufTy).Contents (Elt F)),
    StableHlo.unary main_v2 main_v11 ((extractStridedSlice S4x256x256x3x2x2 ![0, 2, 2, 0, 0, 0] · slices_S4x258x258x3x2x2_S4x256x256x3x2x2_0_2_2_0_0_0) : (⟨S4x258x258x3x2x2, .f32⟩ : BufTy).Contents (Elt F) → (⟨S4x256x256x3x2x2, .f32⟩ : BufTy).Contents (Elt F)),
    StableHlo.unary main_v3 main_v12 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v4 main_v13 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v5 main_v14 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v6 main_v15 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v7 main_v16 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v8 main_v17 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v9 main_v18 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v10 main_v19 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v11 main_v20 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.nary ![main_v12, main_v13, main_v14, main_v15, main_v16, main_v17, main_v18, main_v19, main_v20] main_v21 (fun u => concatenate S4x256x256x9x3x2x2 3 [⟨S4x256x256x1x3x2x2, u 0⟩, ⟨S4x256x256x1x3x2x2, u 1⟩, ⟨S4x256x256x1x3x2x2, u 2⟩, ⟨S4x256x256x1x3x2x2, u 3⟩, ⟨S4x256x256x1x3x2x2, u 4⟩, ⟨S4x256x256x1x3x2x2, u 5⟩, ⟨S4x256x256x1x3x2x2, u 6⟩, ⟨S4x256x256x1x3x2x2, u 7⟩, ⟨S4x256x256x1x3x2x2, u 8⟩] concatenates_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x9x3x2x2_d3),
    StableHlo.reshape main_v21 main_v22 rfl shapeCasts_S4x256x256x9x3x2x2_S4x256x256x9x12,
    StableHlo.binary main_v22 main_arg1 main_v23 ((fun l r => Host.dotGeneral dot_S4x256x256x9x12_S36x12_S4x256x256x9x36_4_1_0123_0_n_n none l r) : (⟨S4x256x256x9x12, .f32⟩ : BufTy).Contents (Elt F) → (⟨S36x12, .f32⟩ : BufTy).Contents (Elt F) → (⟨S4x256x256x9x36, .f32⟩ : BufTy).Contents (Elt F)),
    StableHlo.unary main_arg2 main_v24 (broadcastInDim S1x1x1x1x36 ![4] bcast_S36_S1x1x1x1x36_4 : (⟨S36, .f32⟩ : BufTy).Contents (Elt F) → (⟨S1x1x1x1x36, .f32⟩ : BufTy).Contents (Elt F)),
    StableHlo.unary main_v24 main_v25 (broadcastInDim S4x256x256x9x36 ![0, 1, 2, 3, 4] bcast_S1x1x1x1x36_S4x256x256x9x36_0_1_2_3_4 : (⟨S1x1x1x1x36, .f32⟩ : BufTy).Contents (Elt F) → (⟨S4x256x256x9x36, .f32⟩ : BufTy).Contents (Elt F)),
    StableHlo.binary main_v23 main_v25 main_v26 (addf : (⟨S4x256x256x9x36, .f32⟩ : BufTy).Contents (Elt F) → (⟨S4x256x256x9x36, .f32⟩ : BufTy).Contents (Elt F) → (⟨S4x256x256x9x36, .f32⟩ : BufTy).Contents (Elt F)),
    StableHlo.reshape main_v26 main_v27 rfl shapeCasts_S4x256x256x9x36_S4x256x256x9x3x3x2x2,
    StableHlo.unary main_v27 main_v28 ((extractStridedSlice S4x256x256x9x1x3x2x2 ![0, 0, 0, 0, 0, 0, 0, 0] · slices_S4x256x256x9x3x3x2x2_S4x256x256x9x1x3x2x2_0_0_0_0_0_0_0_0) : (⟨S4x256x256x9x3x3x2x2, .f32⟩ : BufTy).Contents (Elt F) → (⟨S4x256x256x9x1x3x2x2, .f32⟩ : BufTy).Contents (Elt F)),
    StableHlo.reshape main_v28 main_v29 rfl shapeCasts_S4x256x256x9x1x3x2x2_S4x256x256x9x3x2x2,
    StableHlo.unary main_v27 main_v30 ((extractStridedSlice S4x256x256x9x1x3x2x2 ![0, 0, 0, 0, 1, 0, 0, 0] · slices_S4x256x256x9x3x3x2x2_S4x256x256x9x1x3x2x2_0_0_0_0_1_0_0_0) : (⟨S4x256x256x9x3x3x2x2, .f32⟩ : BufTy).Contents (Elt F) → (⟨S4x256x256x9x1x3x2x2, .f32⟩ : BufTy).Contents (Elt F)),
    StableHlo.reshape main_v30 main_v31 rfl shapeCasts_S4x256x256x9x1x3x2x2_S4x256x256x9x3x2x2,
    StableHlo.unary main_v27 main_v32 ((extractStridedSlice S4x256x256x9x1x3x2x2 ![0, 0, 0, 0, 2, 0, 0, 0] · slices_S4x256x256x9x3x3x2x2_S4x256x256x9x1x3x2x2_0_0_0_0_2_0_0_0) : (⟨S4x256x256x9x3x3x2x2, .f32⟩ : BufTy).Contents (Elt F) → (⟨S4x256x256x9x1x3x2x2, .f32⟩ : BufTy).Contents (Elt F)),
    StableHlo.reshape main_v32 main_v33 rfl shapeCasts_S4x256x256x9x1x3x2x2_S4x256x256x9x3x2x2,
    StableHlo.unary main_v29 main_v34 ((extractStridedSlice S4x256x256x1x3x2x2 ![0, 0, 0, 4, 0, 0, 0] · slices_S4x256x256x9x3x2x2_S4x256x256x1x3x2x2_0_0_0_4_0_0_0) : (⟨S4x256x256x9x3x2x2, .f32⟩ : BufTy).Contents (Elt F) → (⟨S4x256x256x1x3x2x2, .f32⟩ : BufTy).Contents (Elt F)),
    StableHlo.reshape main_v34 main_v35 rfl shapeCasts_S4x256x256x1x3x2x2_S4x256x256x3x2x2,
    StableHlo.nullary main_cst_0 (constant S_ .f32 0x3F800000#32),
    StableHlo.unary main_cst_0 main_v36 (broadcastInDim S4x256x256x3x2x2 ![] bcast_S_S4x256x256x3x2x2 : (⟨S_, .f32⟩ : BufTy).Contents (Elt F) → (⟨S4x256x256x3x2x2, .f32⟩ : BufTy).Contents (Elt F)),
    StableHlo.binary main_v35 main_v36 main_v37 (mulf : (⟨S4x256x256x3x2x2, .f32⟩ : BufTy).Contents (Elt F) → (⟨S4x256x256x3x2x2, .f32⟩ : BufTy).Contents (Elt F) → (⟨S4x256x256x3x2x2, .f32⟩ : BufTy).Contents (Elt F)),
    StableHlo.unary main_v37 main_v38 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v38 main_v39 (broadcastInDim S4x256x256x9x3x2x2 ![0, 1, 2, 3, 4, 5, 6] bcast_S4x256x256x1x3x2x2_S4x256x256x9x3x2x2_0_1_2_3_4_5_6 : (⟨S4x256x256x1x3x2x2, .f32⟩ : BufTy).Contents (Elt F) → (⟨S4x256x256x9x3x2x2, .f32⟩ : BufTy).Contents (Elt F)),
    StableHlo.binary main_v39 main_v31 main_v40 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.unary main_cst main_v41 (broadcastInDim S9x1x2x2 ![0, 2, 3] bcast_S9x2x2_S9x1x2x2_0_2_3 : (⟨S9x2x2, .f32⟩ : BufTy).Contents (Elt F) → (⟨S9x1x2x2, .f32⟩ : BufTy).Contents (Elt F)),
    StableHlo.unary main_v41 main_v42 (broadcastInDim S1x1x1x9x1x2x2 ![3, 4, 5, 6] bcast_S9x1x2x2_S1x1x1x9x1x2x2_3_4_5_6 : (⟨S9x1x2x2, .f32⟩ : BufTy).Contents (Elt F) → (⟨S1x1x1x9x1x2x2, .f32⟩ : BufTy).Contents (Elt F)),
    StableHlo.unary main_v42 main_v43 (broadcastInDim S4x256x256x9x3x2x2 ![0, 1, 2, 3, 4, 5, 6] bcast_S1x1x1x9x1x2x2_S4x256x256x9x3x2x2_0_1_2_3_4_5_6 : (⟨S1x1x1x9x1x2x2, .f32⟩ : BufTy).Contents (Elt F) → (⟨S4x256x256x9x3x2x2, .f32⟩ : BufTy).Contents (Elt F)),
    StableHlo.binary main_v40 main_v43 main_v44 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.binary main_v44 main_v33 main_v45 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.nullary main_cst_1 (constant S_ .f32 0x00000000#32),
    StableHlo.binary main_v45 main_cst_1 main_v46 ((fun x v => Host.reduceAdd x v reducesTo_S4x256x256x9x3x2x2_S4x256x256x3x2x2_d3 h_S_) : (⟨S4x256x256x9x3x2x2, .f32⟩ : BufTy).Contents (Elt F) → (⟨S_, .f32⟩ : BufTy).Contents (Elt F) → (⟨S4x256x256x3x2x2, .f32⟩ : BufTy).Contents (Elt F)),
    StableHlo.unary main_v46 main_v47 ((transpose S4x3x256x2x256x2 [0, 3, 1, 4, 2, 5] · transposes_S4x256x256x3x2x2_S4x3x256x2x256x2_0_3_1_4_2_5) : (⟨S4x256x256x3x2x2, .f32⟩ : BufTy).Contents (Elt F) → (⟨S4x3x256x2x256x2, .f32⟩ : BufTy).Contents (Elt F)),
    StableHlo.reshape main_v47 main_v48 rfl shapeCasts_S4x3x256x2x256x2_S4x3x512x512,
    StableHlo.binary main_arg0 main_v48 main_v49 (addf : (⟨S4x3x512x512, .f32⟩ : BufTy).Contents (Elt F) → (⟨S4x3x512x512, .f32⟩ : BufTy).Contents (Elt F) → (⟨S4x3x512x512, .f32⟩ : BufTy).Contents (Elt F)) ]

/-- The first stretch: the constants, the padding (its two operations at the buffers themselves), the patch grid and its nine shifted views, each with its unit axis. -/
abbrev opsA1 : List (HloOp τ sig (Elt F)) :=
  [ StableHlo.nullary main_cst (fun i => FloatOps.ofBits .f32 (lit0 (S9x2x2.rowMajor i))),
    StableHlo.nullary main_c (constantI S_ 32 0#32),
    StableHlo.unary main_c main_call0_v0 (sitofp .f32 : (⟨S_, .i32⟩ : BufTy).Contents (Elt F) → (⟨S_, .f32⟩ : BufTy).Contents (Elt F)),
    StableHlo.binary main_arg0 main_call0_v0 main_v0 ((fun x v => pad S4x3x516x516 ![0, 0, 2, 2] ![0, 0, 2, 2] ![0, 0, 0, 0] x v pads_S4x3x512x512_S4x3x516x516_000_000_220_220 h_S_) : (⟨S4x3x512x512, .f32⟩ : BufTy).Contents (Elt F) → (⟨S_, .f32⟩ : BufTy).Contents (Elt F) → (⟨S4x3x516x516, .f32⟩ : BufTy).Contents (Elt F)),
    StableHlo.reshape main_v0 main_v1 rfl shapeCasts_S4x3x516x516_S4x3x258x2x258x2,
    StableHlo.unary main_v1 main_v2 ((transpose S4x258x258x3x2x2 [0, 2, 4, 1, 3, 5] · transposes_S4x3x258x2x258x2_S4x258x258x3x2x2_0_2_4_1_3_5) : (⟨S4x3x258x2x258x2, .f32⟩ : BufTy).Contents (Elt F) → (⟨S4x258x258x3x2x2, .f32⟩ : BufTy).Contents (Elt F)),
    StableHlo.unary main_v2 main_v3 ((extractStridedSlice S4x256x256x3x2x2 ![0, 0, 0, 0, 0, 0] · slices_S4x258x258x3x2x2_S4x256x256x3x2x2_0_0_0_0_0_0) : (⟨S4x258x258x3x2x2, .f32⟩ : BufTy).Contents (Elt F) → (⟨S4x256x256x3x2x2, .f32⟩ : BufTy).Contents (Elt F)),
    StableHlo.unary main_v2 main_v4 ((extractStridedSlice S4x256x256x3x2x2 ![0, 0, 1, 0, 0, 0] · slices_S4x258x258x3x2x2_S4x256x256x3x2x2_0_0_1_0_0_0) : (⟨S4x258x258x3x2x2, .f32⟩ : BufTy).Contents (Elt F) → (⟨S4x256x256x3x2x2, .f32⟩ : BufTy).Contents (Elt F)),
    StableHlo.unary main_v2 main_v5 ((extractStridedSlice S4x256x256x3x2x2 ![0, 0, 2, 0, 0, 0] · slices_S4x258x258x3x2x2_S4x256x256x3x2x2_0_0_2_0_0_0) : (⟨S4x258x258x3x2x2, .f32⟩ : BufTy).Contents (Elt F) → (⟨S4x256x256x3x2x2, .f32⟩ : BufTy).Contents (Elt F)),
    StableHlo.unary main_v2 main_v6 ((extractStridedSlice S4x256x256x3x2x2 ![0, 1, 0, 0, 0, 0] · slices_S4x258x258x3x2x2_S4x256x256x3x2x2_0_1_0_0_0_0) : (⟨S4x258x258x3x2x2, .f32⟩ : BufTy).Contents (Elt F) → (⟨S4x256x256x3x2x2, .f32⟩ : BufTy).Contents (Elt F)),
    StableHlo.unary main_v2 main_v7 ((extractStridedSlice S4x256x256x3x2x2 ![0, 1, 1, 0, 0, 0] · slices_S4x258x258x3x2x2_S4x256x256x3x2x2_0_1_1_0_0_0) : (⟨S4x258x258x3x2x2, .f32⟩ : BufTy).Contents (Elt F) → (⟨S4x256x256x3x2x2, .f32⟩ : BufTy).Contents (Elt F)),
    StableHlo.unary main_v2 main_v8 ((extractStridedSlice S4x256x256x3x2x2 ![0, 1, 2, 0, 0, 0] · slices_S4x258x258x3x2x2_S4x256x256x3x2x2_0_1_2_0_0_0) : (⟨S4x258x258x3x2x2, .f32⟩ : BufTy).Contents (Elt F) → (⟨S4x256x256x3x2x2, .f32⟩ : BufTy).Contents (Elt F)),
    StableHlo.unary main_v2 main_v9 ((extractStridedSlice S4x256x256x3x2x2 ![0, 2, 0, 0, 0, 0] · slices_S4x258x258x3x2x2_S4x256x256x3x2x2_0_2_0_0_0_0) : (⟨S4x258x258x3x2x2, .f32⟩ : BufTy).Contents (Elt F) → (⟨S4x256x256x3x2x2, .f32⟩ : BufTy).Contents (Elt F)),
    StableHlo.unary main_v2 main_v10 ((extractStridedSlice S4x256x256x3x2x2 ![0, 2, 1, 0, 0, 0] · slices_S4x258x258x3x2x2_S4x256x256x3x2x2_0_2_1_0_0_0) : (⟨S4x258x258x3x2x2, .f32⟩ : BufTy).Contents (Elt F) → (⟨S4x256x256x3x2x2, .f32⟩ : BufTy).Contents (Elt F)),
    StableHlo.unary main_v2 main_v11 ((extractStridedSlice S4x256x256x3x2x2 ![0, 2, 2, 0, 0, 0] · slices_S4x258x258x3x2x2_S4x256x256x3x2x2_0_2_2_0_0_0) : (⟨S4x258x258x3x2x2, .f32⟩ : BufTy).Contents (Elt F) → (⟨S4x256x256x3x2x2, .f32⟩ : BufTy).Contents (Elt F)),
    StableHlo.unary main_v3 main_v12 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v4 main_v13 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v5 main_v14 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v6 main_v15 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v7 main_v16 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v8 main_v17 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v9 main_v18 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v10 main_v19 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v11 main_v20 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)) ]

/-- The second stretch: the views stacked and flattened, the contraction with the weight matrix, the bias added. -/
abbrev opsA2 : List (HloOp τ sig (Elt F)) :=
  [ StableHlo.nary ![main_v12, main_v13, main_v14, main_v15, main_v16, main_v17, main_v18, main_v19, main_v20] main_v21 (fun u => concatenate S4x256x256x9x3x2x2 3 [⟨S4x256x256x1x3x2x2, u 0⟩, ⟨S4x256x256x1x3x2x2, u 1⟩, ⟨S4x256x256x1x3x2x2, u 2⟩, ⟨S4x256x256x1x3x2x2, u 3⟩, ⟨S4x256x256x1x3x2x2, u 4⟩, ⟨S4x256x256x1x3x2x2, u 5⟩, ⟨S4x256x256x1x3x2x2, u 6⟩, ⟨S4x256x256x1x3x2x2, u 7⟩, ⟨S4x256x256x1x3x2x2, u 8⟩] concatenates_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x1x3x2x2_S4x256x256x9x3x2x2_d3),
    StableHlo.reshape main_v21 main_v22 rfl shapeCasts_S4x256x256x9x3x2x2_S4x256x256x9x12,
    StableHlo.binary main_v22 main_arg1 main_v23 ((fun l r => Host.dotGeneral dot_S4x256x256x9x12_S36x12_S4x256x256x9x36_4_1_0123_0_n_n none l r) : (⟨S4x256x256x9x12, .f32⟩ : BufTy).Contents (Elt F) → (⟨S36x12, .f32⟩ : BufTy).Contents (Elt F) → (⟨S4x256x256x9x36, .f32⟩ : BufTy).Contents (Elt F)),
    StableHlo.unary main_arg2 main_v24 (broadcastInDim S1x1x1x1x36 ![4] bcast_S36_S1x1x1x1x36_4 : (⟨S36, .f32⟩ : BufTy).Contents (Elt F) → (⟨S1x1x1x1x36, .f32⟩ : BufTy).Contents (Elt F)),
    StableHlo.unary main_v24 main_v25 (broadcastInDim S4x256x256x9x36 ![0, 1, 2, 3, 4] bcast_S1x1x1x1x36_S4x256x256x9x36_0_1_2_3_4 : (⟨S1x1x1x1x36, .f32⟩ : BufTy).Contents (Elt F) → (⟨S4x256x256x9x36, .f32⟩ : BufTy).Contents (Elt F)),
    StableHlo.binary main_v23 main_v25 main_v26 (addf : (⟨S4x256x256x9x36, .f32⟩ : BufTy).Contents (Elt F) → (⟨S4x256x256x9x36, .f32⟩ : BufTy).Contents (Elt F) → (⟨S4x256x256x9x36, .f32⟩ : BufTy).Contents (Elt F)) ]

/-- The last stretch: everything after the contraction, up to the residual addition. -/
abbrev opsB : List (HloOp τ sig (Elt F)) :=
  [ StableHlo.reshape main_v26 main_v27 rfl shapeCasts_S4x256x256x9x36_S4x256x256x9x3x3x2x2,
    StableHlo.unary main_v27 main_v28 ((extractStridedSlice S4x256x256x9x1x3x2x2 ![0, 0, 0, 0, 0, 0, 0, 0] · slices_S4x256x256x9x3x3x2x2_S4x256x256x9x1x3x2x2_0_0_0_0_0_0_0_0) : (⟨S4x256x256x9x3x3x2x2, .f32⟩ : BufTy).Contents (Elt F) → (⟨S4x256x256x9x1x3x2x2, .f32⟩ : BufTy).Contents (Elt F)),
    StableHlo.reshape main_v28 main_v29 rfl shapeCasts_S4x256x256x9x1x3x2x2_S4x256x256x9x3x2x2,
    StableHlo.unary main_v27 main_v30 ((extractStridedSlice S4x256x256x9x1x3x2x2 ![0, 0, 0, 0, 1, 0, 0, 0] · slices_S4x256x256x9x3x3x2x2_S4x256x256x9x1x3x2x2_0_0_0_0_1_0_0_0) : (⟨S4x256x256x9x3x3x2x2, .f32⟩ : BufTy).Contents (Elt F) → (⟨S4x256x256x9x1x3x2x2, .f32⟩ : BufTy).Contents (Elt F)),
    StableHlo.reshape main_v30 main_v31 rfl shapeCasts_S4x256x256x9x1x3x2x2_S4x256x256x9x3x2x2,
    StableHlo.unary main_v27 main_v32 ((extractStridedSlice S4x256x256x9x1x3x2x2 ![0, 0, 0, 0, 2, 0, 0, 0] · slices_S4x256x256x9x3x3x2x2_S4x256x256x9x1x3x2x2_0_0_0_0_2_0_0_0) : (⟨S4x256x256x9x3x3x2x2, .f32⟩ : BufTy).Contents (Elt F) → (⟨S4x256x256x9x1x3x2x2, .f32⟩ : BufTy).Contents (Elt F)),
    StableHlo.reshape main_v32 main_v33 rfl shapeCasts_S4x256x256x9x1x3x2x2_S4x256x256x9x3x2x2,
    StableHlo.unary main_v29 main_v34 ((extractStridedSlice S4x256x256x1x3x2x2 ![0, 0, 0, 4, 0, 0, 0] · slices_S4x256x256x9x3x2x2_S4x256x256x1x3x2x2_0_0_0_4_0_0_0) : (⟨S4x256x256x9x3x2x2, .f32⟩ : BufTy).Contents (Elt F) → (⟨S4x256x256x1x3x2x2, .f32⟩ : BufTy).Contents (Elt F)),
    StableHlo.reshape main_v34 main_v35 rfl shapeCasts_S4x256x256x1x3x2x2_S4x256x256x3x2x2,
    StableHlo.nullary main_cst_0 (constant S_ .f32 0x3F800000#32),
    StableHlo.unary main_cst_0 main_v36 (broadcastInDim S4x256x256x3x2x2 ![] bcast_S_S4x256x256x3x2x2 : (⟨S_, .f32⟩ : BufTy).Contents (Elt F) → (⟨S4x256x256x3x2x2, .f32⟩ : BufTy).Contents (Elt F)),
    StableHlo.binary main_v35 main_v36 main_v37 (mulf : (⟨S4x256x256x3x2x2, .f32⟩ : BufTy).Contents (Elt F) → (⟨S4x256x256x3x2x2, .f32⟩ : BufTy).Contents (Elt F) → (⟨S4x256x256x3x2x2, .f32⟩ : BufTy).Contents (Elt F)),
    StableHlo.unary main_v37 main_v38 (broadcastInDim S4x256x256x1x3x2x2 ![0, 1, 2, 4, 5, 6] bcast_S4x256x256x3x2x2_S4x256x256x1x3x2x2_0_1_2_4_5_6 : (⟨S4x256x256x3x2x2, .f32⟩ : BufTy).Contents (Elt F) → (⟨S4x256x256x1x3x2x2, .f32⟩ : BufTy).Contents (Elt F)),
    StableHlo.unary main_v38 main_v39 (broadcastInDim S4x256x256x9x3x2x2 ![0, 1, 2, 3, 4, 5, 6] bcast_S4x256x256x1x3x2x2_S4x256x256x9x3x2x2_0_1_2_3_4_5_6 : (⟨S4x256x256x1x3x2x2, .f32⟩ : BufTy).Contents (Elt F) → (⟨S4x256x256x9x3x2x2, .f32⟩ : BufTy).Contents (Elt F)),
    StableHlo.binary main_v39 main_v31 main_v40 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.unary main_cst main_v41 (broadcastInDim S9x1x2x2 ![0, 2, 3] bcast_S9x2x2_S9x1x2x2_0_2_3 : (⟨S9x2x2, .f32⟩ : BufTy).Contents (Elt F) → (⟨S9x1x2x2, .f32⟩ : BufTy).Contents (Elt F)),
    StableHlo.unary main_v41 main_v42 (broadcastInDim S1x1x1x9x1x2x2 ![3, 4, 5, 6] bcast_S9x1x2x2_S1x1x1x9x1x2x2_3_4_5_6 : (⟨S9x1x2x2, .f32⟩ : BufTy).Contents (Elt F) → (⟨S1x1x1x9x1x2x2, .f32⟩ : BufTy).Contents (Elt F)),
    StableHlo.unary main_v42 main_v43 (broadcastInDim S4x256x256x9x3x2x2 ![0, 1, 2, 3, 4, 5, 6] bcast_S1x1x1x9x1x2x2_S4x256x256x9x3x2x2_0_1_2_3_4_5_6 : (⟨S1x1x1x9x1x2x2, .f32⟩ : BufTy).Contents (Elt F) → (⟨S4x256x256x9x3x2x2, .f32⟩ : BufTy).Contents (Elt F)),
    StableHlo.binary main_v40 main_v43 main_v44 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.binary main_v44 main_v33 main_v45 (mulf : (⟨S4x256x256x9x3x2x2, .f32⟩ : BufTy).Contents (Elt F) → (⟨S4x256x256x9x3x2x2, .f32⟩ : BufTy).Contents (Elt F) → (⟨S4x256x256x9x3x2x2, .f32⟩ : BufTy).Contents (Elt F)),
    StableHlo.nullary main_cst_1 (constant S_ .f32 0x00000000#32),
    StableHlo.binary main_v45 main_cst_1 main_v46 ((fun x v => Host.reduceAdd x v reducesTo_S4x256x256x9x3x2x2_S4x256x256x3x2x2_d3 h_S_) : (⟨S4x256x256x9x3x2x2, .f32⟩ : BufTy).Contents (Elt F) → (⟨S_, .f32⟩ : BufTy).Contents (Elt F) → (⟨S4x256x256x3x2x2, .f32⟩ : BufTy).Contents (Elt F)),
    StableHlo.unary main_v46 main_v47 ((transpose S4x3x256x2x256x2 [0, 3, 1, 4, 2, 5] · transposes_S4x256x256x3x2x2_S4x3x256x2x256x2_0_3_1_4_2_5) : (⟨S4x256x256x3x2x2, .f32⟩ : BufTy).Contents (Elt F) → (⟨S4x3x256x2x256x2, .f32⟩ : BufTy).Contents (Elt F)),
    StableHlo.reshape main_v47 main_v48 rfl shapeCasts_S4x3x256x2x256x2_S4x3x512x512,
    StableHlo.binary main_arg0 main_v48 main_v49 (addf : (⟨S4x3x512x512, .f32⟩ : BufTy).Contents (Elt F) → (⟨S4x3x512x512, .f32⟩ : BufTy).Contents (Elt F) → (⟨S4x3x512x512, .f32⟩ : BufTy).Contents (Elt F)) ]

/-- The line is its three stretches, one after the other. -/
theorem ops_split : (ops : List (HloOp τ sig (Elt F))) = opsA1 ++ (opsA2 ++ opsB) := rfl

/-- The fold over a concatenation is the fold over its second part from the first part's result. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

set_option maxRecDepth 4096 in
/-- @main is that straight line: the padding function unfolded at its call, sequencing reassociated. -/
theorem main_eq (c : Dev nD) : main (F := F) c = seq ops := by
  simp only [main, fn_pad.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., reshape_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    unary_bufs_sub .., unary_bufs_sub .., unary_bufs_sub .., unary_bufs_sub .., unary_bufs_sub .., unary_bufs_sub ..,
    nary_bufs_sub .., reshape_bufs_sub .., binary_bufs_sub .., unary_bufs_sub .., unary_bufs_sub .., binary_bufs_sub ..,
    reshape_bufs_sub .., unary_bufs_sub .., reshape_bufs_sub .., unary_bufs_sub .., reshape_bufs_sub .., unary_bufs_sub ..,
    reshape_bufs_sub .., unary_bufs_sub .., reshape_bufs_sub .., nullary_bufs_sub .., unary_bufs_sub .., binary_bufs_sub ..,
    unary_bufs_sub .., unary_bufs_sub .., binary_bufs_sub .., unary_bufs_sub .., unary_bufs_sub .., unary_bufs_sub ..,
    binary_bufs_sub .., binary_bufs_sub .., nullary_bufs_sub .., binary_bufs_sub .., unary_bufs_sub .., reshape_bufs_sub ..,
    binary_bufs_sub ..⟩

/-! ### The fold read back, stretch by stretch -/

/-- One pass over a literal line of operations: each operation's result at its own result buffer is its function's
    value, at any other reference what was there (the references told apart by computation); a family of operands
    given as a literal vector is read at each literal index. -/
local macro "results_pass" : tactic =>
  `(tactic| simp (disch := decide) only [after_cons, after_nil, Matrix.cons_val,
      nullary_result', unary_result', binary_result', reshape_result', nary_result',
      nullary_result_ne', unary_result_ne', binary_result_ne', reshape_result_ne', nary_result_ne'])

theorem arg0_eq (V : Valuation τ sig (Elt F)) : after ops V (main_arg0 : DevRef τ sig) = V (main_arg0 : DevRef τ sig) := by results_pass
theorem arg1_eq (V : Valuation τ sig (Elt F)) : after ops V (main_arg1 : DevRef τ sig) = V (main_arg1 : DevRef τ sig) := by results_pass
theorem arg2_eq (V : Valuation τ sig (Elt F)) : after ops V (main_arg2 : DevRef τ sig) = V (main_arg2 : DevRef τ sig) := by results_pass

theorem a1_arg0 (V : Valuation τ sig (Elt F)) : after opsA1 V (main_arg0 : DevRef τ sig) = V (main_arg0 : DevRef τ sig) := by results_pass
theorem a1_arg1 (V : Valuation τ sig (Elt F)) : after opsA1 V (main_arg1 : DevRef τ sig) = V (main_arg1 : DevRef τ sig) := by results_pass
theorem a1_arg2 (V : Valuation τ sig (Elt F)) : after opsA1 V (main_arg2 : DevRef τ sig) = V (main_arg2 : DevRef τ sig) := by results_pass
/-- The table of position weights is written once, by the first operation. -/
theorem a1_cst (V : Valuation τ sig (Elt F)) :
    after opsA1 V (main_cst : DevRef τ sig) = (fun i => FloatOps.ofBits .f32 (lit0 (S9x2x2.rowMajor i))) := by
  results_pass
  rfl

section
attribute [local irreducible] pad Host.reduceAdd transpose extractStridedSlice broadcastInDim concatenate shapeCast
theorem a1_v12 (V : Valuation τ sig (Elt F)) :
    after opsA1 V (main_v12 : DevRef τ sig) = nbr (V (main_arg0 : DevRef τ sig)) ![0, 0, 0, 0, 0, 0] slices_S4x258x258x3x2x2_S4x256x256x3x2x2_0_0_0_0_0_0 := by
  results_pass
  unfold nbr P Rr
  rfl

theorem a1_v13 (V : Valuation τ sig (Elt F)) :
    after opsA1 V (main_v13 : DevRef τ sig) = nbr (V (main_arg0 : DevRef τ sig)) ![0, 0, 1, 0, 0, 0] slices_S4x258x258x3x2x2_S4x256x256x3x2x2_0_0_1_0_0_0 := by
  results_pass
  unfold nbr P Rr
  rfl

theorem a1_v14 (V : Valuation τ sig (Elt F)) :
    after opsA1 V (main_v14 : DevRef τ sig) = nbr (V (main_arg0 : DevRef τ sig)) ![0, 0, 2, 0, 0, 0] slices_S4x258x258x3x2x2_S4x256x256x3x2x2_0_0_2_0_0_0 := by
  results_pass
  unfold nbr P Rr
  rfl

theorem a1_v15 (V : Valuation τ sig (Elt F)) :
    after opsA1 V (main_v15 : DevRef τ sig) = nbr (V (main_arg0 : DevRef τ sig)) ![0, 1, 0, 0, 0, 0] slices_S4x258x258x3x2x2_S4x256x256x3x2x2_0_1_0_0_0_0 := by
  results_pass
  unfold nbr P Rr
  rfl

theorem a1_v16 (V : Valuation τ sig (Elt F)) :
    after opsA1 V (main_v16 : DevRef τ sig) = nbr (V (main_arg0 : DevRef τ sig)) ![0, 1, 1, 0, 0, 0] slices_S4x258x258x3x2x2_S4x256x256x3x2x2_0_1_1_0_0_0 := by
  results_pass
  unfold nbr P Rr
  rfl

theorem a1_v17 (V : Valuation τ sig (Elt F)) :
    after opsA1 V (main_v17 : DevRef τ sig) = nbr (V (main_arg0 : DevRef τ sig)) ![0, 1, 2, 0, 0, 0] slices_S4x258x258x3x2x2_S4x256x256x3x2x2_0_1_2_0_0_0 := by
  results_pass
  unfold nbr P Rr
  rfl

theorem a1_v18 (V : Valuation τ sig (Elt F)) :
    after opsA1 V (main_v18 : DevRef τ sig) = nbr (V (main_arg0 : DevRef τ sig)) ![0, 2, 0, 0, 0, 0] slices_S4x258x258x3x2x2_S4x256x256x3x2x2_0_2_0_0_0_0 := by
  results_pass
  unfold nbr P Rr
  rfl

theorem a1_v19 (V : Valuation τ sig (Elt F)) :
    after opsA1 V (main_v19 : DevRef τ sig) = nbr (V (main_arg0 : DevRef τ sig)) ![0, 2, 1, 0, 0, 0] slices_S4x258x258x3x2x2_S4x256x256x3x2x2_0_2_1_0_0_0 := by
  results_pass
  unfold nbr P Rr
  rfl

theorem a1_v20 (V : Valuation τ sig (Elt F)) :
    after opsA1 V (main_v20 : DevRef τ sig) = nbr (V (main_arg0 : DevRef τ sig)) ![0, 2, 2, 0, 0, 0] slices_S4x258x258x3x2x2_S4x256x256x3x2x2_0_2_2_0_0_0 := by
  results_pass
  unfold nbr P Rr
  rfl

end

theorem a2_arg0 (W : Valuation τ sig (Elt F)) : after opsA2 W (main_arg0 : DevRef τ sig) = W (main_arg0 : DevRef τ sig) := by results_pass
theorem a2_cst (W : Valuation τ sig (Elt F)) : after opsA2 W (main_cst : DevRef τ sig) = W (main_cst : DevRef τ sig) := by results_pass

attribute [local irreducible] pad Host.reduceAdd transpose extractStridedSlice broadcastInDim concatenate shapeCast in
/-- From the nine views and the two parameter arrays, the second stretch leaves q, k and v of all positions. -/
theorem a2_v26 (W : Valuation τ sig (Elt F)) (x : FVec F S4x3x512x512 .f32) (Wt : FVec F S36x12 .f32) (Bs : FVec F S36 .f32)
    (h12 : W (main_v12 : DevRef τ sig) = nbr x ![0, 0, 0, 0, 0, 0] slices_S4x258x258x3x2x2_S4x256x256x3x2x2_0_0_0_0_0_0)
    (h13 : W (main_v13 : DevRef τ sig) = nbr x ![0, 0, 1, 0, 0, 0] slices_S4x258x258x3x2x2_S4x256x256x3x2x2_0_0_1_0_0_0)
    (h14 : W (main_v14 : DevRef τ sig) = nbr x ![0, 0, 2, 0, 0, 0] slices_S4x258x258x3x2x2_S4x256x256x3x2x2_0_0_2_0_0_0)
    (h15 : W (main_v15 : DevRef τ sig) = nbr x ![0, 1, 0, 0, 0, 0] slices_S4x258x258x3x2x2_S4x256x256x3x2x2_0_1_0_0_0_0)
    (h16 : W (main_v16 : DevRef τ sig) = nbr x ![0, 1, 1, 0, 0, 0] slices_S4x258x258x3x2x2_S4x256x256x3x2x2_0_1_1_0_0_0)
    (h17 : W (main_v17 : DevRef τ sig) = nbr x ![0, 1, 2, 0, 0, 0] slices_S4x258x258x3x2x2_S4x256x256x3x2x2_0_1_2_0_0_0)
    (h18 : W (main_v18 : DevRef τ sig) = nbr x ![0, 2, 0, 0, 0, 0] slices_S4x258x258x3x2x2_S4x256x256x3x2x2_0_2_0_0_0_0)
    (h19 : W (main_v19 : DevRef τ sig) = nbr x ![0, 2, 1, 0, 0, 0] slices_S4x258x258x3x2x2_S4x256x256x3x2x2_0_2_1_0_0_0)
    (h20 : W (main_v20 : DevRef τ sig) = nbr x ![0, 2, 2, 0, 0, 0] slices_S4x258x258x3x2x2_S4x256x256x3x2x2_0_2_2_0_0_0)
    (hW : W (main_arg1 : DevRef τ sig) = Wt) (hB : W (main_arg2 : DevRef τ sig) = Bs) :
    after opsA2 W (main_v26 : DevRef τ sig) = qkv x Wt Bs := by
  results_pass
  rw [h12, h13, h14, h15, h16, h17, h18, h19, h20, hW, hB]
  unfold qkv x1 nbrs
  rfl

attribute [local irreducible] pad Host.reduceAdd transpose extractStridedSlice broadcastInDim concatenate shapeCast in
/-- From q, k and v of all positions, the table of position weights and the image, the last stretch leaves the result. -/
theorem b_v49 (W : Valuation τ sig (Elt F)) (x : FVec F S4x3x512x512 .f32) (y : FVec F S4x256x256x9x36 .f32)
    (hc : W (main_cst : DevRef τ sig) = (fun i => FloatOps.ofBits .f32 (lit0 (S9x2x2.rowMajor i)))) (hy : W (main_v26 : DevRef τ sig) = y) (hx : W (main_arg0 : DevRef τ sig) = x) :
    after opsB W (main_v49 : DevRef τ sig)
      = addf x (shapeCast S4x3x512x512 (Tof y) shapeCasts_S4x3x256x2x256x2_S4x3x512x512) := by
  results_pass
  rw [hc, hy, hx]
  unfold Tof part coreQ biasR
  rfl

/-- The whole line at the result buffer. -/
theorem out_eq (V : Valuation τ sig (Elt F)) :
    after ops V (main_v49 : DevRef τ sig)
      = addf (V (main_arg0 : DevRef τ sig)) (shapeCast S4x3x512x512 (T (V (main_arg0 : DevRef τ sig)) (V (main_arg1 : DevRef τ sig)) (V (main_arg2 : DevRef τ sig))) shapeCasts_S4x3x256x2x256x2_S4x3x512x512) := by
  rw [ops_split, after_append, after_append]
  unfold T
  exact b_v49 _ _ _ ((a2_cst _).trans (a1_cst V))
    (a2_v26 _ _ _ _ (a1_v12 V) (a1_v13 V) (a1_v14 V) (a1_v15 V) (a1_v16 V) (a1_v17 V) (a1_v18 V) (a1_v19 V) (a1_v20 V) (a1_arg1 V) (a1_arg2 V))
    ((a2_arg0 _).trans (a1_arg0 V))

end Run

open Run

theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v49)
        = addf (m ((c.tc : Thread nD τ).loc main_arg0)) (shapeCast S4x3x512x512 (T (m ((c.tc : Thread nD τ).loc main_arg0)) (m ((c.tc : Thread nD τ).loc main_arg1)) (m ((c.tc : Thread nD τ).loc main_arg2))) shapeCasts_S4x3x256x2x256x2_S4x3x512x512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v49).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.Ref

end
-- ==== Proof.KIdx.lean ====
/-
  The kernel program's host stages read at an index: the fold of a patch into twelve channels, the thirds of the weight
  matrix and of the bias, the table of position weights, and the unfolding after the region.
-/
import proofs.«181481_j52390011076755_1_alg».proof.Proof.KStages
import Idealize.ShloMosaic.Lib.Pipeline.Value
import Idealize.ShloMosaic.Lib.ValueLayout
import Idealize.ShloMosaic.Lib.ValueIdxRank6

noncomputable section

namespace Cert.Ker

open Idealize.ShloMosaic Idealize.ShloMosaic.ValueIdx Idealize.ShloMosaic.TcCoe Idealize.SL.Sem Cert.KernelIdeal Cert.KernelIdeal.Gen Cert.Attn

/-- The folded array at (b, dd, gh, gw) is the patch array at colour dd / 4, row in patch dd / 2 % 2, column in patch
    dd % 2: the merge of (c, pi, pj) into one axis keeps the row-major position, 4c + 2·pi + pj = dd, and the
    transposition moved (pi, pj) from behind gh and gw to in front of them. -/
theorem Xfold_apply (x : FVec Ideal S4x3x512x512 .f32) (b : Fin 4) (dd : Fin 12) (gh gw : Fin 258) :
    Xfold x (ix4 b dd gh gw) = xf (Rk x) b dd gh gw := by
  have hb : b.val < 4 := b.isLt
  have hdd : dd.val < 12 := dd.isLt
  have hgh : gh.val < 258 := gh.isLt
  have hgw : gw.val < 258 := gw.isLt
  unfold Xfold
  -- the merge of three axes into one: same row-major position
  refine (shapeCast_apply _ _ (ix4 b dd gh gw)
    (ix6 b (⟨dd.val / 4, by omega⟩ : Fin 3) (⟨dd.val / 2 % 2, by omega⟩ : Fin 2) (⟨dd.val % 2, by omega⟩ : Fin 2) gh gw)
    (by rw [Shape.rowMajor_val_six, Shape.rowMajor_val_four]
        show ((((b.val * 3 + dd.val / 4) * 2 + dd.val / 2 % 2) * 2 + dd.val % 2) * 258 + gh.val) * 258 + gw.val
          = ((b.val * 12 + dd.val) * 258 + gh.val) * 258 + gw.val
        omega)).trans ?_
  -- the transposition: result axes (b, c, pi, pj, gh, gw) are source axes 0, 1, 3, 5, 2, 4
  refine (transpose_apply _ _ _ _
    (ix6 b (⟨dd.val / 4, by omega⟩ : Fin 3) gh (⟨dd.val / 2 % 2, by omega⟩ : Fin 2) gw (⟨dd.val % 2, by omega⟩ : Fin 2))
    (fun a => match a with | ⟨0, _⟩ => rfl | ⟨1, _⟩ => rfl | ⟨2, _⟩ => rfl | ⟨3, _⟩ => rfl | ⟨4, _⟩ => rfl | ⟨5, _⟩ => rfl)).trans ?_
  rfl

/-- Row e of the first third of the weight matrix is row e of the matrix. -/
theorem Wq_apply (W : FVec Ideal S36x12 .f32) (e dd : Fin 12) : Wq W (ix2 e dd) = W (ix2 (⟨e.val, by omega⟩ : Fin 36) dd) := by
  unfold Wq
  exact extractStridedSlice_apply _ _ _ _ _ (fun a => match a with
    | ⟨0, _⟩ => by show e.val = 0 + e.val; omega
    | ⟨1, _⟩ => by show dd.val = 0 + dd.val; omega)
/-- Row e of the second third is row 12 + e. -/
theorem Wk_apply (W : FVec Ideal S36x12 .f32) (e dd : Fin 12) : Wk W (ix2 e dd) = W (ix2 (⟨12 + e.val, by omega⟩ : Fin 36) dd) := by
  unfold Wk
  exact extractStridedSlice_apply _ _ _ _ _ (fun a => match a with
    | ⟨0, _⟩ => by show 12 + e.val = 12 + e.val; rfl
    | ⟨1, _⟩ => by show dd.val = 0 + dd.val; omega)
/-- Row e of the last third is row 24 + e. -/
theorem Wv_apply (W : FVec Ideal S36x12 .f32) (e dd : Fin 12) : Wv W (ix2 e dd) = W (ix2 (⟨24 + e.val, by omega⟩ : Fin 36) dd) := by
  unfold Wv
  exact extractStridedSlice_apply _ _ _ _ _ (fun a => match a with
    | ⟨0, _⟩ => by show 24 + e.val = 24 + e.val; rfl
    | ⟨1, _⟩ => by show dd.val = 0 + dd.val; omega)

/-- Entry e of the first third of the bias, laid out as a column with two unit axes, is entry e of the vector. -/
theorem bq_apply (B : FVec Ideal S36 .f32) (e : Fin 12) : bq B (ix3 e (0 : Fin 1) (0 : Fin 1)) = B (ix1 (⟨e.val, by omega⟩ : Fin 36)) := by
  unfold bq
  -- the two unit axes add nothing to the row-major position
  refine (shapeCast_apply _ _ (ix3 e (0 : Fin 1) (0 : Fin 1)) (ix1 e)
    (by rw [Shape.rowMajor_val_one, Shape.rowMajor_val_three]
        show e.val = (e.val * 1 + 0) * 1 + 0
        omega)).trans ?_
  exact extractStridedSlice_apply _ _ _ _ _ (fun a => match a with
    | ⟨0, _⟩ => by show e.val = 0 + e.val; omega)
/-- Entry e of the second third is entry 12 + e. -/
theorem bk_apply (B : FVec Ideal S36 .f32) (e : Fin 12) : bk B (ix3 e (0 : Fin 1) (0 : Fin 1)) = B (ix1 (⟨12 + e.val, by omega⟩ : Fin 36)) := by
  unfold bk
  refine (shapeCast_apply _ _ (ix3 e (0 : Fin 1) (0 : Fin 1)) (ix1 e)
    (by rw [Shape.rowMajor_val_one, Shape.rowMajor_val_three]
        show e.val = (e.val * 1 + 0) * 1 + 0
        omega)).trans ?_
  exact extractStridedSlice_apply _ _ _ _ _ (fun a => match a with
    | ⟨0, _⟩ => by show 12 + e.val = 12 + e.val; rfl)
/-- Entry e of the last third is entry 24 + e. -/
theorem bv_apply (B : FVec Ideal S36 .f32) (e : Fin 12) : bv B (ix3 e (0 : Fin 1) (0 : Fin 1)) = B (ix1 (⟨24 + e.val, by omega⟩ : Fin 36)) := by
  unfold bv
  refine (shapeCast_apply _ _ (ix3 e (0 : Fin 1) (0 : Fin 1)) (ix1 e)
    (by rw [Shape.rowMajor_val_one, Shape.rowMajor_val_three]
        show e.val = (e.val * 1 + 0) * 1 + 0
        omega)).trans ?_
  exact extractStridedSlice_apply _ _ _ _ _ (fun a => match a with
    | ⟨0, _⟩ => by show 24 + e.val = 24 + e.val; rfl)

/-- The program's 9 × 12 table repeats each position's four weights three times along the channel axis: the word at
    row-major position 12p + e is the word of β at (p, e mod 4). A finite comparison of two tables of words. -/
private theorem lit0_eq_betaBits : ∀ (p : Fin 9) (e : Fin 12),
    lit0 (⟨12 * p.val + e.val, by omega⟩ : Fin 108) = betaBits (⟨4 * p.val + e.val % 4, by omega⟩ : Fin 36) := by
  decide

theorem btab_apply (p : Fin 9) (e : Fin 12) : btab (F := Ideal) (ix4 p e (0 : Fin 1) (0 : Fin 1)) = beta p ⟨e.val % 4, by omega⟩ := by
  have hp : p.val < 9 := p.isLt
  have he : e.val < 12 := e.isLt
  -- the row-major position of (p, e, 0, 0) in the 9 × 12 × 1 × 1 table is 12p + e
  have hpos : S9x12x1x1.rowMajor (ix4 p e (0 : Fin 1) (0 : Fin 1)) = (⟨12 * p.val + e.val, by omega⟩ : Fin 108) := by
    apply Fin.ext
    rw [Shape.rowMajor_val_four]
    show ((p.val * 12 + e.val) * 1 + 0) * 1 + 0 = 12 * p.val + e.val
    omega
  unfold btab beta
  rw [hpos, lit0_eq_betaBits p e]
  rfl

/-- The region's output, its channel axis split back into (colour, row in patch, column in patch) and those two moved
    behind the patch row and the patch column: at (b, c, h, pi, w, pj) it is the output at channel 4c + 2·pi + pj. -/
theorem Ttail_apply (y : FVec Ideal S4x12x256x256 .f32) (b : Fin 4) (c : Fin 3) (h : Fin 256) (pi : Fin 2) (w : Fin 256) (pj : Fin 2) :
    Ttail y (ix6 b c h pi w pj) = y (ix4 b (chanOf c pi pj) h w) := by
  have hb : b.val < 4 := b.isLt
  have hc : c.val < 3 := c.isLt
  have hpi : pi.val < 2 := pi.isLt
  have hpj : pj.val < 2 := pj.isLt
  have hh : h.val < 256 := h.isLt
  have hw : w.val < 256 := w.isLt
  unfold Ttail
  -- the transposition: result axes (b, c, h, pi, w, pj) are source axes 0, 1, 4, 2, 5, 3
  refine (transpose_apply _ _ _ (ix6 b c h pi w pj) (ix6 b c pi pj h w)
    (fun a => match a with | ⟨0, _⟩ => rfl | ⟨1, _⟩ => rfl | ⟨2, _⟩ => rfl | ⟨3, _⟩ => rfl | ⟨4, _⟩ => rfl | ⟨5, _⟩ => rfl)).trans ?_
  -- the split of the channel axis into three: same row-major position
  exact shapeCast_apply _ _ (ix6 b c pi pj h w) (ix4 b (chanOf c pi pj) h w)
    (by rw [Shape.rowMajor_val_four, Shape.rowMajor_val_six]
        show ((b.val * 12 + (4 * c.val + 2 * pi.val + pj.val)) * 256 + h.val) * 256 + w.val
          = ((((b.val * 3 + c.val) * 2 + pi.val) * 2 + pj.val) * 256 + h.val) * 256 + w.val
        omega)

end Cert.Ker

end
-- ==== Proof.RefQkv.lean ====
/-
  The reference's one contraction read at an index: output o of position p at interior patch (h, w) is the twelve
  numbers of patch (h + p / 3, w + p mod 3) against row o of the weight matrix, plus bias o.
-/
import proofs.«181481_j52390011076755_1_alg».proof.Proof.RefStages
import Idealize.ShloMosaic.Lib.Pipeline.Value
import Idealize.ShloMosaic.Lib.ValueLayout
import Idealize.ShloMosaic.Lib.ValueIdxRank6
import Idealize.ShloMosaic.PureOps.Ideal.Laws

noncomputable section

namespace Cert.Ref

open Idealize.ShloMosaic Idealize.ShloMosaic.ValueIdx Idealize.ShloMosaic.TcCoe Idealize.SL.Sem Cert.ReferenceIdeal Cert.ReferenceIdeal.Gen Cert.Attn

namespace Qkv

/-! ## Rank-7 indices by coordinates -/

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun t => match t with | ⟨0, _⟩ => a | ⟨1, _⟩ => b | ⟨2, _⟩ => c | ⟨3, _⟩ => d | ⟨4, _⟩ => e | ⟨5, _⟩ => f | ⟨6, _⟩ => g

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
        + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-! ## The stages before the contraction, each read at an index -/

/-- The patch grid [b, gh, gw, c, pi, pj] is the split image [b, c, gh, pi, gw, pj] with its axes permuted. -/
theorem P_apply (x : FVec Ideal S4x3x512x512 .f32) (b : Fin 4) (gh gw : Fin 258) (c : Fin 3) (pi pj : Fin 2) :
    P x (ix6 b gh gw c pi pj) = Rr x (ix6 b c gh pi gw pj) := by
  unfold P
  exact transpose_apply _ _ _ _ _ (fun t => match t with
    | ⟨0, _⟩ => rfl | ⟨1, _⟩ => rfl | ⟨2, _⟩ => rfl | ⟨3, _⟩ => rfl | ⟨4, _⟩ => rfl | ⟨5, _⟩ => rfl)

/-- The view shifted by (di, dj), read at patch (h, w) on its unit axis, is the split image at patch (gh, gw) = (h + di, w + dj). -/
theorem nbr_apply (x : FVec Ideal S4x3x512x512 .f32) (di dj : Nat)
    (hs : S4x258x258x3x2x2.Slices ![0, di, dj, 0, 0, 0] S4x256x256x3x2x2)
    (b : Fin 4) (h w : Fin 256) (c : Fin 3) (pi pj : Fin 2) (gh gw : Fin 258) (hgh : gh.val = h.val + di) (hgw : gw.val = w.val + dj) :
    nbr x ![0, di, dj, 0, 0, 0] hs (ix7 b h w (0 : Fin 1) c pi pj) = Rr x (ix6 b c gh pi gw pj) := by
  unfold nbr
  -- the unit axis is new: the broadcast reads the slice at the other six coordinates
  refine (broadcastInDim_apply _ _ _ _ (ix6 b h w c pi pj) (fun a => match a with
    | ⟨0, _⟩ => rfl | ⟨1, _⟩ => rfl | ⟨2, _⟩ => rfl | ⟨3, _⟩ => rfl | ⟨4, _⟩ => rfl | ⟨5, _⟩ => rfl)).trans ?_
  -- the slice shifts the two grid coordinates by its offsets
  refine (extractStridedSlice_apply _ _ _ _ (ix6 b gh gw c pi pj) (fun a => match a with
    | ⟨0, _⟩ => by show b.val = 0 + b.val; omega
    | ⟨1, _⟩ => by show gh.val = di + h.val; omega
    | ⟨2, _⟩ => by show gw.val = dj + w.val; omega
    | ⟨3, _⟩ => by show c.val = 0 + c.val; omega
    | ⟨4, _⟩ => by show pi.val = 0 + pi.val; omega
    | ⟨5, _⟩ => by show pj.val = 0 + pj.val; omega)).trans ?_
  exact P_apply x b gh gw c pi pj

/-- Nine unit pieces stacked along axis 3: position p reads piece p on its unit axis, the other coordinates kept. -/
theorem stack_apply (xs : List ((s : Shape) × (s.Idx → Ideal .f32)))
    (hc : Shape.Concatenates (xs.map (·.1)) S4x256x256x9x3x2x2 3)
    (k : Nat) (hk : k < xs.length) (x₁ : S4x256x256x1x3x2x2.Idx → Ideal .f32) (hxk : xs[k] = ⟨S4x256x256x1x3x2x2, x₁⟩)
    (hpre : (((xs.take k).map (·.1)).map fun s =>
      if h : s.rank = S4x256x256x9x3x2x2.rank then s.size ((3 : Fin S4x256x256x9x3x2x2.rank).cast h.symm) else 0).sum = k)
    (b : Fin 4) (h w : Fin 256) (p : Fin 9) (hp : p.val = k) (c : Fin 3) (pi pj : Fin 2) :
    concatenate S4x256x256x9x3x2x2 3 xs hc (ix7 b h w p c pi pj) = x₁ (ix7 b h w (0 : Fin 1) c pi pj) :=
  concatenate_apply_piece (3 : Fin S4x256x256x9x3x2x2.rank) xs hc _ k hk _ x₁ hxk rfl k hpre _
    (fun a => match a with
      | ⟨0, _⟩ => fun _ => rfl
      | ⟨1, _⟩ => fun _ => rfl
      | ⟨2, _⟩ => fun _ => rfl
      | ⟨3, _⟩ => fun hne => absurd rfl hne
      | ⟨4, _⟩ => fun _ => rfl
      | ⟨5, _⟩ => fun _ => rfl
      | ⟨6, _⟩ => fun _ => rfl)
    (by show k + 0 = p.val; omega)

/-- The stack at position k = 3·di + dj is the split image at patch (gh, gw) = (h + k / 3, w + k mod 3). -/
theorem nbrs_apply_nat (x : FVec Ideal S4x3x512x512 .f32) (b : Fin 4) (h w : Fin 256) (k : Nat) (hk : k < 9) (c : Fin 3) (pi pj : Fin 2)
    (gh gw : Fin 258) (hgh : gh.val = h.val + k / 3) (hgw : gw.val = w.val + k % 3) :
    nbrs x (ix7 b h w (⟨k, hk⟩ : Fin 9) c pi pj) = Rr x (ix6 b c gh pi gw pj) := by
  unfold nbrs
  match k, hk, hgh, hgw with
  | 0, hk, hgh, hgw =>
    refine (stack_apply _ _ 0 (by show (0 : Nat) < 9; omega) _ rfl rfl b h w ⟨0, hk⟩ rfl c pi pj).trans ?_
    exact nbr_apply x 0 0 _ b h w c pi pj gh gw (by omega) (by omega)
  | 1, hk, hgh, hgw =>
    refine (stack_apply _ _ 1 (by show (1 : Nat) < 9; omega) _ rfl rfl b h w ⟨1, hk⟩ rfl c pi pj).trans ?_
    exact nbr_apply x 0 1 _ b h w c pi pj gh gw (by omega) (by omega)
  | 2, hk, hgh, hgw =>
    refine (stack_apply _ _ 2 (by show (2 : Nat) < 9; omega) _ rfl rfl b h w ⟨2, hk⟩ rfl c pi pj).trans ?_
    exact nbr_apply x 0 2 _ b h w c pi pj gh gw (by omega) (by omega)
  | 3, hk, hgh, hgw =>
    refine (stack_apply _ _ 3 (by show (3 : Nat) < 9; omega) _ rfl rfl b h w ⟨3, hk⟩ rfl c pi pj).trans ?_
    exact nbr_apply x 1 0 _ b h w c pi pj gh gw (by omega) (by omega)
  | 4, hk, hgh, hgw =>
    refine (stack_apply _ _ 4 (by show (4 : Nat) < 9; omega) _ rfl rfl b h w ⟨4, hk⟩ rfl c pi pj).trans ?_
    exact nbr_apply x 1 1 _ b h w c pi pj gh gw (by omega) (by omega)
  | 5, hk, hgh, hgw =>
    refine (stack_apply _ _ 5 (by show (5 : Nat) < 9; omega) _ rfl rfl b h w ⟨5, hk⟩ rfl c pi pj).trans ?_
    exact nbr_apply x 1 2 _ b h w c pi pj gh gw (by omega) (by omega)
  | 6, hk, hgh, hgw =>
    refine (stack_apply _ _ 6 (by show (6 : Nat) < 9; omega) _ rfl rfl b h w ⟨6, hk⟩ rfl c pi pj).trans ?_
    exact nbr_apply x 2 0 _ b h w c pi pj gh gw (by omega) (by omega)
  | 7, hk, hgh, hgw =>
    refine (stack_apply _ _ 7 (by show (7 : Nat) < 9; omega) _ rfl rfl b h w ⟨7, hk⟩ rfl c pi pj).trans ?_
    exact nbr_apply x 2 1 _ b h w c pi pj gh gw (by omega) (by omega)
  | 8, hk, hgh, hgw =>
    refine (stack_apply _ _ 8 (by show (8 : Nat) < 9; omega) _ rfl rfl b h w ⟨8, hk⟩ rfl c pi pj).trans ?_
    exact nbr_apply x 2 2 _ b h w c pi pj gh gw (by omega) (by omega)
  | n + 9, hk, _, _ => exact absurd hk (by omega)

theorem nbrs_apply (x : FVec Ideal S4x3x512x512 .f32) (b : Fin 4) (h w : Fin 256) (p : Fin 9) (c : Fin 3) (pi pj : Fin 2) :
    nbrs x (ix7 b h w p c pi pj)
      = Rr x (ix6 b c ⟨h.val + p.val / 3, by omega⟩ pi ⟨w.val + p.val % 3, by omega⟩ pj) :=
  nbrs_apply_nat x b h w p.val p.isLt c pi pj _ _ rfl rfl

/-- Channel k of the flattened patch is colour k / 4, row k / 2 mod 2, column k mod 2: k = 4c + 2·pi + pj. -/
theorem x1_apply (x : FVec Ideal S4x3x512x512 .f32) (b : Fin 4) (h w : Fin 256) (p : Fin 9) (k : Fin 12) :
    x1 x (ix5 b h w p k)
      = nbrs x (ix7 b h w p (⟨k.val / 4, by omega⟩ : Fin 3) (⟨k.val / 2 % 2, by omega⟩ : Fin 2) (⟨k.val % 2, by omega⟩ : Fin 2)) := by
  unfold x1
  exact shapeCast_apply _ _ _ _ (by
    rw [rowMajor_val_seven, Shape.rowMajor_val_five]
    show (((((b.val * 256 + h.val) * 256 + w.val) * 9 + p.val) * 3 + k.val / 4) * 2 + k.val / 2 % 2) * 2 + k.val % 2
      = (((b.val * 256 + h.val) * 256 + w.val) * 9 + p.val) * 12 + k.val
    omega)

/-! ## The contraction's operand indices, axis by axis -/

theorem lhs_0 (i : S4x256x256x9x36.Idx) (q : dot_S4x256x256x9x12_S36x12_S4x256x256x9x36_4_1_0123_0_n_n.contr.Idx) :
    (dot_S4x256x256x9x12_S36x12_S4x256x256x9x36_4_1_0123_0_n_n.lhsIdx i q 0).val = (i 0).val := by
  unfold DotDims.lhsIdx
  rw [dif_neg (show ¬(0 : Fin S4x256x256x9x12.rank) ∈ dot_S4x256x256x9x12_S36x12_S4x256x256x9x36_4_1_0123_0_n_n.lhsBatch by decide),
    dif_pos (show (0 : Fin S4x256x256x9x12.rank) ∈ dot_S4x256x256x9x12_S36x12_S4x256x256x9x36_4_1_0123_0_n_n.lhsNonContracting by decide)]
  rfl

theorem lhs_1 (i : S4x256x256x9x36.Idx) (q : dot_S4x256x256x9x12_S36x12_S4x256x256x9x36_4_1_0123_0_n_n.contr.Idx) :
    (dot_S4x256x256x9x12_S36x12_S4x256x256x9x36_4_1_0123_0_n_n.lhsIdx i q 1).val = (i 1).val := by
  unfold DotDims.lhsIdx
  rw [dif_neg (show ¬(1 : Fin S4x256x256x9x12.rank) ∈ dot_S4x256x256x9x12_S36x12_S4x256x256x9x36_4_1_0123_0_n_n.lhsBatch by decide),
    dif_pos (show (1 : Fin S4x256x256x9x12.rank) ∈ dot_S4x256x256x9x12_S36x12_S4x256x256x9x36_4_1_0123_0_n_n.lhsNonContracting by decide)]
  rfl

theorem lhs_2 (i : S4x256x256x9x36.Idx) (q : dot_S4x256x256x9x12_S36x12_S4x256x256x9x36_4_1_0123_0_n_n.contr.Idx) :
    (dot_S4x256x256x9x12_S36x12_S4x256x256x9x36_4_1_0123_0_n_n.lhsIdx i q 2).val = (i 2).val := by
  unfold DotDims.lhsIdx
  rw [dif_neg (show ¬(2 : Fin S4x256x256x9x12.rank) ∈ dot_S4x256x256x9x12_S36x12_S4x256x256x9x36_4_1_0123_0_n_n.lhsBatch by decide),
    dif_pos (show (2 : Fin S4x256x256x9x12.rank) ∈ dot_S4x256x256x9x12_S36x12_S4x256x256x9x36_4_1_0123_0_n_n.lhsNonContracting by decide)]
  rfl

theorem lhs_3 (i : S4x256x256x9x36.Idx) (q : dot_S4x256x256x9x12_S36x12_S4x256x256x9x36_4_1_0123_0_n_n.contr.Idx) :
    (dot_S4x256x256x9x12_S36x12_S4x256x256x9x36_4_1_0123_0_n_n.lhsIdx i q 3).val = (i 3).val := by
  unfold DotDims.lhsIdx
  rw [dif_neg (show ¬(3 : Fin S4x256x256x9x12.rank) ∈ dot_S4x256x256x9x12_S36x12_S4x256x256x9x36_4_1_0123_0_n_n.lhsBatch by decide),
    dif_pos (show (3 : Fin S4x256x256x9x12.rank) ∈ dot_S4x256x256x9x12_S36x12_S4x256x256x9x36_4_1_0123_0_n_n.lhsNonContracting by decide)]
  rfl

theorem lhs_4 (i : S4x256x256x9x36.Idx) (q : dot_S4x256x256x9x12_S36x12_S4x256x256x9x36_4_1_0123_0_n_n.contr.Idx) :
    (dot_S4x256x256x9x12_S36x12_S4x256x256x9x36_4_1_0123_0_n_n.lhsIdx i q 4).val = (q ⟨0, by decide⟩).val :=
  dot_S4x256x256x9x12_S36x12_S4x256x256x9x36_4_1_0123_0_n_n.lhsIdx_val_of_single rfl i q

theorem rhs_0 (i : S4x256x256x9x36.Idx) (q : dot_S4x256x256x9x12_S36x12_S4x256x256x9x36_4_1_0123_0_n_n.contr.Idx) :
    (dot_S4x256x256x9x12_S36x12_S4x256x256x9x36_4_1_0123_0_n_n.rhsIdx i q 0).val = (i 4).val := by
  unfold DotDims.rhsIdx
  rw [dif_neg (show ¬(0 : Fin S36x12.rank) ∈ dot_S4x256x256x9x12_S36x12_S4x256x256x9x36_4_1_0123_0_n_n.rhsBatch by decide),
    dif_pos (show (0 : Fin S36x12.rank) ∈ dot_S4x256x256x9x12_S36x12_S4x256x256x9x36_4_1_0123_0_n_n.rhsNonContracting by decide)]
  rfl

theorem rhs_1 (i : S4x256x256x9x36.Idx) (q : dot_S4x256x256x9x12_S36x12_S4x256x256x9x36_4_1_0123_0_n_n.contr.Idx) :
    (dot_S4x256x256x9x12_S36x12_S4x256x256x9x36_4_1_0123_0_n_n.rhsIdx i q 1).val = (q ⟨0, by decide⟩).val :=
  dot_S4x256x256x9x12_S36x12_S4x256x256x9x36_4_1_0123_0_n_n.rhsIdx_val_of_single rfl i q

/-- The contraction at (b, h, w, p, o): the twelve channels of the flattened patch against row o of the weights. -/
theorem dot_apply (X : FVec Ideal S4x256x256x9x12 .f32) (W : FVec Ideal S36x12 .f32)
    (b : Fin 4) (h w : Fin 256) (p : Fin 9) (o : Fin 36) :
    Host.dotGeneral (F := Ideal) dot_S4x256x256x9x12_S36x12_S4x256x256x9x36_4_1_0123_0_n_n none X W (ix5 b h w p o)
      = ∑ k : Fin 12, X (ix5 b h w p k) * W (ix2 o k) := by
  simp only [Host.dotGeneral]
  rw [Ideal.dotGeneral_apply,
    ← Equiv.sum_comp (contrEquiv1 dot_S4x256x256x9x12_S36x12_S4x256x256x9x36_4_1_0123_0_n_n 12 rfl rfl).symm]
  refine Finset.sum_congr rfl fun k _ => ?_
  have hk := contrEquiv1_symm_val dot_S4x256x256x9x12_S36x12_S4x256x256x9x36_4_1_0123_0_n_n 12 rfl rfl k
  have el : dot_S4x256x256x9x12_S36x12_S4x256x256x9x36_4_1_0123_0_n_n.lhsIdx (ix5 b h w p o)
      ((contrEquiv1 dot_S4x256x256x9x12_S36x12_S4x256x256x9x36_4_1_0123_0_n_n 12 rfl rfl).symm k) = ix5 b h w p k :=
    funext fun a => Fin.ext (by
      match a with
      | ⟨0, _⟩ => exact lhs_0 _ _
      | ⟨1, _⟩ => exact lhs_1 _ _
      | ⟨2, _⟩ => exact lhs_2 _ _
      | ⟨3, _⟩ => exact lhs_3 _ _
      | ⟨4, _⟩ => exact (lhs_4 _ _).trans hk)
  have er : dot_S4x256x256x9x12_S36x12_S4x256x256x9x36_4_1_0123_0_n_n.rhsIdx (ix5 b h w p o)
      ((contrEquiv1 dot_S4x256x256x9x12_S36x12_S4x256x256x9x36_4_1_0123_0_n_n 12 rfl rfl).symm k) = ix2 o k :=
    funext fun a => Fin.ext (by
      match a with
      | ⟨0, _⟩ => exact rhs_0 _ _
      | ⟨1, _⟩ => exact (rhs_1 _ _).trans hk)
  rw [el, er]

end Qkv

open Qkv

theorem qkv_apply (x : FVec Ideal S4x3x512x512 .f32) (W : FVec Ideal S36x12 .f32) (B : FVec Ideal S36 .f32)
    (b : Fin 4) (h w : Fin 256) (p : Fin 9) (o : Fin 36) :
    qkv x W B (ix5 b h w p o)
      = linR (fun dd => xf (Rr x) b dd ⟨h.val + p.val / 3, by omega⟩ ⟨w.val + p.val % 3, by omega⟩) (fun dd => W (ix2 o dd)) (B (ix1 o)) := by
  unfold qkv linR
  rw [addf_apply, dot_apply]
  refine congrArg₂ (· + ·) (Finset.sum_congr rfl fun k _ => ?_) ?_
  · -- channel k of the flattened patch at position p is channel k of the split image at patch (h + p / 3, w + p mod 3)
    rw [x1_apply, nbrs_apply]
    rfl
  · -- the bias, broadcast twice, is entry o of the bias vector
    refine (broadcastInDim_apply _ _ _ _ (ix5 (0 : Fin 1) (0 : Fin 1) (0 : Fin 1) (0 : Fin 1) o) (fun a => match a with
      | ⟨0, _⟩ => rfl | ⟨1, _⟩ => rfl | ⟨2, _⟩ => rfl | ⟨3, _⟩ => rfl | ⟨4, _⟩ => rfl)).trans ?_
    exact broadcastInDim_apply _ _ _ _ (ix1 o) (fun a => match a with | ⟨0, _⟩ => rfl)

end Cert.Ref

end
-- ==== Proof.RefTail.lean ====
/-
  Everything the reference does after its contraction, read at an index of the split result: the centre position's q
  (times one) against each position's k, the position weight and v, summed over the nine positions from the zero word.
-/
import proofs.«181481_j52390011076755_1_alg».proof.Proof.RefStages
import Idealize.ShloMosaic.Lib.Pipeline.Value
import Idealize.ShloMosaic.Lib.ValueLayout
import Idealize.ShloMosaic.Lib.ValueIdxRank6
import Idealize.ShloMosaic.PureOps.Ideal.Laws

noncomputable section

namespace Cert.Ref

open Idealize.ShloMosaic Idealize.ShloMosaic.ValueIdx Idealize.ShloMosaic.TcCoe Idealize.SL.Sem Cert.ReferenceIdeal Cert.ReferenceIdeal.Gen Cert.Attn

namespace Tail

/-! ## Indices of rank seven and eight by their coordinates, and their row-major positions -/

/-- Rank 7: the row-major position as one sum of products. -/
theorem rowMajor_val_seven {d : Fin 7 → Nat} (i : (⟨7, d⟩ : Shape).Idx) :
    ((⟨7, d⟩ : Shape).rowMajor i).val
      = ((((((i 0).val * d 1 + (i 1).val) * d 2 + (i 2).val) * d 3 + (i 3).val) * d 4 + (i 4).val) * d 5 + (i 5).val) * d 6
          + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5 + (i 5).val) * d 6
          + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-7 index from its coordinates. -/
abbrev ix7 {n0 n1 n2 n3 n4 n5 n6 : Nat} (a : Fin n0) (b : Fin n1) (c : Fin n2) (d : Fin n3) (e : Fin n4) (f : Fin n5)
    (g : Fin n6) : (⟨7, ![n0, n1, n2, n3, n4, n5, n6]⟩ : Shape).Idx :=
  fun x => match x with
    | ⟨0, _⟩ => a | ⟨1, _⟩ => b | ⟨2, _⟩ => c | ⟨3, _⟩ => d | ⟨4, _⟩ => e | ⟨5, _⟩ => f | ⟨6, _⟩ => g

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun x => match x with
    | ⟨0, _⟩ => a | ⟨1, _⟩ => b | ⟨2, _⟩ => c | ⟨3, _⟩ => d | ⟨4, _⟩ => e | ⟨5, _⟩ => f | ⟨6, _⟩ => g | ⟨7, _⟩ => h

/-! ## The three thirds of the 36 outputs -/

/-- Third s of the outputs at (b, h, w, p, c, pi, pj) is output 12·s + 4·c + 2·pi + pj of position p: the 36 outputs
    split as 3 × 3 × 2 × 2 in row-major order, the leading factor fixed at s. -/
theorem part_apply (y : FVec Ideal S4x256x256x9x36 .f32) (s : Nat) (hs3 : s < 3)
    (hs : S4x256x256x9x3x3x2x2.Slices ![0, 0, 0, 0, s, 0, 0, 0] S4x256x256x9x1x3x2x2)
    (b : Fin 4) (h w : Fin 256) (p : Fin 9) (c : Fin 3) (pi pj : Fin 2) (o : Fin 36)
    (ho : o.val = 12 * s + (4 * c.val + 2 * pi.val + pj.val)) :
    part y ![0, 0, 0, 0, s, 0, 0, 0] hs (ix7 b h w p c pi pj) = y (ix5 b h w p o) := by
  have hc := c.isLt
  have hpi := pi.isLt
  have hpj := pj.isLt
  unfold part
  -- dropping the unit axis keeps the row-major position
  refine (shapeCast_apply _ _ (ix7 b h w p c pi pj) (ix8 b h w p (0 : Fin 1) c pi pj) ?_).trans ?_
  · rw [rowMajor_val_eight, rowMajor_val_seven]
    show ((((((b.val * 256 + h.val) * 256 + w.val) * 9 + p.val) * 1 + 0) * 3 + c.val) * 2 + pi.val) * 2 + pj.val
      = (((((b.val * 256 + h.val) * 256 + w.val) * 9 + p.val) * 3 + c.val) * 2 + pi.val) * 2 + pj.val
    omega
  -- the slice fixes the leading factor of the split output axis at s
  refine (extractStridedSlice_apply _ _ hs (ix8 b h w p (0 : Fin 1) c pi pj) (ix8 b h w p (⟨s, hs3⟩ : Fin 3) c pi pj)
    (fun a => match a with
      | ⟨0, _⟩ => by show b.val = 0 + b.val; omega
      | ⟨1, _⟩ => by show h.val = 0 + h.val; omega
      | ⟨2, _⟩ => by show w.val = 0 + w.val; omega
      | ⟨3, _⟩ => by show p.val = 0 + p.val; omega
      | ⟨4, _⟩ => by show s = s + 0; omega
      | ⟨5, _⟩ => by show c.val = 0 + c.val; omega
      | ⟨6, _⟩ => by show pi.val = 0 + pi.val; omega
      | ⟨7, _⟩ => by show pj.val = 0 + pj.val; omega)).trans ?_
  -- splitting the output axis keeps the row-major position: o = ((s·3 + c)·2 + pi)·2 + pj
  refine shapeCast_apply _ _ (ix8 b h w p (⟨s, hs3⟩ : Fin 3) c pi pj) (ix5 b h w p o) ?_
  rw [Shape.rowMajor_val_five, rowMajor_val_eight]
  show (((b.val * 256 + h.val) * 256 + w.val) * 9 + p.val) * 36 + o.val
    = ((((((b.val * 256 + h.val) * 256 + w.val) * 9 + p.val) * 3 + s) * 3 + c.val) * 2 + pi.val) * 2 + pj.val
  omega

/-! ## The centre position's q -/

/-- The centre position's q times the literal one, at (b, h, w, c, pi, pj): output 4·c + 2·pi + pj of position 4. -/
theorem coreQ_apply (y : FVec Ideal S4x256x256x9x36 .f32) (b : Fin 4) (h w : Fin 256) (c : Fin 3) (pi pj : Fin 2) :
    coreQ y (ix6 b h w c pi pj) = y (ix5 b h w (4 : Fin 9) (⟨(chanOf c pi pj).val, by omega⟩ : Fin 36)) * one := by
  unfold coreQ
  refine (mulf_apply _ _ _).trans (congrArg₂ (· * ·) ?_ rfl)
  -- dropping the unit axis keeps the row-major position
  refine (shapeCast_apply _ _ (ix6 b h w c pi pj) (ix7 b h w (0 : Fin 1) c pi pj) ?_).trans ?_
  · rw [rowMajor_val_seven, Shape.rowMajor_val_six]
    show (((((b.val * 256 + h.val) * 256 + w.val) * 1 + 0) * 3 + c.val) * 2 + pi.val) * 2 + pj.val
      = ((((b.val * 256 + h.val) * 256 + w.val) * 3 + c.val) * 2 + pi.val) * 2 + pj.val
    omega
  -- the slice takes position 4 of the nine
  refine (extractStridedSlice_apply _ _ _ (ix7 b h w (0 : Fin 1) c pi pj) (ix7 b h w (4 : Fin 9) c pi pj)
    (fun a => match a with
      | ⟨0, _⟩ => by show b.val = 0 + b.val; omega
      | ⟨1, _⟩ => by show h.val = 0 + h.val; omega
      | ⟨2, _⟩ => by show w.val = 0 + w.val; omega
      | ⟨3, _⟩ => by show 4 = 4 + 0; omega
      | ⟨4, _⟩ => by show c.val = 0 + c.val; omega
      | ⟨5, _⟩ => by show pi.val = 0 + pi.val; omega
      | ⟨6, _⟩ => by show pj.val = 0 + pj.val; omega)).trans ?_
  exact part_apply y 0 (by omega) _ b h w 4 c pi pj _ (by show 4 * c.val + 2 * pi.val + pj.val = 12 * 0 + _; omega)

/-! ## The position weights -/

/-- The reference's table of position weights is the specification's, word for word. -/
theorem lit0_eq : ∀ k : Fin 36, lit0 k = betaBits k := by decide

/-- The broadcast table at (b, h, w, p, c, pi, pj) is β[p, 2·pi + pj], which is β[p, (4·c + 2·pi + pj) mod 4]. -/
theorem biasR_apply (b : Fin 4) (h w : Fin 256) (p : Fin 9) (c : Fin 3) (pi pj : Fin 2) :
    (biasR : FVec Ideal S4x256x256x9x3x2x2 .f32) (ix7 b h w p c pi pj)
      = beta p ⟨(chanOf c pi pj).val % 4, Nat.mod_lt _ (by decide)⟩ := by
  have hc := c.isLt
  have hpi := pi.isLt
  have hpj := pj.isLt
  unfold biasR
  refine (broadcastInDim_apply _ _ _ (ix7 b h w p c pi pj) (ix7 (0 : Fin 1) (0 : Fin 1) (0 : Fin 1) p (0 : Fin 1) pi pj)
    (fun a => match a with
      | ⟨0, _⟩ => rfl | ⟨1, _⟩ => rfl | ⟨2, _⟩ => rfl | ⟨3, _⟩ => rfl | ⟨4, _⟩ => rfl | ⟨5, _⟩ => rfl | ⟨6, _⟩ => rfl)).trans ?_
  refine (broadcastInDim_apply _ _ _ (ix7 (0 : Fin 1) (0 : Fin 1) (0 : Fin 1) p (0 : Fin 1) pi pj) (ix4 p (0 : Fin 1) pi pj)
    (fun a => match a with
      | ⟨0, _⟩ => rfl | ⟨1, _⟩ => rfl | ⟨2, _⟩ => rfl | ⟨3, _⟩ => rfl)).trans ?_
  refine (broadcastInDim_apply _ _ _ (ix4 p (0 : Fin 1) pi pj) (ix3 p pi pj)
    (fun a => match a with
      | ⟨0, _⟩ => rfl | ⟨1, _⟩ => rfl | ⟨2, _⟩ => rfl)).trans ?_
  -- the table's entry at row-major position (p·2 + pi)·2 + pj = 4·p + (4·c + 2·pi + pj) mod 4
  show Ideal.ofBits .f32 (lit0 (S9x2x2.rowMajor (ix3 p pi pj)))
    = Ideal.ofBits .f32 (betaBits ⟨4 * p.val + (chanOf c pi pj).val % 4, _⟩)
  refine congrArg (Ideal.ofBits .f32) ((lit0_eq (S9x2x2.rowMajor (ix3 p pi pj))).trans (congrArg betaBits (Fin.ext ?_)))
  refine (Shape.rowMajor_val_three _).trans ?_
  show (p.val * 2 + pi.val) * 2 + pj.val = 4 * p.val + (4 * c.val + 2 * pi.val + pj.val) % 4
  omega

/-! ## One term of the sum over the nine positions -/

/-- The product the reference sums, at the index over (b, h, w, c, pi, pj) with position p inserted: the factors in the
    program's own order, q (broadcast over the positions) · k · β · v. -/
theorem term_apply (Q : FVec Ideal S4x256x256x3x2x2 .f32) (K B V : FVec Ideal S4x256x256x9x3x2x2 .f32)
    (hR : Shape.Reduces S4x256x256x9x3x2x2 [3] S4x256x256x3x2x2)
    (b : Fin 4) (h w : Fin 256) (c : Fin 3) (pi pj : Fin 2) (p : Fin 9) :
    mulf
        (mulf
          (mulf
            (broadcastInDim S4x256x256x9x3x2x2 ![0, 1, 2, 3, 4, 5, 6] bcast_S4x256x256x1x3x2x2_S4x256x256x9x3x2x2_0_1_2_3_4_5_6
              (broadcastInDim S4x256x256x1x3x2x2 ![0, 1, 2, 4, 5, 6] bcast_S4x256x256x3x2x2_S4x256x256x1x3x2x2_0_1_2_4_5_6 Q))
            K)
          B)
        V (hR.lift (ix6 b h w c pi pj) p)
      = Q (ix6 b h w c pi pj) * K (ix7 b h w p c pi pj) * B (ix7 b h w p c pi pj) * V (ix7 b h w p c pi pj) := by
  -- the inserted index by coordinates
  have hidx : hR.lift (ix6 b h w c pi pj) p = ix7 b h w p c pi pj := funext fun a => match a with
    | ⟨0, _⟩ => Fin.ext rfl | ⟨1, _⟩ => Fin.ext rfl | ⟨2, _⟩ => Fin.ext rfl | ⟨3, _⟩ => Fin.ext rfl
    | ⟨4, _⟩ => Fin.ext rfl | ⟨5, _⟩ => Fin.ext rfl | ⟨6, _⟩ => Fin.ext rfl
  rw [hidx]
  refine (mulf_apply _ _ _).trans (congrArg₂ (· * ·) ?_ rfl)
  refine (mulf_apply _ _ _).trans (congrArg₂ (· * ·) ?_ rfl)
  refine (mulf_apply _ _ _).trans (congrArg₂ (· * ·) ?_ rfl)
  -- q does not depend on the position
  refine (broadcastInDim_apply _ _ _ (ix7 b h w p c pi pj) (ix7 b h w (0 : Fin 1) c pi pj)
    (fun a => match a with
      | ⟨0, _⟩ => rfl | ⟨1, _⟩ => rfl | ⟨2, _⟩ => rfl | ⟨3, _⟩ => rfl | ⟨4, _⟩ => rfl | ⟨5, _⟩ => rfl | ⟨6, _⟩ => rfl)).trans ?_
  exact broadcastInDim_apply _ _ _ (ix7 b h w (0 : Fin 1) c pi pj) (ix6 b h w c pi pj)
    (fun a => match a with
      | ⟨0, _⟩ => rfl | ⟨1, _⟩ => rfl | ⟨2, _⟩ => rfl | ⟨3, _⟩ => rfl | ⟨4, _⟩ => rfl | ⟨5, _⟩ => rfl)

end Tail

open Tail

theorem Tof_apply (y : FVec Ideal S4x256x256x9x36 .f32) (b : Fin 4) (c : Fin 3) (h : Fin 256) (pi : Fin 2) (w : Fin 256) (pj : Fin 2) :
    Tof y (ix6 b c h pi w pj)
      = attS (y (ix5 b h w (4 : Fin 9) (⟨(chanOf c pi pj).val, by omega⟩ : Fin 36)) * one)
          (fun p => y (ix5 b h w p (⟨12 + (chanOf c pi pj).val, by omega⟩ : Fin 36)))
          (fun p => y (ix5 b h w p (⟨24 + (chanOf c pi pj).val, by omega⟩ : Fin 36)))
          (fun p => beta p ⟨(chanOf c pi pj).val % 4, by omega⟩) := by
  unfold Tof
  -- the transpose puts (b, c, h, pi, w, pj) ← (b, h, w, c, pi, pj)
  refine (transpose_apply _ _ _ (ix6 b c h pi w pj) (ix6 b h w c pi pj)
    (fun a => match a with
      | ⟨0, _⟩ => rfl | ⟨1, _⟩ => rfl | ⟨2, _⟩ => rfl | ⟨3, _⟩ => rfl | ⟨4, _⟩ => rfl | ⟨5, _⟩ => rfl)).trans ?_
  -- the reduction over the nine positions: the initial value plus the sum of the terms
  refine (Ideal.hostReduceAdd_single reducesTo_S4x256x256x9x3x2x2_S4x256x256x3x2x2_d3
    (by decide : Shape.Reduces S4x256x256x9x3x2x2 [3] S4x256x256x3x2x2) _ _ (ix6 b h w c pi pj)).trans ?_
  unfold attS
  refine congrArg₂ (· + ·) rfl (Finset.sum_congr rfl fun (p : Fin 9) _ => ?_)
  refine (term_apply _ _ _ _ _ b h w c pi pj p).trans ?_
  -- each factor at its index, in the program's order ((q · k) · β) · v
  exact congrArg₂ (· * ·)
    (congrArg₂ (· * ·)
      (congrArg₂ (· * ·) (coreQ_apply y b h w c pi pj)
        (part_apply y 1 (by omega) _ b h w p c pi pj ⟨12 + (chanOf c pi pj).val, by omega⟩
          (by show 12 + (4 * c.val + 2 * pi.val + pj.val) = 12 * 1 + _; omega)))
      (biasR_apply b h w p c pi pj))
    (part_apply y 2 (by omega) _ b h w p c pi pj ⟨24 + (chanOf c pi pj).val, by omega⟩
      (by show 24 + (4 * c.val + 2 * pi.val + pj.val) = 12 * 2 + _; omega))

end Cert.Ref

end
-- ==== Proof.Bridge.lean ====
/-
  The two programs' results just before the last reshape are one array: the specification 'Tsplit' of the padded
  patches, the weights and the biases. On the kernel's side the body's left-to-right sums are re-read as the sums over
  the twelve input channels and the nine window positions; on the reference's side the contraction's products are
  commuted and the bias moved in front. Both use only that + and · on the extended reals are commutative and
  associative, each by itself: no product is distributed over a sum, so no finiteness is needed.
-/
import proofs.«181481_j52390011076755_1_alg».proof.Proof.KIdx
import proofs.«181481_j52390011076755_1_alg».proof.Proof.RefQkv
import proofs.«181481_j52390011076755_1_alg».proof.Proof.RefTail
import Idealize.ShloMosaic.Lib.ValueIdxRank6

noncomputable section

namespace Cert.Bridge

open Idealize.ShloMosaic Idealize.ShloMosaic.ValueIdx Cert.Attn

/-- Both programs pad and split the image by the same two operations. -/
theorem R_eq (x : FVec Ideal Cert.KernelIdeal.S4x3x512x512 .f32) : Cert.Ker.Rk x = Cert.Ref.Rr x := rfl

/-- The kernel program's unfolded output is the specification. -/
theorem ker_eq (x : FVec Ideal Cert.KernelIdeal.S4x3x512x512 .f32) (W : FVec Ideal Cert.KernelIdeal.S36x12 .f32) (B : FVec Ideal Cert.KernelIdeal.S36 .f32) :
    Cert.Ker.Ttail (Cert.Ker.OutFold x W B) = Tsplit (Cert.Ker.Rk x) W B := by
  funext j
  obtain ⟨b, c, h, pi, w, pj, rfl⟩ : ∃ (b : Fin 4) (c : Fin 3) (h : Fin 256) (pi : Fin 2) (w : Fin 256) (pj : Fin 2), j = ix6 b c h pi w pj :=
    ⟨j 0, j 1, j 2, j 3, j 4, j 5, eq_ix6 j⟩
  rw [Cert.Ker.Ttail_apply, Cert.Ker.OutFold_ix4, Tsplit_ix6]
  unfold Cert.Ker.outVal TsplitC att lin bodyVal
  simp only [attK_eq, linK_eq, Cert.Ker.Xfold_apply, Cert.Ker.Wq_apply, Cert.Ker.Wk_apply, Cert.Ker.Wv_apply, Cert.Ker.bq_apply,
    Cert.Ker.bk_apply, Cert.Ker.bv_apply, Cert.Ker.btab_apply]

/-- The reference's result before its last reshape is the specification. -/
theorem ref_eq (x : FVec Ideal Cert.ReferenceIdeal.S4x3x512x512 .f32) (W : FVec Ideal Cert.ReferenceIdeal.S36x12 .f32) (B : FVec Ideal Cert.ReferenceIdeal.S36 .f32) :
    Cert.Ref.T x W B = Tsplit (Cert.Ref.Rr x) W B := by
  funext j
  obtain ⟨b, c, h, pi, w, pj, rfl⟩ : ∃ (b : Fin 4) (c : Fin 3) (h : Fin 256) (pi : Fin 2) (w : Fin 256) (pj : Fin 2), j = ix6 b c h pi w pj :=
    ⟨j 0, j 1, j 2, j 3, j 4, j 5, eq_ix6 j⟩
  unfold Cert.Ref.T
  rw [Cert.Ref.Tof_apply, Tsplit_ix6]
  unfold TsplitC att lin
  simp only [Cert.Ref.qkv_apply, linR_eq]
  rfl

end Cert.Bridge

end
-- ==== Proof.lean ====
/-
  The certificate of the windowed patch attention: a Pallas kernel that folds every 2×2 patch of the padded image into
  twelve channels, applies three affine maps q, k, v of the channel axis by twelve multiply-adds each, and sums over
  the 3×3 window of patches the products q·k·β·v (β a fixed table of position weights; no softmax), against the jnp
  reference that stacks the nine shifted views of the patch grid and does one contraction with the whole weight matrix.

  Over the extended reals both results are, before the last reshape and the residual addition they share, the array
  'Cert.Attn.Tsplit' of the padded patches, the weights and the biases (Proof/Spec.lean). The kernel's run is read off
  its generated frame (each image's output block is the body's value from that image's input block: Proof/KValue.lean
  over Proof/KAtt.lean and Proof/KLin.lean); the reference's run is its straight line of host operations
  (Proof/RefRun.lean) read at an index (Proof/RefQkv.lean, Proof/RefTail.lean); Proof/Bridge.lean joins them. The two
  sides differ only in the order of additions and of factors, so the precondition is never opened.
-/
import proofs.«181481_j52390011076755_1_alg».proof.Defs
import proofs.«181481_j52390011076755_1_alg».proof.Proof.Gen.Kernel
import proofs.«181481_j52390011076755_1_alg».proof.Proof.Gen.Kernel.Skeleton
import proofs.«181481_j52390011076755_1_alg».proof.Proof.Gen.Kernel.Launch
import proofs.«181481_j52390011076755_1_alg».proof.Proof.Gen.Kernel.Points
import proofs.«181481_j52390011076755_1_alg».proof.Proof.Gen.Kernel.Frame
import proofs.«181481_j52390011076755_1_alg».proof.Proof.Gen.KernelIdeal
import proofs.«181481_j52390011076755_1_alg».proof.Proof.Gen.KernelIdeal.Skeleton
import proofs.«181481_j52390011076755_1_alg».proof.Proof.Gen.KernelIdeal.Launch
import proofs.«181481_j52390011076755_1_alg».proof.Proof.Gen.KernelIdeal.Points
import proofs.«181481_j52390011076755_1_alg».proof.Proof.Gen.KernelIdeal.Frame
import proofs.«181481_j52390011076755_1_alg».proof.Proof.Gen.ReferenceIdeal
import proofs.«181481_j52390011076755_1_alg».proof.Proof.Gen.Pre_finite_inputs
import proofs.«181481_j52390011076755_1_alg».proof.Proof.KValue
import proofs.«181481_j52390011076755_1_alg».proof.Proof.RefRun
import proofs.«181481_j52390011076755_1_alg».proof.Proof.Bridge
import Idealize.ShloMosaic.Adequacy
import Idealize.ShloMosaic.Init

noncomputable section

namespace Cert.Proof

open Idealize.ShloMosaic Idealize.SL.Sem

/-- The word-level kernel program terminates without a fault and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.Ref.run (F := Ideal) m ρ)

/-- The ideal pass rewrote nothing: the idealized kernel is the kernel's own text read over the extended reals. -/
theorem preserves : Cert.preserves_Kernel_KernelIdeal := trivial

/-- From memories agreeing on the arguments both programs end at the image plus the reshaped specification: the kernel's
    unfolded output and the reference's last array are both `Tsplit` of the same padded patches, weights and biases. -/
theorem algebraic : Cert.algebraic_KernelIdeal_ReferenceIdeal := by
  intro m ρ m' ρ' _ hagree
  refine ⟨_, Cert.Ker.run m ρ, ?_⟩
  refine (θ_run Cert.ReferenceIdeal.defs _ _).mono (fun r h c => ⟨(h c).1.trans ?_, (h c).2⟩)
    (Cert.Ref.run (F := Ideal) m' ρ')
  rw [Cert.Bridge.ker_eq, Cert.Bridge.ref_eq, (hagree c).1, (hagree c).2.1, (hagree c).2.2, ← Cert.Bridge.R_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
